-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S40000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S2000x128 : Shape := ⟨2, ![2000, 128]⟩
abbrev S680000x128 : Shape := ⟨2, ![680000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S_, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S_, .i32⟩
  | .hbm, ⟨30, _⟩ => ⟨S680000, .i32⟩
  | .hbm, ⟨31, _⟩ => ⟨S680000, .i1⟩
  | .hbm, ⟨32, _⟩ => ⟨S_, .i32⟩
  | .hbm, ⟨33, _⟩ => ⟨S680000, .i32⟩
  | .hbm, ⟨34, _⟩ => ⟨S680000, .i32⟩
  | .hbm, ⟨35, _⟩ => ⟨S680000, .i32⟩
  | .hbm, ⟨36, _⟩ => ⟨S680000x1, .i32⟩
  | .hbm, ⟨37, _⟩ => ⟨S680000, .f32⟩
  | .hbm, ⟨38, _⟩ => ⟨S_, .i32⟩
  | .hbm, ⟨39, _⟩ => ⟨S680000, .i32⟩
  | .hbm, ⟨40, _⟩ => ⟨S680000, .i1⟩
  | .hbm, ⟨41, _⟩ => ⟨S_, .i32⟩
  | .hbm, ⟨42, _⟩ => ⟨S680000, .i32⟩
  | .hbm, ⟨43, _⟩ => ⟨S680000, .i32⟩
  | .hbm, ⟨44, _⟩ => ⟨S680000, .i32⟩
  | .hbm, ⟨45, _⟩ => ⟨S680000x1, .i32⟩
  | .hbm, ⟨46, _⟩ => ⟨S680000, .f32⟩
  | .hbm, ⟨47, _⟩ => ⟨S680000, .f32⟩
  | .hbm, ⟨48, _⟩ => ⟨S40000x128, .f32⟩
  | .hbm, ⟨49, _⟩ => ⟨S_, .i32⟩
  | .hbm, ⟨50, _⟩ => ⟨S680000, .i32⟩
  | .hbm, ⟨51, _⟩ => ⟨S680000, .i1⟩
  | .hbm, ⟨52, _⟩ => ⟨S_, .i32⟩
  | .hbm, ⟨53, _⟩ => ⟨S680000, .i32⟩
  | .hbm, ⟨54, _⟩ => ⟨S680000, .i32⟩
  | .hbm, ⟨55, _⟩ => ⟨S680000, .i32⟩
  | .hbm, ⟨56, _⟩ => ⟨S680000x1, .i32⟩
  | .hbm, ⟨57, _⟩ => ⟨S680000x128, .f32⟩
  | .hbm, ⟨58, _⟩ => ⟨S680000x1, .f32⟩
  | .hbm, ⟨59, _⟩ => ⟨S680000x128, .f32⟩
  | .hbm, ⟨60, _⟩ => ⟨S680000x128, .f32⟩
  | .hbm, ⟨61, _⟩ => ⟨S_, .f32⟩
  | .hbm, ⟨62, _⟩ => ⟨S40000x128, .f32⟩
  | .hbm, ⟨63, _⟩ => ⟨S680000x1, .i32⟩
  | .hbm, ⟨64, _⟩ => ⟨S40000x128, .f32⟩
  | .hbm, ⟨65, _⟩ => ⟨S1x128, .f32⟩
  | .hbm, ⟨66, _⟩ => ⟨S40000x128, .f32⟩
  | .hbm, ⟨67, _⟩ => ⟨S1x128, .f32⟩
  | .hbm, ⟨68, _⟩ => ⟨S1x128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_v46_2 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S2000x128_S128x128_S2000x128_1_0_0_1_n_n_wf : DotDims.WF S2000x128 S128x128 S2000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S40000x128.size a
  hwx1_2 : ∀ i : grid1.Coords, EltTy.bits .f32 = 32 ∨ (Rect.block (s := S40000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S40000x128.size a
  hwx2_5 : ∀ i : grid2.Coords, EltTy.bits .f32 = 32 ∨ (Rect.block (s := S40000x128) S2000x128.size (cc2_transform_5 i) (hinb2_5 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S_, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S_, .i32⟩
  | .hbm, ⟨30, _⟩ => ⟨S680000, .i32⟩
  | .hbm, ⟨31, _⟩ => ⟨S680000, .i1⟩
  | .hbm, ⟨32, _⟩ => ⟨S_, .i32⟩
  | .hbm, ⟨33, _⟩ => ⟨S680000, .i32⟩
  | .hbm, ⟨34, _⟩ => ⟨S680000, .i32⟩
  | .hbm, ⟨35, _⟩ => ⟨S680000, .i32⟩
  | .hbm, ⟨36, _⟩ => ⟨S680000x1, .i32⟩
  | .hbm, ⟨37, _⟩ => ⟨S680000, .f32⟩
  | .hbm, ⟨38, _⟩ => ⟨S_, .i32⟩
  | .hbm, ⟨39, _⟩ => ⟨S680000, .i32⟩
  | .hbm, ⟨40, _⟩ => ⟨S680000, .i1⟩
  | .hbm, ⟨41, _⟩ => ⟨S_, .i32⟩
  | .hbm, ⟨42, _⟩ => ⟨S680000, .i32⟩
  | .hbm, ⟨43, _⟩ => ⟨S680000, .i32⟩
  | .hbm, ⟨44, _⟩ => ⟨S680000, .i32⟩
  | .hbm, ⟨45, _⟩ => ⟨S680000x1, .i32⟩
  | .hbm, ⟨46, _⟩ => ⟨S680000, .f32⟩
  | .hbm, ⟨47, _⟩ => ⟨S680000, .f32⟩
  | .hbm, ⟨48, _⟩ => ⟨S40000x128, .f32⟩
  | .hbm, ⟨49, _⟩ => ⟨S_, .i32⟩
  | .hbm, ⟨50, _⟩ => ⟨S680000, .i32⟩
  | .hbm, ⟨51, _⟩ => ⟨S680000, .i1⟩
  | .hbm, ⟨52, _⟩ => ⟨S_, .i32⟩
  | .hbm, ⟨53, _⟩ => ⟨S680000, .i32⟩
  | .hbm, ⟨54, _⟩ => ⟨S680000, .i32⟩
  | .hbm, ⟨55, _⟩ => ⟨S680000, .i32⟩
  | .hbm, ⟨56, _⟩ => ⟨S680000x1, .i32⟩
  | .hbm, ⟨57, _⟩ => ⟨S680000x128, .f32⟩
  | .hbm, ⟨58, _⟩ => ⟨S680000x1, .f32⟩
  | .hbm, ⟨59, _⟩ => ⟨S680000x128, .f32⟩
  | .hbm, ⟨60, _⟩ => ⟨S680000x128, .f32⟩
  | .hbm, ⟨61, _⟩ => ⟨S_, .f32⟩
  | .hbm, ⟨62, _⟩ => ⟨S40000x128, .f32⟩
  | .hbm, ⟨63, _⟩ => ⟨S680000x1, .i32⟩
  | .hbm, ⟨64, _⟩ => ⟨S40000x128, .f32⟩
  | .hbm, ⟨65, _⟩ => ⟨S1x128, .f32⟩
  | .hbm, ⟨66, _⟩ => ⟨S40000x128, .f32⟩
  | .hbm, ⟨67, _⟩ => ⟨S40000x128, .f32⟩
  | .hbm, ⟨68, _⟩ => ⟨S_, .f32⟩
  | .hbm, ⟨69, _⟩ => ⟨S40000x128, .f32⟩
  | .hbm, ⟨70, _⟩ => ⟨S40000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S40000x128, .f32⟩
  | .hbm, ⟨84, _⟩ => ⟨S40000x128, .f32⟩
  | .hbm, ⟨85, _⟩ => ⟨S40000x128, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S40000x128, .f32⟩
  | .hbm, ⟨101, _⟩ => ⟨S40000x128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S1x128, .f32⟩
  | .hbm, ⟨107, _⟩ => ⟨S40000x128, .f32⟩
  | .hbm, ⟨108, _⟩ => ⟨S40000x128, .f32⟩
  | .hbm, ⟨109, _⟩ => ⟨S1x128, .f32⟩
  | .hbm, ⟨110, _⟩ => ⟨S40000x128, .f32⟩
  | .hbm, ⟨111, _⟩ => ⟨S40000x128, .f32⟩
  | .hbm, ⟨112, _⟩ => ⟨S1x128, .f32⟩
  | .hbm, ⟨113, _⟩ => ⟨S40000x128, .f32⟩
  | .hbm, ⟨114, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_13 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x128_S128x128_S40000x128_1_0_0_1_n_n_wf : DotDims.WF S40000x128 S128x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf

class Facts : Prop extends Facts₀ where

variable [Facts]
-- ==== Proof.Chain.lean ====
/-
  The graph part of the layer, shared by both programs, as functions of the edge list.

  From the [2, 640000] edge list: sources and targets with one self-loop per node appended (680000 entries each);
  every node's degree, the number of entries whose target it is; the symmetric normalisation
  `deg^(-1/2)` (0 where the degree is not positive) taken at the source and at the target of each entry and
  multiplied; and the aggregation: row `n` of the result is the sum, over the entries whose target is `n`, of the
  source's row of `h` times the entry's normalisation.  Index words are read as the host operations read them:
  a gather wraps a negative word by 40000 and clamps, a scatter drops a word outside [0, 40000).

  The dimension records and shape facts the operations cite are a parameter (`Recs`), so that one text serves both
  programs, each with its own records.
-/
import Idealize.ShloMosaic.PureOps.Ideal
import Idealize.ShloMosaic.Lib.ValueIdx

noncomputable section

namespace Cert.Chain

open Idealize.ShloMosaic

abbrev S2xE : Shape := ⟨2, ![2, 640000]⟩
abbrev S1xE : Shape := ⟨2, ![1, 640000]⟩
abbrev SE : Shape := ⟨1, ![640000]⟩
abbrev SN : Shape := ⟨1, ![40000]⟩
abbrev SM : Shape := ⟨1, ![680000]⟩
abbrev SMx1 : Shape := ⟨2, ![680000, 1]⟩
abbrev SMxC : Shape := ⟨2, ![680000, 128]⟩
abbrev SNC : Shape := ⟨2, ![40000, 128]⟩
abbrev S0 : Shape := ⟨0, ![]⟩

/-- The shape facts and dimension records the chain's operations cite. -/
structure Recs where
  sl0 : S2xE.Slices ![0, 0] S1xE
  sl1 : S2xE.Slices ![1, 0] S1xE
  cast : S1xE.ShapeCasts SE
  conc : Shape.Concatenates [SE, SN] SM 0
  bM : S0.BroadcastsInDim SM (![] : Fin 0 → Fin SM.rank)
  bN : S0.BroadcastsInDim SN (![] : Fin 0 → Fin SN.rank)
  bCol : SM.BroadcastsInDim SMx1 (![0] : Fin 1 → Fin SMx1.rank)
  bRow : SMx1.BroadcastsInDim SMxC (![0, 1] : Fin 2 → Fin SMxC.rank)
  bNC : S0.BroadcastsInDim SNC (![] : Fin 0 → Fin SNC.rank)
  scat1 : ScatterDims SN SMx1 SM
  gath1 : GatherDims SN SMx1 SM
  gath2 : GatherDims SNC SMx1 SMxC
  scat2 : ScatterDims SNC SMx1 SMxC

variable (ρ : Recs)

/-- Row `k` of the edge list followed by the self-loops 0, 1, …, 39999. -/
def src (ei : IVec S2xE 32) : IVec SM 32 :=
  concatenate SM 0 [⟨SE, shapeCast SE (extractStridedSlice S1xE ![0, 0] ei ρ.sl0) ρ.cast⟩, ⟨SN, iotaInDim SN 32 0⟩] ρ.conc

def dst (ei : IVec S2xE 32) : IVec SM 32 :=
  concatenate SM 0 [⟨SE, shapeCast SE (extractStridedSlice S1xE ![1, 0] ei ρ.sl1) ρ.cast⟩, ⟨SN, iotaInDim SN 32 0⟩] ρ.conc

/-- The degree of every node: the count of entries it is the target of. -/
def deg (ei : IVec S2xE 32) : FVec Ideal SN .f32 :=
  Host.scatterAdd ρ.scat1 (broadcastInDim SN ![] ρ.bN (constant S0 .f32 0x00000000#32))
    (broadcastInDim SMx1 ![0] ρ.bCol (dst ρ ei))
    (broadcastInDim SM ![] ρ.bM (constant S0 .f32 0x3F800000#32))

/-- `deg^(-1/2)` where the degree is positive, 0 elsewhere. -/
def dinv (ei : IVec S2xE 32) : FVec Ideal SN .f32 :=
  select (cmpf .ogt (deg ρ ei) (broadcastInDim SN ![] ρ.bN (constant S0 .f32 0x00000000#32)))
    (Host.powf (deg ρ ei) (broadcastInDim SN ![] ρ.bN (constant S0 .f32 0xBF000000#32)))
    (broadcastInDim SN ![] ρ.bN (id (constant S0 .f32 0x00000000#32)))

/-- A gather's index words: a negative word wrapped by 40000. -/
def wrap (v : IVec SM 32) : IVec SM 32 :=
  select (cmpi .slt v (broadcastInDim SM ![] ρ.bM (constantI S0 32 0#32)))
    (addi v (broadcastInDim SM ![] ρ.bM (constantI S0 32 40000#32))) v

/-- Each entry's normalisation: `dinv` at its source times `dinv` at its target. -/
def nrm (ei : IVec S2xE 32) : FVec Ideal SM .f32 :=
  mulf (Host.gather ρ.gath1 (dinv ρ ei) (broadcastInDim SMx1 ![0] ρ.bCol (wrap ρ (src ρ ei))))
    (Host.gather ρ.gath1 (dinv ρ ei) (broadcastInDim SMx1 ![0] ρ.bCol (wrap ρ (dst ρ ei))))

/-- The messages: each entry's source row of `h`, scaled by the entry's normalisation. -/
def msgs (h : FVec Ideal SNC .f32) (ei : IVec S2xE 32) : FVec Ideal SMxC .f32 :=
  mulf (Host.gather ρ.gath2 h (broadcastInDim SMx1 ![0] ρ.bCol (wrap ρ (src ρ ei))))
    (broadcastInDim SMxC ![0, 1] ρ.bRow (broadcastInDim SMx1 ![0] ρ.bCol (nrm ρ ei)))

/-- The aggregation: every node's row is the sum of the messages of the entries it is the target of. -/
def agg (h : FVec Ideal SNC .f32) (ei : IVec S2xE 32) : FVec Ideal SNC .f32 :=
  Host.scatterAdd ρ.scat2 (broadcastInDim SNC ![] ρ.bNC (constant S0 .f32 0x00000000#32))
    (broadcastInDim SMx1 ![0] ρ.bCol (dst ρ ei)) (msgs ρ h ei)

end Cert.Chain

end
-- ==== Proof.KHost.lean ====
/-
  The kernel program's host operations between its three pallas_calls, read as functions of the buffers they read:
  before the projection, the sources, the targets and each entry's normalisation from the edge list; between the
  projection and the statistics, the aggregation of the projection's result and the bias as a row; between the
  statistics and the normalisation, the column means and the variance as the mean of the squares minus the square of
  the mean, and the scale and shift as rows.
-/
import proofs.«117184_j5583457485036_1_alg».proof.Proof.Gen.KernelIdeal.Frame
import proofs.«117184_j5583457485036_1_alg».proof.Proof.Chain
import Idealize.ShloMosaic.Lib.StableHlo.Run

set_option maxRecDepth 16384

noncomputable section

namespace Cert.KernelIdeal.KV

open Idealize.ShloMosaic Idealize.ShloMosaic.TcCoe Idealize.SL.Sem Idealize.ShloMosaic.StableHlo
open Cert.KernelIdeal Cert.KernelIdeal.Gen

/-- The kernel program's shape facts and dimension records, as the shared chain takes them. -/
def recs : Cert.Chain.Recs where
  sl0 := Facts₀.slices_S2x640000_S1x640000_0_0
  sl1 := Facts₀.slices_S2x640000_S1x640000_1_0
  cast := Facts₀.shapeCasts_S1x640000_S640000
  conc := Facts₀.concatenates_S640000_S40000_S680000_d0
  bM := Facts₀.bcast_S_S680000
  bN := Facts₀.bcast_S_S40000
  bCol := Facts₀.bcast_S680000_S680000x1_0
  bRow := Facts₀.bcast_S680000x1_S680000x128_0_1
  bNC := Facts₀.bcast_S_S40000x128
  scat1 := scatter_S40000_S680000x1_S680000_n_0_0_1
  gath1 := gather_S40000_S680000x1_S680000_n_0_n_n_0_1_1
  gath2 := gather_S40000x128_S680000x1_S680000x128_1_0_n_n_0_1_1128
  scat2 := scatter_S40000x128_S680000x1_S680000x128_1_0_0_1

variable (V : Valuation τ sig (Elt Ideal))

attribute [local irreducible] Host.scatterAdd Host.gather Host.powf concatenate

/-! ## Before the projection -/

theorem pre_src : after (hostOps0 (F := Ideal)) V (main_v3 : DevRef τ sig) = Cert.Chain.src recs (V (main_arg1 : DevRef τ sig)) := by
  after_results_simp
  rfl

theorem pre_dst : after (hostOps0 (F := Ideal)) V (main_v6 : DevRef τ sig) = Cert.Chain.dst recs (V (main_arg1 : DevRef τ sig)) := by
  after_results_simp
  rfl

/-- The degree test `deg > 0`. -/
theorem pre_pos : after (hostOps0 (F := Ideal)) V (main_v12 : DevRef τ sig)
    = cmpf .ogt (Cert.Chain.deg recs (V (main_arg1 : DevRef τ sig)))
        (broadcastInDim S40000 ![] Facts₀.bcast_S_S40000 (constant S_ .f32 0x00000000#32)) := by
  after_results_simp
  rfl

/-- The degree to the power -1/2. -/
theorem pre_pow : after (hostOps0 (F := Ideal)) V (main_v14 : DevRef τ sig)
    = Host.powf (Cert.Chain.deg recs (V (main_arg1 : DevRef τ sig)))
        (broadcastInDim S40000 ![] Facts₀.bcast_S_S40000 (constant S_ .f32 0xBF000000#32)) := by
  after_results_simp
  rfl

theorem pre_zero : after (hostOps0 (F := Ideal)) V (main_cst_3 : DevRef τ sig) = (constant S_ .f32 0x00000000#32 : FVec Ideal S_ .f32) := by
  after_results_simp

/-- The selection: the power where the degree is positive, zero elsewhere. -/
theorem sel_dinv : after (hostOps0_1 (F := Ideal)) V (main_v15 : DevRef τ sig)
    = select (V (main_v12 : DevRef τ sig)) (V (main_v14 : DevRef τ sig))
        (broadcastInDim S40000 ![] Facts₀.bcast_S_S40000 (id (V (main_cst_3 : DevRef τ sig)))) := by
  after_results_simp
  rfl

theorem sel_src : after (hostOps0_1 (F := Ideal)) V (main_v3 : DevRef τ sig) = V (main_v3 : DevRef τ sig) := by
  after_results_simp
theorem sel_dst : after (hostOps0_1 (F := Ideal)) V (main_v6 : DevRef τ sig) = V (main_v6 : DevRef τ sig) := by
  after_results_simp

/-- Each entry's normalisation from the sources, the targets and `dinv`. -/
theorem nrm_of : after (hostOps0_2 (F := Ideal)) V (main_v30 : DevRef τ sig)
    = (mulf (Host.gather recs.gath1 (V (main_v15 : DevRef τ sig))
          (broadcastInDim S680000x1 ![0] Facts₀.bcast_S680000_S680000x1_0 (Cert.Chain.wrap recs (V (main_v3 : DevRef τ sig)))))
        (Host.gather recs.gath1 (V (main_v15 : DevRef τ sig))
          (broadcastInDim S680000x1 ![0] Facts₀.bcast_S680000_S680000x1_0 (Cert.Chain.wrap recs (V (main_v6 : DevRef τ sig)))))
        : FVec Ideal S680000 .f32) := by
  after_results_simp
  rfl

theorem nrm_src : after (hostOps0_2 (F := Ideal)) V (main_v3 : DevRef τ sig) = V (main_v3 : DevRef τ sig) := by
  after_results_simp
theorem nrm_dst : after (hostOps0_2 (F := Ideal)) V (main_v6 : DevRef τ sig) = V (main_v6 : DevRef τ sig) := by
  after_results_simp

/-! ## Between the projection and the statistics -/

/-- The aggregation of the projection's result, from the sources, the targets and the normalisation. -/
theorem agg_of : after (hostOps1 (F := Ideal)) V (main_v44 : DevRef τ sig)
    = (Host.scatterAdd recs.scat2
        (broadcastInDim S40000x128 ![] Facts₀.bcast_S_S40000x128 (constant S_ .f32 0x00000000#32))
        (broadcastInDim S680000x1 ![0] Facts₀.bcast_S680000_S680000x1_0 (V (main_v6 : DevRef τ sig)))
        (mulf (Host.gather recs.gath2 (V (main_v31 : DevRef τ sig))
            (broadcastInDim S680000x1 ![0] Facts₀.bcast_S680000_S680000x1_0 (Cert.Chain.wrap recs (V (main_v3 : DevRef τ sig)))))
          (broadcastInDim S680000x128 ![0, 1] Facts₀.bcast_S680000x1_S680000x128_0_1
            (broadcastInDim S680000x1 ![0] Facts₀.bcast_S680000_S680000x1_0 (V (main_v30 : DevRef τ sig)))))
        : FVec Ideal S40000x128 .f32) := by
  after_results_simp
  rfl

/-- The bias as a [1, 128] row. -/
theorem bias_row : after (hostOps1 (F := Ideal)) V (main_v45 : DevRef τ sig)
    = shapeCast S1x128 (V (main_arg3 : DevRef τ sig)) Facts₀.shapeCasts_S128_S1x128 := by
  after_results_simp
  rfl

/-! ## Between the statistics and the normalisation -/

/-- The column means as a row: the sums divided by the node count. -/
theorem mean_row : after (hostOps2 (F := Ideal)) V (main_v55 : DevRef τ sig)
    = (shapeCast S1x128
        (Host.divf (shapeCast S128 (V (main_v46_1 : DevRef τ sig)) Facts₀.shapeCasts_S1x128_S128)
          (broadcastInDim S128 ![] Facts₀.bcast_S_S128 (constant S_ .f32 0x471C4000#32)))
        Facts₀.shapeCasts_S128_S1x128 : FVec Ideal S1x128 .f32) := by
  after_results_simp
  rfl

/-- The variance as a row: the mean of the squares minus the square of the mean. -/
theorem var_row : after (hostOps2 (F := Ideal)) V (main_v56 : DevRef τ sig)
    = (shapeCast S1x128
        (subf
          (Host.divf (shapeCast S128 (V (main_v46_2 : DevRef τ sig)) Facts₀.shapeCasts_S1x128_S128)
            (broadcastInDim S128 ![] Facts₀.bcast_S_S128 (constant S_ .f32 0x471C4000#32)))
          (mulf
            (Host.divf (shapeCast S128 (V (main_v46_1 : DevRef τ sig)) Facts₀.shapeCasts_S1x128_S128)
              (broadcastInDim S128 ![] Facts₀.bcast_S_S128 (constant S_ .f32 0x471C4000#32)))
            (Host.divf (shapeCast S128 (V (main_v46_1 : DevRef τ sig)) Facts₀.shapeCasts_S1x128_S128)
              (broadcastInDim S128 ![] Facts₀.bcast_S_S128 (constant S_ .f32 0x471C4000#32)))))
        Facts₀.shapeCasts_S128_S1x128 : FVec Ideal S1x128 .f32) := by
  after_results_simp
  rfl

theorem scale_row : after (hostOps2 (F := Ideal)) V (main_v57 : DevRef τ sig)
    = shapeCast S1x128 (V (main_arg4 : DevRef τ sig)) Facts₀.shapeCasts_S128_S1x128 := by
  after_results_simp
  rfl

theorem shift_row : after (hostOps2 (F := Ideal)) V (main_v58 : DevRef τ sig)
    = shapeCast S1x128 (V (main_arg5 : DevRef τ sig)) Facts₀.shapeCasts_S128_S1x128 := by
  after_results_simp
  rfl

theorem rect_kept : after (hostOps2 (F := Ideal)) V (main_v46_0 : DevRef τ sig) = V (main_v46_0 : DevRef τ sig) := by
  after_results_simp

/-! ## What the stretches leave alone -/

theorem kept0_arg0 : after (hostOps0 (F := Ideal)) V (main_arg0 : DevRef τ sig) = V (main_arg0 : DevRef τ sig) := by
  after_results_simp
theorem kept01_arg0 : after (hostOps0_1 (F := Ideal)) V (main_arg0 : DevRef τ sig) = V (main_arg0 : DevRef τ sig) := by
  after_results_simp
theorem kept02_arg0 : after (hostOps0_2 (F := Ideal)) V (main_arg0 : DevRef τ sig) = V (main_arg0 : DevRef τ sig) := by
  after_results_simp
theorem kept0_arg2 : after (hostOps0 (F := Ideal)) V (main_arg2 : DevRef τ sig) = V (main_arg2 : DevRef τ sig) := by
  after_results_simp
theorem kept01_arg2 : after (hostOps0_1 (F := Ideal)) V (main_arg2 : DevRef τ sig) = V (main_arg2 : DevRef τ sig) := by
  after_results_simp
theorem kept02_arg2 : after (hostOps0_2 (F := Ideal)) V (main_arg2 : DevRef τ sig) = V (main_arg2 : DevRef τ sig) := by
  after_results_simp
theorem kept0_arg3 : after (hostOps0 (F := Ideal)) V (main_arg3 : DevRef τ sig) = V (main_arg3 : DevRef τ sig) := by
  after_results_simp
theorem kept01_arg3 : after (hostOps0_1 (F := Ideal)) V (main_arg3 : DevRef τ sig) = V (main_arg3 : DevRef τ sig) := by
  after_results_simp
theorem kept02_arg3 : after (hostOps0_2 (F := Ideal)) V (main_arg3 : DevRef τ sig) = V (main_arg3 : DevRef τ sig) := by
  after_results_simp
theorem kept0_arg4 : after (hostOps0 (F := Ideal)) V (main_arg4 : DevRef τ sig) = V (main_arg4 : DevRef τ sig) := by
  after_results_simp
theorem kept01_arg4 : after (hostOps0_1 (F := Ideal)) V (main_arg4 : DevRef τ sig) = V (main_arg4 : DevRef τ sig) := by
  after_results_simp
theorem kept02_arg4 : after (hostOps0_2 (F := Ideal)) V (main_arg4 : DevRef τ sig) = V (main_arg4 : DevRef τ sig) := by
  after_results_simp
theorem kept0_arg5 : after (hostOps0 (F := Ideal)) V (main_arg5 : DevRef τ sig) = V (main_arg5 : DevRef τ sig) := by
  after_results_simp
theorem kept01_arg5 : after (hostOps0_1 (F := Ideal)) V (main_arg5 : DevRef τ sig) = V (main_arg5 : DevRef τ sig) := by
  after_results_simp
theorem kept02_arg5 : after (hostOps0_2 (F := Ideal)) V (main_arg5 : DevRef τ sig) = V (main_arg5 : DevRef τ sig) := by
  after_results_simp
theorem kept1_arg4 : after (hostOps1 (F := Ideal)) V (main_arg4 : DevRef τ sig) = V (main_arg4 : DevRef τ sig) := by
  after_results_simp
theorem kept1_arg5 : after (hostOps1 (F := Ideal)) V (main_arg5 : DevRef τ sig) = V (main_arg5 : DevRef τ sig) := by
  after_results_simp

end Cert.KernelIdeal.KV

end
-- ==== Proof.Spec.lean ====
/-
  The mathematics of the layer, over the extended reals, as functions of whole arrays.

  A graph-convolution layer followed by a batch normalisation over the node axis: with `R` the [40000, 128] array
  after the bias and the rectifier, column `j` is centred by its mean `(∑ᵣ R r j) / 40000` and scaled by
  `rsqrt (var j + ε)`, then by `γ j`, and shifted by `β j`.  The two programs differ in the variance only: one takes
  the mean of the squares minus the square of the mean (`varK`), the other the mean of the squared deviations
  (`varR`).
-/
import Idealize.ShloMosaic.PureOps.Ideal
import Idealize.ShloMosaic.Lib.ValueIdx

noncomputable section

namespace Cert.Spec

open Idealize.ShloMosaic Idealize.ShloMosaic.ValueIdx

/-- nodes × channels -/
abbrev SNC : Shape := ⟨2, ![40000, 128]⟩
/-- channels × channels -/
abbrev SCC : Shape := ⟨2, ![128, 128]⟩
/-- a row of channels, kept two-dimensional -/
abbrev S1C : Shape := ⟨2, ![1, 128]⟩
/-- a vector of channels -/
abbrev SC : Shape := ⟨1, ![128]⟩

/-- the number of nodes, as the float literal both programs divide by -/
abbrev cN : EReal := Ideal.ofBits .f32 0x471C4000#32
/-- the variance's guard -/
abbrev eps : EReal := Ideal.ofBits .f32 0x3727C5AC#32
/-- the float zero -/
abbrev z : EReal := Ideal.ofBits .f32 0x00000000#32

/-- The dense projection: entry (n, j) is `∑ₖ x n k · w k j`. -/
def mm (x : SNC.Idx → EReal) (w : SCC.Idx → EReal) : SNC.Idx → EReal :=
  fun i => ∑ k : Fin 128, x (ix2 (i 0 : Fin 40000) k) * w (ix2 k (i 1 : Fin 128))

/-- Bias (a [1, 128] row) added to every node's row, then the rectifier. -/
def relu2 (a : SNC.Idx → EReal) (b2 : S1C.Idx → EReal) : SNC.Idx → EReal :=
  fun i => max (a i + b2 (ix2 (0 : Fin 1) (i 1 : Fin 128))) z

/-- Bias (a [128] vector) added to every node's row, then the rectifier. -/
def relu1 (a : SNC.Idx → EReal) (b : SC.Idx → EReal) : SNC.Idx → EReal :=
  fun i => max (a i + b (ix1 (i 1 : Fin 128))) z

/-- The column sums, as a [1, 128] row. -/
def colsum (R : SNC.Idx → EReal) : S1C.Idx → EReal :=
  fun j => ∑ r : Fin 40000, R (ix2 r (j 1 : Fin 128))

/-- The column sums of squares, as a [1, 128] row. -/
def colsq (R : SNC.Idx → EReal) : S1C.Idx → EReal :=
  fun j => ∑ r : Fin 40000, R (ix2 r (j 1 : Fin 128)) * R (ix2 r (j 1 : Fin 128))

/-- The normalisation with the statistics given as [1, 128] rows: `((R − mean) · rsqrt (var + ε)) · γ + β`. -/
def norm2 (R : SNC.Idx → EReal) (mean var g2 b2 : S1C.Idx → EReal) : SNC.Idx → EReal :=
  fun i => (R i - mean (ix2 (0 : Fin 1) (i 1 : Fin 128)))
      * Ideal.rsqrt (var (ix2 (0 : Fin 1) (i 1 : Fin 128)) + eps)
      * g2 (ix2 (0 : Fin 1) (i 1 : Fin 128)) + b2 (ix2 (0 : Fin 1) (i 1 : Fin 128))

/-- Column `j`'s mean. -/
def meanOf (R : SNC.Idx → EReal) (j : Fin 128) : EReal :=
  Ideal.div (∑ r : Fin 40000, R (ix2 r j)) cN

/-- The variance as the mean of the squares minus the square of the mean. -/
def varK (R : SNC.Idx → EReal) (j : Fin 128) : EReal :=
  Ideal.div (∑ r : Fin 40000, R (ix2 r j) * R (ix2 r j)) cN - meanOf R j * meanOf R j

/-- The variance as the mean of the squared deviations from the mean. -/
def varR (R : SNC.Idx → EReal) (j : Fin 128) : EReal :=
  Ideal.div (∑ r : Fin 40000, (R (ix2 r j) - meanOf R j) * (R (ix2 r j) - meanOf R j)) cN

/-- The normalised output for a given variance: `((R − mean) · rsqrt (var + ε)) · γ + β`, column by column. -/
def outOf (var : Fin 128 → EReal) (R : SNC.Idx → EReal) (g b : SC.Idx → EReal) : SNC.Idx → EReal :=
  fun i => (R i - meanOf R (i 1 : Fin 128)) * Ideal.rsqrt (var (i 1 : Fin 128) + eps)
      * g (ix1 (i 1 : Fin 128)) + b (ix1 (i 1 : Fin 128))

/-- Every entry is a real number. -/
def IsReal {s : Shape} (v : s.Idx → EReal) : Prop := ∀ i, ∃ r : ℝ, v i = (r : EReal)

end Cert.Spec

end
-- ==== Proof.KRows.lean ====
/-
  Rows and vectors.  A [128] vector reshaped to a [1, 128] row reads, at column j, the vector's entry j, and back;
  so the statistics computed through such reshapes are the column statistics: the sums' row divided by the node count
  is the column mean, and the squares' row divided by it, less the squared mean, is the variance in its first form.
-/
import proofs.«117184_j5583457485036_1_alg».proof.Proof.Spec
import Idealize.ShloMosaic.Lib.ValueIdx
import Idealize.ShloMosaic.Lib.Pipeline.Value
import Idealize.ShloMosaic.Lib.IdealHost

noncomputable section

namespace Cert.Spec.Rows

open Idealize.ShloMosaic Idealize.ShloMosaic.ValueIdx Cert.Spec

abbrev S0 : Shape := ⟨0, ![]⟩

/-- A vector reshaped to a row, at column `j`. -/
theorem row_of_vec {α : Type} (v : SC.Idx → α) (h : SC.ShapeCasts S1C) (j : Fin 128) :
    shapeCast S1C v h (ix2 (0 : Fin 1) j) = v (ix1 j) := by
  refine (shapeCast_addUnit_apply ![128] v h (ix2 (0 : Fin 1) j)).trans (congrArg v ?_)
  funext a
  match a with
  | ⟨0, _⟩ => rfl

/-- A row reshaped to a vector, at entry `j`. -/
theorem vec_of_row {α : Type} (r : S1C.Idx → α) (h : S1C.ShapeCasts SC) (j : Fin 128) :
    shapeCast SC r h (ix1 j) = r (ix2 (0 : Fin 1) j) := by
  refine (shapeCast_dropUnit_apply ![128] r h (ix1 j)).trans (congrArg r ?_)
  funext a
  match a with
  | ⟨0, _⟩ => rfl
  | ⟨1, _⟩ => rfl

/-- The bias given as a row is the bias given as a vector. -/
theorem relu2_row (A : SNC.Idx → EReal) (b : SC.Idx → EReal) (h : SC.ShapeCasts S1C) :
    relu2 A (shapeCast S1C b h) = relu1 A b := by
  funext i
  obtain ⟨n, j, rfl⟩ : ∃ (n : Fin 40000) (j : Fin 128), i = ix2 n j := ⟨i 0, i 1, eq_ix2 i⟩
  show max (A (ix2 n j) + shapeCast S1C b h (ix2 (0 : Fin 1) j)) z = max (A (ix2 n j) + b (ix1 j)) z
  rw [row_of_vec]

/-- The sums' row, reshaped, divided by the node count and reshaped back, is the column mean. -/
theorem mean_row_apply (R : SNC.Idx → EReal) (h1 : S1C.ShapeCasts SC) (h2 : SC.ShapeCasts S1C)
    (hb : S0.BroadcastsInDim SC (![] : Fin 0 → Fin SC.rank)) (j : Fin 128) :
    shapeCast S1C (Host.divf (F := Ideal) (φ := .f32) (shapeCast SC (colsum R) h1)
        (broadcastInDim SC ![] hb (constant (F := Ideal) S0 .f32 0x471C4000#32))) h2 (ix2 (0 : Fin 1) j)
      = meanOf R j := by
  rw [row_of_vec, hostDivf_apply, vec_of_row, broadcastInDim_scalar_apply]
  rfl

/-- The squares' row, likewise, less the squared mean, is the variance as the mean of the squares minus the square of the mean. -/
theorem var_row_apply (R : SNC.Idx → EReal) (h1 : S1C.ShapeCasts SC) (h2 : SC.ShapeCasts S1C)
    (hb : S0.BroadcastsInDim SC (![] : Fin 0 → Fin SC.rank)) (j : Fin 128) :
    shapeCast S1C
        (subf (F := Ideal) (φ := .f32)
          (Host.divf (shapeCast SC (colsq R) h1) (broadcastInDim SC ![] hb (constant (F := Ideal) S0 .f32 0x471C4000#32)))
          (mulf
            (Host.divf (shapeCast SC (colsum R) h1) (broadcastInDim SC ![] hb (constant (F := Ideal) S0 .f32 0x471C4000#32)))
            (Host.divf (shapeCast SC (colsum R) h1) (broadcastInDim SC ![] hb (constant (F := Ideal) S0 .f32 0x471C4000#32)))))
        h2 (ix2 (0 : Fin 1) j)
      = varK R j := by
  rw [row_of_vec, subf_apply, mulf_apply, hostDivf_apply, hostDivf_apply, vec_of_row, vec_of_row,
    broadcastInDim_scalar_apply]
  rfl

/-- The normalisation over rows is the layer's output with the variance in its first form. -/
theorem norm2_rows (R : SNC.Idx → EReal) (g be : SC.Idx → EReal) (h1 : S1C.ShapeCasts SC) (h2 : SC.ShapeCasts S1C)
    (hb : S0.BroadcastsInDim SC (![] : Fin 0 → Fin SC.rank)) :
    norm2 R
        (shapeCast S1C (Host.divf (F := Ideal) (φ := .f32) (shapeCast SC (colsum R) h1)
          (broadcastInDim SC ![] hb (constant (F := Ideal) S0 .f32 0x471C4000#32))) h2)
        (shapeCast S1C
          (subf (F := Ideal) (φ := .f32)
            (Host.divf (shapeCast SC (colsq R) h1) (broadcastInDim SC ![] hb (constant (F := Ideal) S0 .f32 0x471C4000#32)))
            (mulf
              (Host.divf (shapeCast SC (colsum R) h1) (broadcastInDim SC ![] hb (constant (F := Ideal) S0 .f32 0x471C4000#32)))
              (Host.divf (shapeCast SC (colsum R) h1) (broadcastInDim SC ![] hb (constant (F := Ideal) S0 .f32 0x471C4000#32)))))
          h2)
        (shapeCast S1C g h2) (shapeCast S1C be h2)
      = outOf (varK R) R g be := by
  funext i
  obtain ⟨n, j, rfl⟩ : ∃ (n : Fin 40000) (j : Fin 128), i = ix2 n j := ⟨i 0, i 1, eq_ix2 i⟩
  unfold norm2 outOf
  show (R (ix2 n j) - _ ) * Ideal.rsqrt (_ + eps) * shapeCast S1C g h2 (ix2 (0 : Fin 1) j) + shapeCast S1C be h2 (ix2 (0 : Fin 1) j)
    = (R (ix2 n j) - meanOf R j) * Ideal.rsqrt (varK R j + eps) * g (ix1 j) + be (ix1 j)
  rw [mean_row_apply R h1 h2 hb j, var_row_apply R h1 h2 hb j, row_of_vec, row_of_vec]

end Cert.Spec.Rows

end
-- ==== Proof.KValue.lean ====
/-
  The kernel program's result as one function of its six arguments.  Boundary by boundary: the sources, targets and
  normalisation before the projection; the projection's result array is the matrix product; the aggregation and the
  bias row after it; the statistics' three arrays; the means and the variance; and the normalisation's result array.
  Read at an index, the rows [1, 128] are the vectors [128] they were reshaped from, so the result is the layer's
  output with the variance taken as the mean of the squares minus the square of the mean.
-/
import proofs.«117184_j5583457485036_1_alg».proof.Proof.KHost
import proofs.«117184_j5583457485036_1_alg».proof.Proof.Spec
import proofs.«117184_j5583457485036_1_alg».proof.Proof.KRows
import Idealize.ShloMosaic.Lib.ValueIdx
import Idealize.ShloMosaic.Lib.ValueLayout
import Idealize.ShloMosaic.Lib.Pipeline.Value

set_option maxRecDepth 16384

noncomputable section

namespace Cert.KernelIdeal.KV

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg) (c : Dev nD)

/-- The six arguments' launch contents. -/
abbrev ax : FVec Ideal S40000x128 .f32 := m ((c : Thread nD τ).loc main_arg0)
abbrev aei : IVec S2x640000 32 := m ((c : Thread nD τ).loc main_arg1)
abbrev aw : FVec Ideal S128x128 .f32 := m ((c : Thread nD τ).loc main_arg2)
abbrev ab : FVec Ideal S128 .f32 := m ((c : Thread nD τ).loc main_arg3)
abbrev ag : FVec Ideal S128 .f32 := m ((c : Thread nD τ).loc main_arg4)
abbrev abe : FVec Ideal S128 .f32 := m ((c : Thread nD τ).loc main_arg5)

/-! ## At the projection's entry -/

theorem W3_arg0 : W3 (F := Ideal) m ρ c (main_arg0 : DevRef τ sig) = ax m c :=
  (kept02_arg0 (W2 m ρ c)).trans ((kept01_arg0 (W1 m ρ c)).trans (kept0_arg0 (W0 m ρ c)))
theorem W3_arg2 : W3 (F := Ideal) m ρ c (main_arg2 : DevRef τ sig) = aw m c :=
  (kept02_arg2 (W2 m ρ c)).trans ((kept01_arg2 (W1 m ρ c)).trans (kept0_arg2 (W0 m ρ c)))
theorem W3_arg3 : W3 (F := Ideal) m ρ c (main_arg3 : DevRef τ sig) = ab m c :=
  (kept02_arg3 (W2 m ρ c)).trans ((kept01_arg3 (W1 m ρ c)).trans (kept0_arg3 (W0 m ρ c)))
theorem W3_arg4 : W3 (F := Ideal) m ρ c (main_arg4 : DevRef τ sig) = ag m c :=
  (kept02_arg4 (W2 m ρ c)).trans ((kept01_arg4 (W1 m ρ c)).trans (kept0_arg4 (W0 m ρ c)))
theorem W3_arg5 : W3 (F := Ideal) m ρ c (main_arg5 : DevRef τ sig) = abe m c :=
  (kept02_arg5 (W2 m ρ c)).trans ((kept01_arg5 (W1 m ρ c)).trans (kept0_arg5 (W0 m ρ c)))

theorem W2_src : W2 (F := Ideal) m ρ c (main_v3 : DevRef τ sig) = Cert.Chain.src recs (aei m c) :=
  (sel_src (W1 m ρ c)).trans (pre_src (W0 m ρ c))
theorem W2_dst : W2 (F := Ideal) m ρ c (main_v6 : DevRef τ sig) = Cert.Chain.dst recs (aei m c) :=
  (sel_dst (W1 m ρ c)).trans (pre_dst (W0 m ρ c))
theorem W3_src : W3 (F := Ideal) m ρ c (main_v3 : DevRef τ sig) = Cert.Chain.src recs (aei m c) :=
  (nrm_src (W2 m ρ c)).trans (W2_src m ρ c)
theorem W3_dst : W3 (F := Ideal) m ρ c (main_v6 : DevRef τ sig) = Cert.Chain.dst recs (aei m c) :=
  (nrm_dst (W2 m ρ c)).trans (W2_dst m ρ c)

theorem W2_dinv : W2 (F := Ideal) m ρ c (main_v15 : DevRef τ sig) = Cert.Chain.dinv recs (aei m c) := by
  refine (sel_dinv (W1 m ρ c)).trans ?_
  rw [show W1 (F := Ideal) m ρ c (main_v12 : DevRef τ sig) = _ from pre_pos (W0 m ρ c),
    show W1 (F := Ideal) m ρ c (main_v14 : DevRef τ sig) = _ from pre_pow (W0 m ρ c),
    show W1 (F := Ideal) m ρ c (main_cst_3 : DevRef τ sig) = _ from pre_zero (W0 m ρ c)]
  rfl

theorem W3_nrm : W3 (F := Ideal) m ρ c (main_v30 : DevRef τ sig) = Cert.Chain.nrm recs (aei m c) := by
  refine (nrm_of (W2 m ρ c)).trans ?_
  rw [W2_dinv m ρ c, W2_src m ρ c, W2_dst m ρ c]
  rfl

/-! ## Through the three pallas_calls

What each pallas_call leaves in its result arrays, as a function of the arrays it is entered with, is taken here as a
hypothesis (`Entry` is the TensorCore's buffers at a region's entry). -/

/-- The TensorCore's buffers when a region is entered. -/
abbrev Entry := (c : Dev nD) → (b : Ref sig .tc) → Buf (Elt Ideal) ((c : Thread nD τ).loc b)

variable
  (H0 : ∀ (V : Entry) (c : Dev nD), (dat0 (F := Ideal) V c).arrAt 2 cfg0.N = Cert.Spec.mm (V c main_arg0) (V c main_arg2))
  (H12 : ∀ (V : Entry) (c : Dev nD), (dat1 (F := Ideal) V c).arrAt 2 cfg1.N = Cert.Spec.relu2 (V c main_v44) (V c main_v45))
  (H13 : ∀ (V : Entry) (c : Dev nD), (dat1 (F := Ideal) V c).arrAt 3 cfg1.N
      = Cert.Spec.colsum (Cert.Spec.relu2 (V c main_v44) (V c main_v45)))
  (H14 : ∀ (V : Entry) (c : Dev nD), (dat1 (F := Ideal) V c).arrAt 4 cfg1.N
      = Cert.Spec.colsq (Cert.Spec.relu2 (V c main_v44) (V c main_v45)))
  (H2 : ∀ (V : Entry) (c : Dev nD), (dat2 (F := Ideal) V c).arrAt 5 cfg2.N
      = Cert.Spec.norm2 (V c main_v46_0) (V c main_v55) (V c main_v56) (V c main_v57) (V c main_v58))

/-- The projection's result. -/
abbrev hK : FVec Ideal S40000x128 .f32 := Cert.Spec.mm (ax m c) (aw m c)
/-- The aggregation of the projection's result. -/
abbrev aggK : FVec Ideal S40000x128 .f32 := Cert.Chain.agg recs (hK m c) (aei m c)
/-- The bias as a row. -/
abbrev bRow : FVec Ideal S1x128 .f32 := shapeCast S1x128 (ab m c) Facts₀.shapeCasts_S128_S1x128
/-- The rectified array. -/
abbrev rectK : FVec Ideal S40000x128 .f32 := Cert.Spec.relu2 (aggK m c) (bRow m c)

include H0 in
theorem W4_h : W4 (F := Ideal) m ρ c (main_v31 : DevRef τ sig) = hK m c := by
  refine (W4_arr m ρ c 2).trans ((H0 (V3 m ρ) c).trans ?_)
  show Cert.Spec.mm (W3 (F := Ideal) m ρ c (main_arg0 : DevRef τ sig)) (W3 (F := Ideal) m ρ c (main_arg2 : DevRef τ sig)) = _
  rw [W3_arg0, W3_arg2]

include H0 in
theorem W5_agg : W5 (F := Ideal) m ρ c (main_v44 : DevRef τ sig) = aggK m c := by
  refine (agg_of (W4 m ρ c)).trans ?_
  rw [W4_h m ρ c H0, (W4_of_ne m ρ c main_v3 (by decide)).trans (W3_src m ρ c),
    (W4_of_ne m ρ c main_v6 (by decide)).trans (W3_dst m ρ c),
    (W4_of_ne m ρ c main_v30 (by decide)).trans (W3_nrm m ρ c)]
  rfl

theorem W5_bias : W5 (F := Ideal) m ρ c (main_v45 : DevRef τ sig) = bRow m c := by
  refine (bias_row (W4 m ρ c)).trans ?_
  rw [(W4_of_ne m ρ c main_arg3 (by decide)).trans (W3_arg3 m ρ c)]

include H0 H12 in
theorem W6_rect : W6 (F := Ideal) m ρ c (main_v46_0 : DevRef τ sig) = rectK m c := by
  refine (W6_arr m ρ c 2).trans ((H12 (V5 m ρ) c).trans ?_)
  show Cert.Spec.relu2 (W5 (F := Ideal) m ρ c (main_v44 : DevRef τ sig)) (W5 (F := Ideal) m ρ c (main_v45 : DevRef τ sig)) = _
  rw [W5_agg m ρ c H0, W5_bias]

include H0 H13 in
theorem W6_sum : W6 (F := Ideal) m ρ c (main_v46_1 : DevRef τ sig) = Cert.Spec.colsum (rectK m c) := by
  refine (W6_arr m ρ c 3).trans ((H13 (V5 m ρ) c).trans ?_)
  show Cert.Spec.colsum (Cert.Spec.relu2 (W5 (F := Ideal) m ρ c (main_v44 : DevRef τ sig)) (W5 (F := Ideal) m ρ c (main_v45 : DevRef τ sig))) = _
  rw [W5_agg m ρ c H0, W5_bias]

include H0 H14 in
theorem W6_sq : W6 (F := Ideal) m ρ c (main_v46_2 : DevRef τ sig) = Cert.Spec.colsq (rectK m c) := by
  refine (W6_arr m ρ c 4).trans ((H14 (V5 m ρ) c).trans ?_)
  show Cert.Spec.colsq (Cert.Spec.relu2 (W5 (F := Ideal) m ρ c (main_v44 : DevRef τ sig)) (W5 (F := Ideal) m ρ c (main_v45 : DevRef τ sig))) = _
  rw [W5_agg m ρ c H0, W5_bias]

theorem W6_arg4 : W6 (F := Ideal) m ρ c (main_arg4 : DevRef τ sig) = ag m c :=
  (W6_of_ne m ρ c main_arg4 (by decide)).trans ((kept1_arg4 (W4 m ρ c)).trans
    ((W4_of_ne m ρ c main_arg4 (by decide)).trans (W3_arg4 m ρ c)))
theorem W6_arg5 : W6 (F := Ideal) m ρ c (main_arg5 : DevRef τ sig) = abe m c :=
  (W6_of_ne m ρ c main_arg5 (by decide)).trans ((kept1_arg5 (W4 m ρ c)).trans
    ((W4_of_ne m ρ c main_arg5 (by decide)).trans (W3_arg5 m ρ c)))

/-- The column means as a row. -/
abbrev meanRowK : FVec Ideal S1x128 .f32 :=
  shapeCast S1x128
    (Host.divf (shapeCast S128 (Cert.Spec.colsum (rectK m c)) Facts₀.shapeCasts_S1x128_S128)
      (broadcastInDim S128 ![] Facts₀.bcast_S_S128 (constant S_ .f32 0x471C4000#32)))
    Facts₀.shapeCasts_S128_S1x128
/-- The variance as a row. -/
abbrev varRowK : FVec Ideal S1x128 .f32 :=
  shapeCast S1x128
    (subf
      (Host.divf (shapeCast S128 (Cert.Spec.colsq (rectK m c)) Facts₀.shapeCasts_S1x128_S128)
        (broadcastInDim S128 ![] Facts₀.bcast_S_S128 (constant S_ .f32 0x471C4000#32)))
      (mulf
        (Host.divf (shapeCast S128 (Cert.Spec.colsum (rectK m c)) Facts₀.shapeCasts_S1x128_S128)
          (broadcastInDim S128 ![] Facts₀.bcast_S_S128 (constant S_ .f32 0x471C4000#32)))
        (Host.divf (shapeCast S128 (Cert.Spec.colsum (rectK m c)) Facts₀.shapeCasts_S1x128_S128)
          (broadcastInDim S128 ![] Facts₀.bcast_S_S128 (constant S_ .f32 0x471C4000#32)))))
    Facts₀.shapeCasts_S128_S1x128

include H0 H12 H13 H14 H2 in
/-- The result array after the run, over rows. -/
theorem W8_rows : W8 (F := Ideal) m ρ c (main_v59 : DevRef τ sig)
    = Cert.Spec.norm2 (rectK m c) (meanRowK m c) (varRowK m c)
        (shapeCast S1x128 (ag m c) Facts₀.shapeCasts_S128_S1x128)
        (shapeCast S1x128 (abe m c) Facts₀.shapeCasts_S128_S1x128) := by
  refine (W8_arr m ρ c 5).trans ((H2 (V7 m ρ) c).trans ?_)
  show Cert.Spec.norm2 (W7 (F := Ideal) m ρ c (main_v46_0 : DevRef τ sig)) (W7 (F := Ideal) m ρ c (main_v55 : DevRef τ sig))
    (W7 (F := Ideal) m ρ c (main_v56 : DevRef τ sig)) (W7 (F := Ideal) m ρ c (main_v57 : DevRef τ sig))
    (W7 (F := Ideal) m ρ c (main_v58 : DevRef τ sig)) = _
  rw [show W7 (F := Ideal) m ρ c (main_v46_0 : DevRef τ sig) = _ from rect_kept (W6 m ρ c),
    show W7 (F := Ideal) m ρ c (main_v55 : DevRef τ sig) = _ from mean_row (W6 m ρ c),
    show W7 (F := Ideal) m ρ c (main_v56 : DevRef τ sig) = _ from var_row (W6 m ρ c),
    show W7 (F := Ideal) m ρ c (main_v57 : DevRef τ sig) = _ from scale_row (W6 m ρ c),
    show W7 (F := Ideal) m ρ c (main_v58 : DevRef τ sig) = _ from shift_row (W6 m ρ c),
    W6_rect m ρ c H0 H12, W6_sum m ρ c H0 H13, W6_sq m ρ c H0 H14, W6_arg4, W6_arg5]

include H0 H12 H13 H14 H2 in
/-- The result array after the run: the layer's output of the six arguments, the variance taken as the mean of the
    squares minus the square of the mean. -/
theorem W8_out : W8 (F := Ideal) m ρ c (main_v59 : DevRef τ sig)
    = Cert.Spec.outOf (Cert.Spec.varK (Cert.Spec.relu1 (aggK m c) (ab m c))) (Cert.Spec.relu1 (aggK m c) (ab m c))
        (ag m c) (abe m c) := by
  refine (W8_rows m ρ c H0 H12 H13 H14 H2).trans ?_
  refine (Cert.Spec.Rows.norm2_rows (rectK m c) (ag m c) (abe m c) Facts₀.shapeCasts_S1x128_S128
    Facts₀.shapeCasts_S128_S1x128 Facts₀.bcast_S_S128).trans ?_
  rw [show rectK m c = Cert.Spec.relu1 (aggK m c) (ab m c) from Cert.Spec.Rows.relu2_row _ _ _]

end Cert.KernelIdeal.KV

end
-- ==== Proof.Reg0Value.lean ====
/-
  The projection kernel's result array: twenty row blocks of 2000 nodes, each block the product of the block's rows
  of `x` with the whole of `w`, together are the product `x · w` of the whole arrays.
-/
import proofs.«117184_j5583457485036_1_alg».proof.Proof.Gen.KernelIdeal.Frame
import proofs.«117184_j5583457485036_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (V : (c : Dev nD) → (b : Ref sig .tc) → Buf (Elt Ideal) ((c : Thread nD τ).loc b))

namespace R0

/-! ## One entry of a block's product -/

/-- The left operand's row coordinate is the result's row. -/
theorem proj_lhs_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column coordinate is the contracted coordinate. -/
theorem proj_lhs_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

/-- The right operand's row coordinate is the contracted coordinate. -/
theorem proj_rhs_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

/-- The right operand's column coordinate is the result's column. -/
theorem proj_rhs_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- One entry of a block's product: the row of the left block against the column of the right one. The conversions
    to the narrower format are the identity on the ideal values and the accumulator is the zero splat. -/
theorem proj_block_apply (x : FVec Ideal S2000x128 .f32) (w : FVec Ideal S128x128 .f32) (p : Fin 2000) (q : Fin 128) :
    k0_pay1 x w (ix2 p q) = ∑ k : Fin 128, x (ix2 p k) * w (ix2 k q) := by
  unfold k0_pay1
  show FloatOps.matmul dot_S2000x128_S128x128_S2000x128_1_0_0_1_n_n none _ _ (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact proj_lhs_0 _ _
    | ⟨1, _⟩ => exact (proj_lhs_1 _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (proj_rhs_0 _ _).trans hk
    | ⟨1, _⟩ => exact proj_rhs_1 _ _
  rw [hl, hr]
  rfl

/-- An entry of a block's product is an entry of the whole product, when the left block's row is the whole left
    array's row and the right block's column the whole right array's column. -/
theorem proj_point (x : FVec Ideal S2000x128 .f32) (w : FVec Ideal S128x128 .f32)
    (X : Cert.Spec.SNC.Idx → EReal) (W : Cert.Spec.SCC.Idx → EReal) (j : S2000x128.Idx) (i : Cert.Spec.SNC.Idx)
    (hx : ∀ k : Fin 128, x (ix2 (j 0 : Fin 2000) k) = X (ix2 (i 0 : Fin 40000) k))
    (hw : ∀ k : Fin 128, w (ix2 k (j 1 : Fin 128)) = W (ix2 k (i 1 : Fin 128))) :
    k0_pay1 (F := Ideal) x w j = Cert.Spec.mm X W i := by
  obtain ⟨p, q, rfl⟩ : ∃ (p : Fin 2000) (q : Fin 128), j = ix2 p q := ⟨j 0, j 1, eq_ix2 j⟩
  rw [proj_block_apply]
  unfold Cert.Spec.mm
  exact Finset.sum_congr rfl fun k _ => congrArg₂ (· * ·) (hx k) (hw k)

/-! ## From the blocks to the array -/

theorem proj_zero_off : (![0, 0] : Fin 2 → Nat) = fun _ => 0 := funext fun a => by fin_cases a <;> rfl

/-- The printed index maps over the grid: at point `t` the left operand's and the result's block is row block `t`, and
    the right operand's block is the whole array. -/
theorem proj_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the product of the arrays the kernel was entered with. -/
theorem proj_flushed (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 (F := Ideal) V c).after 2 t) = _
  rw [after0_2]
  unfold out0_2
  rw [View.canon_unit_zero proj_zero_off]
  simp only [View.ld_unit_zero (S := S2000x128) proj_zero_off, View.ld_unit_zero (S := S128x128) proj_zero_off]
  obtain ⟨e0, e1, e2, e3, e4, e5⟩ := proj_idx t
  refine funext fun (j : S2000x128.Idx) => ?_
  show k0_pay1 (iblk0 V c 0 t) (iblk0 V c 1 t) j
    = Cert.Spec.mm (V c main_arg0) (V c main_arg2) (((cfg0.win 2).blk t).view.emb j)
  refine proj_point _ _ _ _ j _ (fun k => ?_) (fun k => ?_)
  · show V c main_arg0 (((cfg0.win 0).blk t).view.emb (ix2 (j 0 : Fin 2000) k)) = V c main_arg0 _
    refine congrArg _ (funext fun a => Fin.ext ?_)
    match a with
    | ⟨0, _⟩ =>
      show win0_0.index t (0 : Fin 2) * 2000 + 1 * (j 0).val = win0_2.index t (0 : Fin 2) * 2000 + 1 * (j 0).val
      rw [e0, e4]
    | ⟨1, _⟩ =>
      show win0_0.index t (1 : Fin 2) * 128 + 1 * k.val = k.val
      rw [e1]; omega
  · show V c main_arg2 (((cfg0.win 1).blk t).view.emb (ix2 k (j 1 : Fin 128))) = V c main_arg2 _
    refine congrArg _ (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * (j 1).val = win0_2.index t (1 : Fin 2) * 128 + 1 * (j 1).val
      rw [e3, e5]

/-- An index of the result array is in point `t`'s block iff each coordinate is in the block's range on its axis. -/
theorem proj_mem_blk (t : Fin cfg0.N) (i : S40000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v31).slice (win0_2.rect t)).set ↔ _
  rw [View.set_slice_whole, Rect.mem_set_unit]
  exact Iff.rfl

/-- Every row of the result array is in some point's block: row `r` in that of point `r / 2000`. -/
theorem proj_cover (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨e0, e1, e2, e3, e4, e5⟩ := proj_idx t
  refine ⟨t, flush0_2 t, ?_⟩
  rw [proj_mem_blk]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 128 ≤ (i 1).val ∧ (i 1).val < win0_2.index t (1 : Fin 2) * 128 + 128
    rw [e5]; omega

end R0

/-- After the projection's twenty points its result array holds the matrix product of the arrays it was entered with. -/
theorem final0 (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => R0.proj_flushed V c t) R0.proj_cover

end Cert.KernelIdeal.KV

end
-- ==== Proof.Reg1Value.lean ====
/-
  The statistics kernel's three result arrays: the rectified, biased rows block by block, and the column sums and
  column sums of squares accumulated over the twenty row blocks into one [1, 128] row each.

  The rows are taken 2000 at a time.  Each block is rectified and written out as it stands; the two rows are set to zero
  at the first block and then each block's column sums (of the entries, of their squares) are added to them, so that
  after block `n` they hold the sums over the rows below `2000 (n + 1)`, and after the last block the sums over all
  40000 rows.  The sums are over the extended reals, a commutative additive monoid, so no finiteness is needed.
-/
import proofs.«117184_j5583457485036_1_alg».proof.Proof.Gen.KernelIdeal.Frame
import proofs.«117184_j5583457485036_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Data.Fintype.BigOperators
import Mathlib.Algebra.BigOperators.Group.Finset.Basic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

namespace R1

/-! ## What each control case leaves in the three result blocks -/

section Pieces
variable {F : FTy → Type} [FloatOps F]

theorem hz : (![0, 0] : Fin 2 → Nat) = fun _ => 0 := funext fun a => by fin_cases a <;> rfl

/-- At the first point the rectified block is stored. -/
theorem first_2 (c : Dev nD) (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S1x128 .f32) (h4 : a4.IsWhole) (a5 : Memref sig .tc .vmem S1x128 .f32) (h5 : a5.IsWhole) (hc : cond1_0 i)
    (x0 : Vec F S2000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz]
  simp only [View.readAt_eq_ld, h1.read_unread, h2.read_unread, View.ld_unit_zero (S := S2000x128) hz, View.ld_unit_zero (S := S1x128) hz]

/-- At a later point the rectified block is stored. -/
theorem later_2 (c : Dev nD) (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S1x128 .f32) (h4 : a4.IsWhole) (a5 : Memref sig .tc .vmem S1x128 .f32) (h5 : a5.IsWhole) (hc : ¬cond1_0 i)
    (x0 : Vec F S2000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, View.ld_unit_zero (S := S2000x128) hz, View.ld_unit_zero (S := S1x128) hz]

/-- At the first point the sum row is reset to zero, read back, and the block's column sums are added to it. -/
theorem first_3 (c : Dev nD) (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S1x128 .f32) (h4 : a4.IsWhole) (a5 : Memref sig .tc .vmem S1x128 .f32) (h5 : a5.IsWhole) (hc : cond1_0 i)
    (x0 : Vec F S2000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S2000x128) hz, View.ld_unit_zero (S := S1x128) hz]

/-- At a later point the block's column sums are added to the sum row carried from the point before. -/
theorem later_3 (c : Dev nD) (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S1x128 .f32) (h4 : a4.IsWhole) (a5 : Memref sig .tc .vmem S1x128 .f32) (h5 : a5.IsWhole) (hc : ¬cond1_0 i)
    (x0 : Vec F S2000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h4.read_unread, View.ld_unit_zero (S := S2000x128) hz, View.ld_unit_zero (S := S1x128) hz]

/-- At the first point the row of sums of squares is reset to zero, read back, and the block's column sums of squares are added to it. -/
theorem first_4 (c : Dev nD) (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S1x128 .f32) (h4 : a4.IsWhole) (a5 : Memref sig .tc .vmem S1x128 .f32) (h5 : a5.IsWhole) (hc : cond1_0 i)
    (x0 : Vec F S2000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S2000x128) hz, View.ld_unit_zero (S := S1x128) hz]

/-- At a later point the block's column sums of squares are added to the row carried from the point before. -/
theorem later_4 (c : Dev nD) (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S1x128 .f32) (h4 : a4.IsWhole) (a5 : Memref sig .tc .vmem S1x128 .f32) (h5 : a5.IsWhole) (hc : ¬cond1_0 i)
    (x0 : Vec F S2000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h5.read_unread, View.ld_unit_zero (S := S2000x128) hz, View.ld_unit_zero (S := S1x128) hz]

end Pieces

/-! ## The three payloads at an index, over the extended reals -/

/-- The rectified block: the bias row added to every row, then the maximum with zero. -/
theorem rect_apply (x0 : Vec Ideal S2000x128 .f32) (x1 : Vec Ideal S1x128 .f32) (r : Fin 2000) (j : Fin 128) :
    k1_pay3 x0 x1 (ix2 r j) = max (x0 (ix2 r j) + x1 (ix2 (0 : Fin 1) j)) Cert.Spec.z := by
  unfold k1_pay3
  show max (shapeCast S2000x128 x0 _ (ix2 r j) + broadcastTo S2000x128 (shapeCast S1x128 x1 _) _ (ix2 r j)) _ = _
  rw [shapeCast_self, shapeCast_self, broadcastTo_1b_ab_apply]
  rfl

/-- The reduced index `j` with row `k` put back is `(k, j)`. -/
theorem lift_row (h : S2000x128.Reduces [0] S128) (j : Fin 128) (k : Fin (S2000x128.size 0)) :
    h.lift (ix1 j) k = ix2 (⟨k.val, k.isLt⟩ : Fin 2000) j := by
  funext a; apply Fin.ext
  fin_cases a <;> rfl

/-- A block's column sums, laid out as a row: at `(0, j)` the sum of column `j` over the block's 2000 rows. -/
theorem colsum_row (y : FVec Ideal S2000x128 .f32) (h : S2000x128.Reduces [0] S128) (hφ : FKind.Formats .f32)
    (hacc : (0x00000000#32 : BitVec 32) = FKind.add.neutral .f32 hφ) (hc : S128.ShapeCasts S1x128) (u : Fin 1) (j : Fin 128) :
    shapeCast S1x128 (multiReduction (F := Ideal) .add [0] S128 y 0x00000000#32 h hφ hacc) hc (ix2 u j)
      = ∑ k : Fin 2000, y (ix2 k j) := by
  refine (shapeCast_a_1a_apply _ hc u j).trans ?_
  refine (Ideal.multiReduction_add_single y 0x00000000#32 h hφ hacc (ix1 j)).trans ?_
  exact Finset.sum_congr rfl fun k _ => congrArg y (lift_row h j k)

/-- The sum row's update: the row it held plus the block's column sums. -/
theorem sums_apply (x0 : Vec Ideal S2000x128 .f32) (x1 v : Vec Ideal S1x128 .f32) (u : Fin 1) (j : Fin 128) :
    k1_pay4 x0 x1 v (ix2 u j) = v (ix2 u j) + ∑ k : Fin 2000, k1_pay3 x0 x1 (ix2 k j) := by
  unfold k1_pay4
  show shapeCast S1x128 v _ (ix2 u j) + shapeCast S1x128 (multiReduction (F := Ideal) .add [0] S128 (k1_pay3 x0 x1) 0x00000000#32 _ _ _) _ (ix2 u j) = _
  rw [shapeCast_self]
  exact congrArg (v (ix2 u j) + ·) (colsum_row (k1_pay3 x0 x1) _ _ _ _ u j)

/-- The update of the row of sums of squares: the row it held plus the block's column sums of squares. -/
theorem squares_apply (x0 : Vec Ideal S2000x128 .f32) (x1 v : Vec Ideal S1x128 .f32) (u : Fin 1) (j : Fin 128) :
    k1_pay5 x0 x1 v (ix2 u j) = v (ix2 u j) + ∑ k : Fin 2000, k1_pay3 x0 x1 (ix2 k j) * k1_pay3 x0 x1 (ix2 k j) := by
  unfold k1_pay5
  show shapeCast S1x128 v _ (ix2 u j) + shapeCast S1x128 (multiReduction (F := Ideal) .add [0] S128 (mulf (k1_pay3 x0 x1) (k1_pay3 x0 x1)) 0x00000000#32 _ _ _) _ (ix2 u j) = _
  rw [shapeCast_self]
  exact congrArg (v (ix2 u j) + ·) (colsum_row (mulf (k1_pay3 x0 x1) (k1_pay3 x0 x1)) _ _ _ _ u j)

/-- The reset row is zero everywhere. -/
theorem zero_row_apply (u : Fin 1) (j : Fin 128) : (k1_pay1 (F := Ideal)) (ix2 u j) = 0 :=
  Ideal.ofBits_zero_f32

theorem zero_row_apply' (u : Fin 1) (j : Fin 128) : (k1_pay2 (F := Ideal)) (ix2 u j) = 0 :=
  Ideal.ofBits_zero_f32

/-! ## The blocks the windows read, as entries of the two argument arrays -/

variable (V : (c : Dev nD) → (b : Ref sig .tc) → Buf (Elt Ideal) ((c : Thread nD τ).loc b))

/-- The block of rows the kernel reads at a point, and the bias row it reads there. -/
abbrev ablk (c : Dev nD) (t : Fin cfg1.N) : Vec Ideal S2000x128 .f32 := iblk1 V c 0 t
abbrev bblk (c : Dev nD) (t : Fin cfg1.N) : Vec Ideal S1x128 .f32 := iblk1 V c 1 t
/-- The two arrays the kernel is entered with. -/
abbrev aarr (c : Dev nD) : Vec Ideal S40000x128 .f32 := V c main_v44
abbrev barr (c : Dev nD) : Vec Ideal S1x128 .f32 := V c main_v45

/-- The block indices of the five windows at each point: the row blocks move with the point, the rows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `n` of the 40000, for any natural number (reduced into range; below 40000 it is `n` itself). -/
def rowAt (n : ℕ) : Fin 40000 := ⟨n % 40000, Nat.mod_lt _ (by norm_num)⟩

theorem rowAt_val (r : Fin 40000) : rowAt r.val = r := Fin.ext (Nat.mod_eq_of_lt r.isLt)

/-- Row `r` of the block read at point `t` is row `2000 t + r` of the array. -/
theorem ablk_apply (c : Dev nD) (t : Fin cfg1.N) (r : Fin 2000) (j : Fin 128) :
    ablk V c t (ix2 r j) = aarr V c (ix2 (rowAt (2000 * t.val + r.val)) j) := by
  have hN : t.val < 20 := lt_of_lt_of_eq t.isLt (show cfg1.N = 20 from N_1)
  obtain ⟨e0, e1, -⟩ := idx_facts t
  show ((cfg1.win 0).blk t).view.read (Elt Ideal) (V c (Pipeline.arrRef spec1 0)) (ix2 r j) = _
  rw [View.read_apply]
  show V c main_v44 (((cfg1.win 0).blk t).view.emb (ix2 r j)) = V c main_v44 (ix2 (rowAt (2000 * t.val + r.val)) j)
  congr 1
  funext a
  apply Fin.ext
  match a with
  | ⟨0, _⟩ =>
    show win1_0.index t (0 : Fin 2) * 2000 + 1 * r.val = (2000 * t.val + r.val) % 40000
    rw [e0, Nat.mod_eq_of_lt (by have := r.isLt; omega)]; omega
  | ⟨1, _⟩ =>
    show win1_0.index t (1 : Fin 2) * 128 + 1 * j.val = j.val
    rw [e1]; omega

/-- The bias row read at any point is the bias row. -/
theorem bblk_apply (c : Dev nD) (t : Fin cfg1.N) (u : Fin 1) (j : Fin 128) :
    bblk V c t (ix2 u j) = barr V c (ix2 (0 : Fin 1) j) := by
  obtain ⟨-, -, e0, e1, -⟩ := idx_facts t
  show ((cfg1.win 1).blk t).view.read (Elt Ideal) (V c (Pipeline.arrRef spec1 1)) (ix2 u j) = _
  rw [View.read_apply]
  show V c main_v45 (((cfg1.win 1).blk t).view.emb (ix2 u j)) = V c main_v45 (ix2 (0 : Fin 1) j)
  congr 1
  funext a
  apply Fin.ext
  match a with
  | ⟨0, _⟩ =>
    show win1_1.index t (0 : Fin 2) * 1 + 1 * u.val = 0
    rw [e0]; omega
  | ⟨1, _⟩ =>
    show win1_1.index t (1 : Fin 2) * 128 + 1 * j.val = j.val
    rw [e1]; omega

/-- The rectified array, and column `j` of it as a sequence over the natural numbers. -/
abbrev R (c : Dev nD) : Cert.Spec.SNC.Idx → EReal := Cert.Spec.relu2 (V c main_v44) (V c main_v45)
def col (c : Dev nD) (j : Fin 128) (n : ℕ) : EReal := R V c (ix2 (rowAt n) j)

/-- Row `r` of the rectified block of point `t` is row `2000 t + r` of the rectified array. -/
theorem rect_block (c : Dev nD) (t : Fin cfg1.N) (r : Fin 2000) (j : Fin 128) :
    k1_pay3 (ablk V c t) (bblk V c t) (ix2 r j) = col V c j (2000 * t.val + r.val) := by
  rw [rect_apply, ablk_apply, bblk_apply]
  rfl

/-- The column sums of the rectified block of point `t`: the next 2000 terms of the column's sequence. -/
theorem block_sum (c : Dev nD) (t : Fin cfg1.N) (j : Fin 128) :
    ∑ k : Fin 2000, k1_pay3 (ablk V c t) (bblk V c t) (ix2 k j) = ∑ k ∈ Finset.range 2000, col V c j (2000 * t.val + k) := by
  rw [← Fin.sum_univ_eq_sum_range (fun k => col V c j (2000 * t.val + k)) 2000]
  exact Finset.sum_congr rfl fun k _ => rect_block V c t k j

theorem block_sum_sq (c : Dev nD) (t : Fin cfg1.N) (j : Fin 128) :
    ∑ k : Fin 2000, k1_pay3 (ablk V c t) (bblk V c t) (ix2 k j) * k1_pay3 (ablk V c t) (bblk V c t) (ix2 k j)
      = ∑ k ∈ Finset.range 2000, col V c j (2000 * t.val + k) * col V c j (2000 * t.val + k) := by
  rw [← Fin.sum_univ_eq_sum_range (fun k => col V c j (2000 * t.val + k) * col V c j (2000 * t.val + k)) 2000]
  exact Finset.sum_congr rfl fun k _ => by rw [rect_block V c t k j]

/-! ## What the three result blocks hold after each point -/

/-- After a first point: the rectified block, and the two rows started from zero. -/
theorem outsAt_first (c : Dev nD) (t : Fin cfg1.N) (h0 : t.val % 20 = 0) :
    outsAt1 V c t.val t.isLt
      = (k1_pay3 (ablk V c t) (bblk V c t), k1_pay4 (ablk V c t) (bblk V c t) (k1_pay1 (F := Ideal)),
          k1_pay5 (ablk V c t) (bblk V c t) (k1_pay2 (F := Ideal))) := by
  rw [outsAt1_A V c t h0, first_2, first_3, first_4]

/-- After a later point: the rectified block, and the two rows continued from the point before. -/
theorem outsAt_later (c : Dev nD) (t : Fin cfg1.N) (h0 : ¬t.val % 20 = 0) :
    outsAt1 V c t.val t.isLt
      = (k1_pay3 (ablk V c t) (bblk V c t),
          k1_pay4 (ablk V c t) (bblk V c t) (outsAt1 V c (t.val - 1) (Nat.lt_of_le_of_lt (Nat.sub_le _ _) t.isLt)).2.1,
          k1_pay5 (ablk V c t) (bblk V c t) (outsAt1 V c (t.val - 1) (Nat.lt_of_le_of_lt (Nat.sub_le _ _) t.isLt)).2.2) := by
  rw [outsAt1_B V c t h0, later_2, later_3, later_4]

/-- After point `n`: the rectified rows `2000 n … 2000 n + 1999`, and the column sums and column sums of squares of the
    rectified rows below `2000 (n + 1)` — by induction on the point. -/
theorem outsAt_inv (c : Dev nD) : ∀ (n : ℕ) (hn : n < cfg1.N),
    (∀ (r : Fin 2000) (j : Fin 128), (outsAt1 V c n hn).1 (ix2 r j) = col V c j (2000 * n + r.val))
    ∧ (∀ (u : Fin 1) (j : Fin 128), (outsAt1 V c n hn).2.1 (ix2 u j) = ∑ m ∈ Finset.range (2000 * (n + 1)), col V c j m)
    ∧ (∀ (u : Fin 1) (j : Fin 128),
        (outsAt1 V c n hn).2.2 (ix2 u j) = ∑ m ∈ Finset.range (2000 * (n + 1)), col V c j m * col V c j m)
  | 0, hn => by
    have e : outsAt1 V c 0 hn = _ := outsAt_first V c ⟨0, hn⟩ rfl
    rw [e]
    refine ⟨fun r j => ?_, fun u j => ?_, fun u j => ?_⟩
    · exact rect_block V c ⟨0, hn⟩ r j
    · show k1_pay4 (ablk V c ⟨0, hn⟩) (bblk V c ⟨0, hn⟩) (k1_pay1 (F := Ideal)) (ix2 u j) = _
      rw [sums_apply, zero_row_apply, zero_add, block_sum]
      exact Finset.sum_congr rfl fun k _ => congrArg (col V c j) (Nat.zero_add k)
    · show k1_pay5 (ablk V c ⟨0, hn⟩) (bblk V c ⟨0, hn⟩) (k1_pay2 (F := Ideal)) (ix2 u j) = _
      rw [squares_apply, zero_row_apply', zero_add, block_sum_sq]
      exact Finset.sum_congr rfl fun k _ => by rw [show 2000 * (⟨0, hn⟩ : Fin cfg1.N).val + k = k from Nat.zero_add k]
  | n + 1, hn => by
    have hN : cfg1.N = 20 := N_1
    have hB : ¬(⟨n + 1, hn⟩ : Fin cfg1.N).val % 20 = 0 := by dsimp only; omega
    obtain ⟨-, ih3, ih4⟩ := outsAt_inv c n (Nat.lt_of_succ_lt hn)
    have e : outsAt1 V c (n + 1) hn = _ := outsAt_later V c ⟨n + 1, hn⟩ hB
    rw [e]
    refine ⟨fun r j => ?_, fun u j => ?_, fun u j => ?_⟩
    · exact rect_block V c ⟨n + 1, hn⟩ r j
    · show k1_pay4 (ablk V c ⟨n + 1, hn⟩) (bblk V c ⟨n + 1, hn⟩) (outsAt1 V c n (Nat.lt_of_succ_lt hn)).2.1 (ix2 u j) = _
      rw [sums_apply, block_sum, ih3 u j, show 2000 * (n + 1 + 1) = 2000 * (n + 1) + 2000 from by ring, Finset.sum_range_add]
    · show k1_pay5 (ablk V c ⟨n + 1, hn⟩) (bblk V c ⟨n + 1, hn⟩) (outsAt1 V c n (Nat.lt_of_succ_lt hn)).2.2 (ix2 u j) = _
      rw [squares_apply, block_sum_sq, ih4 u j, show 2000 * (n + 1 + 1) = 2000 * (n + 1) + 2000 from by ring, Finset.sum_range_add]

/-! ## From the blocks to the three result arrays -/

/-- A whole column's sum, and its sum of squares, over the 40000 rows. -/
theorem col_sum_all (c : Dev nD) (j : Fin 128) :
    ∑ m ∈ Finset.range 40000, col V c j m = ∑ r : Fin 40000, R V c (ix2 r j) := by
  rw [← Fin.sum_univ_eq_sum_range (fun m => col V c j m) 40000]
  exact Finset.sum_congr rfl fun r _ => by unfold col; rw [rowAt_val]

theorem col_sq_all (c : Dev nD) (j : Fin 128) :
    ∑ m ∈ Finset.range 40000, col V c j m * col V c j m = ∑ r : Fin 40000, R V c (ix2 r j) * R V c (ix2 r j) := by
  rw [← Fin.sum_univ_eq_sum_range (fun m => col V c j m * col V c j m) 40000]
  exact Finset.sum_congr rfl fun r _ => by unfold col; rw [rowAt_val]

/-- The two specifications at an entry of their row. -/
theorem colsum_at (X : Cert.Spec.SNC.Idx → EReal) (u : Fin 1) (j : Fin 128) :
    Cert.Spec.colsum X (ix2 u j) = ∑ r : Fin 40000, X (ix2 r j) := by
  unfold Cert.Spec.colsum
  rfl

theorem colsq_at (X : Cert.Spec.SNC.Idx → EReal) (u : Fin 1) (j : Fin 128) :
    Cert.Spec.colsq X (ix2 u j) = ∑ r : Fin 40000, X (ix2 r j) * X (ix2 r j) := by
  unfold Cert.Spec.colsq
  rfl

/-- An entry of the rectified array lies in the block of point `t` iff its row lies in that point's 2000 rows. -/
theorem mem_blk_rect (t : Fin cfg1.N) (i : S40000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v46_0).slice (win1_2.rect t)).set ↔ _
  rw [View.set_slice_whole, Rect.mem_set_unit]
  exact Iff.rfl

/-- The last of the twenty points. -/
def lastPt : Fin cfg1.N := ⟨19, lt_of_lt_of_eq (by norm_num : 19 < 20) N_1.symm⟩

/-- What every point writes back of the rectified array is its block of it. -/
theorem flushed_rect (c : Dev nD) (t : Fin cfg1.N) :
    (dat1 (F := Ideal) V c).flushed 2 t = ((cfg1.win 2).blk t).view.read (Elt Ideal) (R V c) := by
  have hN : t.val < 20 := lt_of_lt_of_eq t.isLt (show cfg1.N = 20 from N_1)
  obtain ⟨-, -, -, -, e0, e1, -⟩ := idx_facts t
  show (cfg1.win 2).cut (grid1.coords t) ((dat1 (F := Ideal) V c).after 2 t) = _
  rw [after1_2]
  funext y
  obtain ⟨r, j, rfl⟩ : ∃ (r : Fin 2000) (j : Fin 128), y = ix2 r j := ⟨y 0, y 1, eq_ix2 y⟩
  rw [View.read_apply]
  have hemb : ((cfg1.win 2).blk t).view.emb (ix2 r j) = ix2 (rowAt (2000 * t.val + r.val)) j := by
    funext a; apply Fin.ext
    match a with
    | ⟨0, _⟩ =>
      show win1_2.index t (0 : Fin 2) * 2000 + 1 * r.val = (2000 * t.val + r.val) % 40000
      rw [e0, Nat.mod_eq_of_lt (by have := r.isLt; omega)]; omega
    | ⟨1, _⟩ =>
      show win1_2.index t (1 : Fin 2) * 128 + 1 * j.val = j.val
      rw [e1]; omega
  rw [hemb]
  show (outsAt1 V c t.val t.isLt).1 (ix2 r j) = _
  exact (outsAt_inv V c t.val t.isLt).1 r j

/-- Every entry of the rectified array lies in the block of the point its row belongs to. -/
theorem cover_rect (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 40000 := (i 0).isLt
  have h1 : (i 1 : Nat) < 128 := (i 1).isLt
  have hq : (i 0 : Nat) / 2000 < cfg1.N := lt_of_lt_of_eq (by omega : (i 0 : Nat) / 2000 < 20) N_1.symm
  obtain ⟨-, -, -, -, e0, e1, -⟩ := idx_facts ⟨(i 0 : Nat) / 2000, hq⟩
  refine ⟨⟨(i 0 : Nat) / 2000, hq⟩, flush1_2 _, ?_⟩
  rw [mem_blk_rect]
  intro a
  match a with
  | ⟨0, _⟩ =>
    show win1_2.index ⟨(i 0 : Nat) / 2000, hq⟩ (0 : Fin 2) * 2000 ≤ (i 0 : Nat)
      ∧ (i 0 : Nat) < win1_2.index ⟨(i 0 : Nat) / 2000, hq⟩ (0 : Fin 2) * 2000 + 2000
    rw [e0]; dsimp only; omega
  | ⟨1, _⟩ =>
    show win1_2.index ⟨(i 0 : Nat) / 2000, hq⟩ (1 : Fin 2) * 128 ≤ (i 1 : Nat)
      ∧ (i 1 : Nat) < win1_2.index ⟨(i 0 : Nat) / 2000, hq⟩ (1 : Fin 2) * 128 + 128
    rw [e1]; omega

/-- The one block of each of the two row arrays, read at `(u, j)`, is the array at `(0, j)`. -/
theorem read_row3 (t : Fin cfg1.N) (G : Vec Ideal S1x128 .f32) (u : Fin 1) (j : Fin 128) :
    ((cfg1.win 3).blk t).view.read (Elt Ideal) G (ix2 u j) = G (ix2 (0 : Fin 1) j) := by
  obtain ⟨-, -, -, -, -, -, e0, e1, -⟩ := idx_facts t
  rw [View.read_apply]
  show G (((cfg1.win 3).blk t).view.emb (ix2 u j)) = G (ix2 (0 : Fin 1) j)
  congr 1
  funext a; apply Fin.ext
  match a with
  | ⟨0, _⟩ =>
    show win1_3.index t (0 : Fin 2) * 1 + 1 * u.val = 0
    rw [e0]; omega
  | ⟨1, _⟩ =>
    show win1_3.index t (1 : Fin 2) * 128 + 1 * j.val = j.val
    rw [e1]; omega

theorem read_row4 (t : Fin cfg1.N) (G : Vec Ideal S1x128 .f32) (u : Fin 1) (j : Fin 128) :
    ((cfg1.win 4).blk t).view.read (Elt Ideal) G (ix2 u j) = G (ix2 (0 : Fin 1) j) := by
  obtain ⟨-, -, -, -, -, -, -, -, e0, e1⟩ := idx_facts t
  rw [View.read_apply]
  show G (((cfg1.win 4).blk t).view.emb (ix2 u j)) = G (ix2 (0 : Fin 1) j)
  congr 1
  funext a; apply Fin.ext
  match a with
  | ⟨0, _⟩ =>
    show win1_4.index t (0 : Fin 2) * 1 + 1 * u.val = 0
    rw [e0]; omega
  | ⟨1, _⟩ =>
    show win1_4.index t (1 : Fin 2) * 128 + 1 * j.val = j.val
    rw [e1]; omega

/-- The one write-back of the sum row, at the last point, writes the column sums of the whole rectified array. -/
theorem flushed_sums (c : Dev nD) (t : Fin cfg1.N) (hf : (cfg1.win 3).flush t = true) :
    (dat1 (F := Ideal) V c).flushed 3 t = ((cfg1.win 3).blk t).view.read (Elt Ideal) (Cert.Spec.colsum (R V c)) := by
  have hN : t.val < 20 := lt_of_lt_of_eq t.isLt (show cfg1.N = 20 from N_1)
  have h19 : t.val = 19 := by have := (flush1_3 t).mp hf; omega
  show (cfg1.win 3).cut (grid1.coords t) ((dat1 (F := Ideal) V c).after 3 t) = _
  rw [after1_3]
  funext y
  obtain ⟨u, j, rfl⟩ : ∃ (u : Fin 1) (j : Fin 128), y = ix2 u j := ⟨y 0, y 1, eq_ix2 y⟩
  refine Eq.trans ?_ (read_row3 t (Cert.Spec.colsum (R V c)) u j).symm
  rw [colsum_at]
  show (outsAt1 V c t.val t.isLt).2.1 (ix2 u j) = _
  rw [(outsAt_inv V c t.val t.isLt).2.1 u j, h19, show 2000 * (19 + 1) = 40000 from by norm_num]
  exact col_sum_all V c j

/-- The same for the row of sums of squares. -/
theorem flushed_squares (c : Dev nD) (t : Fin cfg1.N) (hf : (cfg1.win 4).flush t = true) :
    (dat1 (F := Ideal) V c).flushed 4 t = ((cfg1.win 4).blk t).view.read (Elt Ideal) (Cert.Spec.colsq (R V c)) := by
  have hN : t.val < 20 := lt_of_lt_of_eq t.isLt (show cfg1.N = 20 from N_1)
  have h19 : t.val = 19 := by have := (flush1_4 t).mp hf; omega
  show (cfg1.win 4).cut (grid1.coords t) ((dat1 (F := Ideal) V c).after 4 t) = _
  rw [after1_4]
  funext y
  obtain ⟨u, j, rfl⟩ : ∃ (u : Fin 1) (j : Fin 128), y = ix2 u j := ⟨y 0, y 1, eq_ix2 y⟩
  refine Eq.trans ?_ (read_row4 t (Cert.Spec.colsq (R V c)) u j).symm
  rw [colsq_at]
  show (outsAt1 V c t.val t.isLt).2.2 (ix2 u j) = _
  rw [(outsAt_inv V c t.val t.isLt).2.2 u j, h19, show 2000 * (19 + 1) = 40000 from by norm_num]
  exact col_sq_all V c j

/-- The one block of each of the two rows is the whole row, written back at the last point. -/
theorem cover_sums (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 1 := (i 0).isLt
  have h1 : (i 1 : Nat) < 128 := (i 1).isLt
  refine ⟨lastPt, (flush1_3 lastPt).mpr rfl, ?_⟩
  obtain ⟨-, -, -, -, -, -, e0, e1, -⟩ := idx_facts lastPt
  show i ∈ ((View.whole main_v46_1).slice (win1_3.rect lastPt)).set
  rw [View.set_slice_whole, Rect.mem_set_unit]
  intro a
  match a with
  | ⟨0, _⟩ =>
    show win1_3.index lastPt (0 : Fin 2) * 1 ≤ (i 0 : Nat) ∧ (i 0 : Nat) < win1_3.index lastPt (0 : Fin 2) * 1 + 1
    rw [e0]; omega
  | ⟨1, _⟩ =>
    show win1_3.index lastPt (1 : Fin 2) * 128 ≤ (i 1 : Nat) ∧ (i 1 : Nat) < win1_3.index lastPt (1 : Fin 2) * 128 + 128
    rw [e1]; omega

theorem cover_squares (c : Dev nD) (i : ((cfg1.win 4).arr.view.loc (c.tc : Thread nD τ)).2.ty.Idx) :
    ∃ t : Fin cfg1.N, (cfg1.win 4).flush t = true ∧ i ∈ ((cfg1.win 4).blk t).view.set := by
  have h0 : (i 0 : Nat) < 1 := (i 0).isLt
  have h1 : (i 1 : Nat) < 128 := (i 1).isLt
  refine ⟨lastPt, (flush1_4 lastPt).mpr rfl, ?_⟩
  obtain ⟨-, -, -, -, -, -, -, -, e0, e1⟩ := idx_facts lastPt
  show i ∈ ((View.whole main_v46_2).slice (win1_4.rect lastPt)).set
  rw [View.set_slice_whole, Rect.mem_set_unit]
  intro a
  match a with
  | ⟨0, _⟩ =>
    show win1_4.index lastPt (0 : Fin 2) * 1 ≤ (i 0 : Nat) ∧ (i 0 : Nat) < win1_4.index lastPt (0 : Fin 2) * 1 + 1
    rw [e0]; omega
  | ⟨1, _⟩ =>
    show win1_4.index lastPt (1 : Fin 2) * 128 ≤ (i 1 : Nat) ∧ (i 1 : Nat) < win1_4.index lastPt (1 : Fin 2) * 128 + 128
    rw [e1]; omega

end R1

variable (V : (c : Dev nD) → (b : Ref sig .tc) → Buf (Elt Ideal) ((c : Thread nD τ).loc b))

/-- The rectified array: `max (a + b, 0)` of the arrays the kernel was entered with. -/
theorem final1_2 (c : Dev nD) :
    (dat1 (F := Ideal) V c).arrAt 2 cfg1.N = Cert.Spec.relu2 (V c main_v44) (V c main_v45) :=
  (dat1 (F := Ideal) V c).arrAt_eq_of_cover 2 (R1.R V c) (fun t _ => R1.flushed_rect V c t) (R1.cover_rect c)

/-- The column sums of the rectified array. -/
theorem final1_3 (c : Dev nD) :
    (dat1 (F := Ideal) V c).arrAt 3 cfg1.N = Cert.Spec.colsum (Cert.Spec.relu2 (V c main_v44) (V c main_v45)) :=
  (dat1 (F := Ideal) V c).arrAt_eq_of_cover 3 (Cert.Spec.colsum (R1.R V c)) (R1.flushed_sums V c) (R1.cover_sums c)

/-- The column sums of squares of the rectified array. -/
theorem final1_4 (c : Dev nD) :
    (dat1 (F := Ideal) V c).arrAt 4 cfg1.N = Cert.Spec.colsq (Cert.Spec.relu2 (V c main_v44) (V c main_v45)) :=
  (dat1 (F := Ideal) V c).arrAt_eq_of_cover 4 (Cert.Spec.colsq (R1.R V c)) (R1.flushed_squares V c) (R1.cover_squares c)

end Cert.KernelIdeal.KV

end
-- ==== Proof.Reg2Value.lean ====
/-
  The normalisation kernel's result array: block by block, `((R − mean) · rsqrt (var + ε)) · γ + β` with the four
  statistics rows broadcast over the block's 2000 nodes, together the same function of the whole arrays.
-/
import proofs.«117184_j5583457485036_1_alg».proof.Proof.Gen.KernelIdeal.Frame
import proofs.«117184_j5583457485036_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (V : (c : Dev nD) → (b : Ref sig .tc) → Buf (Elt Ideal) ((c : Thread nD τ).loc b))

namespace R2

/-- The origin of a two-axis box. -/
theorem origin2 : (![0, 0] : Fin 2 → Nat) = fun _ => 0 := funext fun a => by fin_cases a <;> rfl

/-- The body's result at node `p`, channel `q` of its block: the node's entry less the channel's mean, scaled by
    the reciprocal root of the channel's guarded variance and by the channel's gain, plus the channel's offset. -/
theorem norm_block_apply (var : Vec Ideal S1x128 .f32) (R : Vec Ideal S2000x128 .f32) (mean g b : Vec Ideal S1x128 .f32)
    (p : Fin 2000) (q : Fin 128) :
    k2_pay1 var R mean g b (ix2 p q)
      = (R (ix2 p q) - mean (ix2 (0 : Fin 1) q)) * Ideal.rsqrt (var (ix2 (0 : Fin 1) q) + Cert.Spec.eps)
          * g (ix2 (0 : Fin 1) q) + b (ix2 (0 : Fin 1) q) := by
  unfold k2_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The block indices over the grid: the two node-blocked windows sit at block `(t, 0)`, the four rows at `(0, 0)`. -/
theorem index_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Point `t`'s block of the array to normalise is its rows `2000 t … 2000 t + 1999`. -/
theorem nodes_block_apply (c : Dev nD) (t : Fin cfg2.N) (x : S2000x128.Idx) (k : S40000x128.Idx)
    (hk0 : (k 0).val = 2000 * t.val + (x 0).val) (hk1 : (k 1).val = (x 1).val) :
    (iblk2 V c 0 t : Vec Ideal S2000x128 .f32) x = (V c main_v46_0 : S40000x128.Idx → EReal) k := by
  obtain ⟨e0, e1, -⟩ := index_facts t
  unfold iblk2
  rw [View.read_apply]
  show V c main_v46_0 _ = V c main_v46_0 _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- The mean row's block at every point is the row. -/
theorem mean_block_apply (c : Dev nD) (t : Fin cfg2.N) (y : S1x128.Idx) :
    (iblk2 V c 1 t : Vec Ideal S1x128 .f32) y = (V c main_v55 : S1x128.Idx → EReal) y := by
  obtain ⟨-, -, -, -, e0, e1, -⟩ := index_facts t
  unfold iblk2
  rw [View.read_apply]
  show V c main_v55 _ = V c main_v55 _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The variance row's block at every point is the row. -/
theorem var_block_apply (c : Dev nD) (t : Fin cfg2.N) (y : S1x128.Idx) :
    (iblk2 V c 2 t : Vec Ideal S1x128 .f32) y = (V c main_v56 : S1x128.Idx → EReal) y := by
  obtain ⟨-, -, -, -, -, -, e0, e1, -⟩ := index_facts t
  unfold iblk2
  rw [View.read_apply]
  show V c main_v56 _ = V c main_v56 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- The gain row's block at every point is the row. -/
theorem gain_block_apply (c : Dev nD) (t : Fin cfg2.N) (y : S1x128.Idx) :
    (iblk2 V c 3 t : Vec Ideal S1x128 .f32) y = (V c main_v57 : S1x128.Idx → EReal) y := by
  obtain ⟨-, -, -, -, -, -, -, -, e0, e1, -⟩ := index_facts t
  unfold iblk2
  rw [View.read_apply]
  show V c main_v57 _ = V c main_v57 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The offset row's block at every point is the row. -/
theorem offset_block_apply (c : Dev nD) (t : Fin cfg2.N) (y : S1x128.Idx) :
    (iblk2 V c 4 t : Vec Ideal S1x128 .f32) y = (V c main_v58 : S1x128.Idx → EReal) y := by
  obtain ⟨-, -, -, -, -, -, -, -, -, -, e0, e1⟩ := index_facts t
  unfold iblk2
  rw [View.read_apply]
  show V c main_v58 _ = V c main_v58 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The normalisation of whole arrays at an entry whose channel is `q`. -/
theorem norm2_apply (A : Cert.Spec.SNC.Idx → EReal) (M W G B : Cert.Spec.S1C.Idx → EReal) (k : Cert.Spec.SNC.Idx)
    (q : Fin 128) (hq : (k 1 : Fin 128) = q) :
    Cert.Spec.norm2 A M W G B k
      = (A k - M (ix2 (0 : Fin 1) q)) * Ideal.rsqrt (W (ix2 (0 : Fin 1) q) + Cert.Spec.eps)
          * G (ix2 (0 : Fin 1) q) + B (ix2 (0 : Fin 1) q) := by
  subst hq; rfl

/-- The body's result at an entry of point `t`'s block is the normalisation of the whole arrays at the array's entry
    the block's entry is: row `2000 t + ` the block's row, the same channel. -/
theorem norm_point (c : Dev nD) (t : Fin cfg2.N) (x : S2000x128.Idx) (k : S40000x128.Idx)
    (hk0 : (k 0).val = 2000 * t.val + (x 0).val) (hk1 : (k 1).val = (x 1).val) :
    k2_pay1 (iblk2 V c 2 t) (iblk2 V c 0 t) (iblk2 V c 1 t) (iblk2 V c 3 t) (iblk2 V c 4 t) x
      = Cert.Spec.norm2 (V c main_v46_0) (V c main_v55) (V c main_v56) (V c main_v57) (V c main_v58) k := by
  have eR := nodes_block_apply V c t x k hk0 hk1
  obtain ⟨p, q, rfl⟩ : ∃ (p : Fin 2000) (q : Fin 128), x = ix2 p q := ⟨x 0, x 1, eq_ix2 x⟩
  have hq : (k 1 : Fin 128) = q := Fin.ext hk1
  refine (norm_block_apply _ _ _ _ _ p q).trans ?_
  rw [eR, mean_block_apply V c t, var_block_apply V c t, gain_block_apply V c t, offset_block_apply V c t]
  exact (norm2_apply _ _ _ _ _ k q hq).symm

/-- What point `t` writes back is block `t` of the normalisation of the whole arrays. -/
theorem flushed_block (c : Dev nD) (t : Fin cfg2.N) :
    (dat2 (F := Ideal) V c).flushed 5 t
      = ((cfg2.win 5).blk t).view.read (Elt Ideal)
          (Cert.Spec.norm2 (V c main_v46_0) (V c main_v55) (V c main_v56) (V c main_v57) (V c main_v58)) := by
  show (cfg2.win 5).cut (grid2.coords t) ((dat2 V c).after 5 t) = _
  rw [after2_5]
  unfold out2_5
  rw [View.canon_unit_zero origin2]
  simp only [View.ld_unit_zero (S := S2000x128) origin2, View.ld_unit_zero (S := S1x128) origin2]
  obtain ⟨-, -, e0, e1, -⟩ := index_facts t
  funext j
  refine norm_point V c t j _ ?_ ?_
  · show win2_5.index t (0 : Fin 2) * 2000 + 1 * (j 0).val = 2000 * t.val + (j 0).val
    rw [e0]; omega
  · show win2_5.index t (1 : Fin 2) * 128 + 1 * (j 1).val = (j 1).val
    rw [e1]; omega

/-- An entry of the result array lies in point `t`'s block iff each coordinate lies in the block's range on its axis. -/
theorem mem_block (t : Fin cfg2.N) (i : S40000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v59).slice (win2_5.rect t)).set ↔ _
  rw [View.set_slice_whole, Rect.mem_set_unit]
  exact Iff.rfl

/-- Row `r` of the result array lies in the block of point `r / 2000`, and every point writes its block back. -/
theorem covered (i : S40000x128.Idx) :
    ∃ t : Fin cfg2.N, (cfg2.win 5).flush t = true ∧ i ∈ ((cfg2.win 5).blk t).view.set := by
  have hi0 : (i 0).val < 40000 := (i 0).isLt
  have hi1 : (i 1).val < 128 := (i 1).isLt
  have hN : cfg2.N = 20 := N_2
  refine ⟨⟨(i 0).val / 2000, by rw [hN]; omega⟩, flush2_5 _, ?_⟩
  rw [mem_block]
  obtain ⟨-, -, e0, e1, -⟩ := index_facts ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e0]; show (i 0).val / 2000 * 2000 ≤ (i 0).val ∧ (i 0).val < (i 0).val / 2000 * 2000 + 2000; omega
  | ⟨1, _⟩ =>
    show win2_5.index _ (1 : Fin 2) * 128 ≤ (i 1).val ∧ (i 1).val < win2_5.index _ (1 : Fin 2) * 128 + 128
    rw [e1]; omega

end R2

/-- After the normalisation's twenty points its result array is the normalisation of the arrays it was entered with. -/
theorem final2 (c : Dev nD) :
    (dat2 (F := Ideal) V c).arrAt 5 cfg2.N
      = Cert.Spec.norm2 (V c main_v46_0) (V c main_v55) (V c main_v56) (V c main_v57) (V c main_v58) :=
  (dat2 (F := Ideal) V c).arrAt_eq_of_cover 5
    (Cert.Spec.norm2 (V c main_v46_0) (V c main_v55) (V c main_v56) (V c main_v57) (V c main_v58))
    (fun t _ => R2.flushed_block V c t) R2.covered

end Cert.KernelIdeal.KV

end
-- ==== Proof.RefRaw.lean ====
/-
  The reference program's result as one function of its six arguments: the dense projection, the graph aggregation,
  bias and rectifier, the column means, the variance as the mean of the squared deviations (divided by the node
  count less the zero degrees of freedom, under a guard that this divisor is positive), and the normalisation.
-/
import proofs.«117184_j5583457485036_1_alg».proof.Proof.Gen.ReferenceIdeal
import proofs.«117184_j5583457485036_1_alg».proof.Proof.Chain

noncomputable section

namespace Cert.ReferenceIdeal.RV

open Idealize.ShloMosaic Cert.ReferenceIdeal Cert.ReferenceIdeal.Facts₀

/-- The reference's shape facts and dimension records, as the shared chain takes them. -/
def recs : Cert.Chain.Recs where
  sl0 := slices_S2x640000_S1x640000_0_0
  sl1 := slices_S2x640000_S1x640000_1_0
  cast := shapeCasts_S1x640000_S640000
  conc := concatenates_S640000_S40000_S680000_d0
  bM := bcast_S_S680000
  bN := bcast_S_S40000
  bCol := bcast_S680000_S680000x1_0
  bRow := bcast_S680000x1_S680000x128_0_1
  bNC := bcast_S_S40000x128
  scat1 := scatter_S40000_S680000x1_S680000_n_0_0_1
  gath1 := gather_S40000_S680000x1_S680000_n_0_n_n_0_1_1
  gath2 := gather_S40000x128_S680000x1_S680000x128_1_0_n_n_0_1_1128
  scat2 := scatter_S40000x128_S680000x1_S680000x128_1_0_0_1

/-- A [128] vector laid over the rows of a [40000, 128] array. -/
abbrev overRows (v : FVec Ideal S128 .f32) : FVec Ideal S40000x128 .f32 :=
  broadcastInDim S40000x128 ![0, 1] bcast_S1x128_S40000x128_0_1 (broadcastInDim S1x128 ![1] bcast_S128_S1x128_1 v)

/-- The array after the bias and the rectifier. -/
def rect (x : FVec Ideal S40000x128 .f32) (ei : IVec S2x640000 32) (w : FVec Ideal S128x128 .f32)
    (b : FVec Ideal S128 .f32) : FVec Ideal S40000x128 .f32 :=
  maximumf
    (addf (Cert.Chain.agg recs (Host.dotGeneral dot_S40000x128_S128x128_S40000x128_1_0_0_1_n_n none x w) ei) (overRows b))
    (broadcastInDim S40000x128 ![] bcast_S_S40000x128 (constant S_ .f32 0x00000000#32))

/-- The column means of an array. -/
def meanRow (r : FVec Ideal S40000x128 .f32) : FVec Ideal S128 .f32 :=
  Host.divf (Host.reduceAdd r (constant S_ .f32 0x00000000#32) reducesTo_S40000x128_S128_d0 h_S_)
    (broadcastInDim S128 ![] bcast_S_S128 (constant S_ .f32 0x471C4000#32))

/-- The divisor of the variance: the node count less the degrees of freedom (zero). -/
def dof : FVec Ideal S_ .f32 :=
  subf (constant S_ .f32 0x471C4000#32) (sitofp .f32 (constantI S_ 32 0#32))

/-- The column variances: the squared deviations from the column mean, summed and divided, where the divisor is positive. -/
def varRow (r : FVec Ideal S40000x128 .f32) : FVec Ideal S128 .f32 :=
  select (broadcastInDim S128 ![] bcast_S_S128 (cmpf .ogt dof (constant S_ .f32 0x00000000#32)))
    (Host.divf
      (Host.reduceAdd
        (mulf
          (subf r (broadcastInDim S40000x128 ![0, 1] bcast_S1x128_S40000x128_0_1
            (Host.divf (broadcastInDim S1x128 ![1] bcast_S128_S1x128_1
                (Host.reduceAdd r (constant S_ .f32 0x00000000#32) reducesTo_S40000x128_S128_d0 h_S_))
              (broadcastInDim S1x128 ![] bcast_S_S1x128 (constant S_ .f32 0x471C4000#32)))))
          (subf r (broadcastInDim S40000x128 ![0, 1] bcast_S1x128_S40000x128_0_1
            (Host.divf (broadcastInDim S1x128 ![1] bcast_S128_S1x128_1
                (Host.reduceAdd r (constant S_ .f32 0x00000000#32) reducesTo_S40000x128_S128_d0 h_S_))
              (broadcastInDim S1x128 ![] bcast_S_S1x128 (constant S_ .f32 0x471C4000#32))))))
        (constant S_ .f32 0x00000000#32) reducesTo_S40000x128_S128_d0 h_S_)
      (broadcastInDim S128 ![] bcast_S_S128 dof))
    (broadcastInDim S128 ![] bcast_S_S128 (id (constant S_ .f32 0x7FC00000#32)))

/-- The reference's result: the rectified array normalised column by column. -/
def refRaw (x : FVec Ideal S40000x128 .f32) (ei : IVec S2x640000 32) (w : FVec Ideal S128x128 .f32)
    (b g be : FVec Ideal S128 .f32) : FVec Ideal S40000x128 .f32 :=
  addf
    (mulf
      (mulf (subf (rect x ei w b) (overRows (meanRow (rect x ei w b))))
        (overRows (Host.rsqrt (addf (varRow (rect x ei w b))
          (broadcastInDim S128 ![] bcast_S_S128 (constant S_ .f32 0x3727C5AC#32))))))
      (overRows g))
    (overRows be)

end Cert.ReferenceIdeal.RV

end
-- ==== Proof.RefRun.lean ====
/-
  The reference program runs: its @main is a straight line of host operations (the called functions' bodies in line
  at their calls), so every weakly fair execution ends with each buffer at the operations' fold over the launch
  contents.  The fold is read in eight stretches — the edge lists and the degree; the guarded inverse square root; the
  entries' normalisation; the projection, the messages, their aggregation and the bias; the rectifier; the column
  means; the variance; the normalisation — each as a function of the buffers it reads, and the stretches composed
  are the reference's term of the six arguments, which no operation writes.
-/
import proofs.«117184_j5583457485036_1_alg».proof.Proof.Gen.ReferenceIdeal
import proofs.«117184_j5583457485036_1_alg».proof.Proof.RefRaw
import Idealize.ShloMosaic.Lib.StableHlo.Run

set_option maxRecDepth 16384

noncomputable section

namespace Cert.ReferenceIdeal.RV

open Idealize.ShloMosaic Idealize.ShloMosaic.TcCoe Idealize.SL.Sem Idealize.ShloMosaic.StableHlo
open Cert.ReferenceIdeal Cert.ReferenceIdeal.Facts₀

namespace Run

section Line

variable {F : FTy → Type} [FloatOps F]

/-! ### The eight stretches of @main's operations -/

abbrev S0 : List (HloOp τ sig (Elt F)) :=
  [ StableHlo.nullary main_v0 (iotaInDim S40000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.nullary main_cst (constant S_ .f32 0x3F800000#32),
    StableHlo.unary main_cst main_v7 (broadcastInDim S680000 ![] bcast_S_S680000 : (⟨S_, .f32⟩ : BufTy).Contents (Elt F) → (⟨S680000, .f32⟩ : BufTy).Contents (Elt F)),
    StableHlo.nullary main_cst_0 (constant S_ .f32 0x00000000#32),
    StableHlo.unary main_cst_0 main_v8 (broadcastInDim S40000 ![] bcast_S_S40000 : (⟨S_, .f32⟩ : BufTy).Contents (Elt F) → (⟨S40000, .f32⟩ : BufTy).Contents (Elt F)),
    StableHlo.unary main_v6 main_v9 (broadcastInDim S680000x1 ![0] bcast_S680000_S680000x1_0 : (⟨S680000, .i32⟩ : BufTy).Contents (Elt F) → (⟨S680000x1, .i32⟩ : BufTy).Contents (Elt F)),
    StableHlo.ternary main_v8 main_v9 main_v7 main_v10 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.nullary main_cst_1 (constant S_ .f32 0x00000000#32),
    StableHlo.unary main_cst_1 main_v11 (broadcastInDim S40000 ![] bcast_S_S40000 : (⟨S_, .f32⟩ : BufTy).Contents (Elt F) → (⟨S40000, .f32⟩ : BufTy).Contents (Elt F)),
    StableHlo.binary main_v10 main_v11 main_v12 (cmpf .ogt : (⟨S40000, .f32⟩ : BufTy).Contents (Elt F) → (⟨S40000, .f32⟩ : BufTy).Contents (Elt F) → (⟨S40000, .i1⟩ : BufTy).Contents (Elt F)),
    StableHlo.nullary main_cst_2 (constant S_ .f32 0xBF000000#32),
    StableHlo.unary main_cst_2 main_v13 (broadcastInDim S40000 ![] bcast_S_S40000 : (⟨S_, .f32⟩ : BufTy).Contents (Elt F) → (⟨S40000, .f32⟩ : BufTy).Contents (Elt F)),
    StableHlo.binary main_v10 main_v13 main_v14 (Host.powf : (⟨S40000, .f32⟩ : BufTy).Contents (Elt F) → (⟨S40000, .f32⟩ : BufTy).Contents (Elt F) → (⟨S40000, .f32⟩ : BufTy).Contents (Elt F)),
    StableHlo.nullary main_cst_3 (constant S_ .f32 0x00000000#32) ]

abbrev S1 : List (HloOp τ sig (Elt F)) :=
  [ StableHlo.TRef.unary (.of main_cst_3) main_call0.v0 id,
    StableHlo.TRef.unary main_call0.v0 main_call0.v1 (broadcastInDim S40000 ![] bcast_S_S40000),
    StableHlo.TRef.ternary (.of main_v12) (.of main_v14) main_call0.v1 main_call0.v2 select ]

abbrev S2 : List (HloOp τ sig (Elt F)) :=
  [ StableHlo.nullary main_c (constantI S_ 32 0#32),
    StableHlo.unary main_c main_v16 (broadcastInDim S680000 ![] bcast_S_S680000 : (⟨S_, .i32⟩ : BufTy).Contents (Elt F) → (⟨S680000, .i32⟩ : BufTy).Contents (Elt F)),
    StableHlo.binary main_v3 main_v16 main_v17 (cmpi .slt : (⟨S680000, .i32⟩ : BufTy).Contents (Elt F) → (⟨S680000, .i32⟩ : BufTy).Contents (Elt F) → (⟨S680000, .i1⟩ : BufTy).Contents (Elt F)),
    StableHlo.nullary main_c_4 (constantI S_ 32 40000#32),
    StableHlo.unary main_c_4 main_v18 (broadcastInDim S680000 ![] bcast_S_S680000 : (⟨S_, .i32⟩ : BufTy).Contents (Elt F) → (⟨S680000, .i32⟩ : BufTy).Contents (Elt F)),
    StableHlo.binary main_v3 main_v18 main_v19 (addi : (⟨S680000, .i32⟩ : BufTy).Contents (Elt F) → (⟨S680000, .i32⟩ : BufTy).Contents (Elt F) → (⟨S680000, .i32⟩ : BufTy).Contents (Elt F)),
    StableHlo.ternary main_v17 main_v19 main_v3 main_v20 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v20 main_v21 (broadcastInDim S680000x1 ![0] bcast_S680000_S680000x1_0 : (⟨S680000, .i32⟩ : BufTy).Contents (Elt F) → (⟨S680000x1, .i32⟩ : BufTy).Contents (Elt F)),
    StableHlo.binary main_v15 main_v21 main_v22 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_5 (constantI S_ 32 0#32),
    StableHlo.unary main_c_5 main_v23 (broadcastInDim S680000 ![] bcast_S_S680000 : (⟨S_, .i32⟩ : BufTy).Contents (Elt F) → (⟨S680000, .i32⟩ : BufTy).Contents (Elt F)),
    StableHlo.binary main_v6 main_v23 main_v24 (cmpi .slt : (⟨S680000, .i32⟩ : BufTy).Contents (Elt F) → (⟨S680000, .i32⟩ : BufTy).Contents (Elt F) → (⟨S680000, .i1⟩ : BufTy).Contents (Elt F)),
    StableHlo.nullary main_c_6 (constantI S_ 32 40000#32),
    StableHlo.unary main_c_6 main_v25 (broadcastInDim S680000 ![] bcast_S_S680000 : (⟨S_, .i32⟩ : BufTy).Contents (Elt F) → (⟨S680000, .i32⟩ : BufTy).Contents (Elt F)),
    StableHlo.binary main_v6 main_v25 main_v26 (addi : (⟨S680000, .i32⟩ : BufTy).Contents (Elt F) → (⟨S680000, .i32⟩ : BufTy).Contents (Elt F) → (⟨S680000, .i32⟩ : BufTy).Contents (Elt F)),
    StableHlo.ternary main_v24 main_v26 main_v6 main_v27 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v27 main_v28 (broadcastInDim S680000x1 ![0] bcast_S680000_S680000x1_0 : (⟨S680000, .i32⟩ : BufTy).Contents (Elt F) → (⟨S680000x1, .i32⟩ : BufTy).Contents (Elt F)),
    StableHlo.binary main_v15 main_v28 main_v29 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v22 main_v29 main_v30 (mulf : (⟨S680000, .f32⟩ : BufTy).Contents (Elt F) → (⟨S680000, .f32⟩ : BufTy).Contents (Elt F) → (⟨S680000, .f32⟩ : BufTy).Contents (Elt F)) ]

abbrev S3 : List (HloOp τ sig (Elt F)) :=
  [ StableHlo.binary main_arg0 main_arg2 main_v31 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_7 (constantI S_ 32 0#32),
    StableHlo.unary main_c_7 main_v32 (broadcastInDim S680000 ![] bcast_S_S680000 : (⟨S_, .i32⟩ : BufTy).Contents (Elt F) → (⟨S680000, .i32⟩ : BufTy).Contents (Elt F)),
    StableHlo.binary main_v3 main_v32 main_v33 (cmpi .slt : (⟨S680000, .i32⟩ : BufTy).Contents (Elt F) → (⟨S680000, .i32⟩ : BufTy).Contents (Elt F) → (⟨S680000, .i1⟩ : BufTy).Contents (Elt F)),
    StableHlo.nullary main_c_8 (constantI S_ 32 40000#32),
    StableHlo.unary main_c_8 main_v34 (broadcastInDim S680000 ![] bcast_S_S680000 : (⟨S_, .i32⟩ : BufTy).Contents (Elt F) → (⟨S680000, .i32⟩ : BufTy).Contents (Elt F)),
    StableHlo.binary main_v3 main_v34 main_v35 (addi : (⟨S680000, .i32⟩ : BufTy).Contents (Elt F) → (⟨S680000, .i32⟩ : BufTy).Contents (Elt F) → (⟨S680000, .i32⟩ : BufTy).Contents (Elt F)),
    StableHlo.ternary main_v33 main_v35 main_v3 main_v36 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v36 main_v37 (broadcastInDim S680000x1 ![0] bcast_S680000_S680000x1_0 : (⟨S680000, .i32⟩ : BufTy).Contents (Elt F) → (⟨S680000x1, .i32⟩ : BufTy).Contents (Elt F)),
    StableHlo.binary main_v31 main_v37 main_v38 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    StableHlo.unary main_v30 main_v39 (broadcastInDim S680000x1 ![0] bcast_S680000_S680000x1_0 : (⟨S680000, .f32⟩ : BufTy).Contents (Elt F) → (⟨S680000x1, .f32⟩ : BufTy).Contents (Elt F)),
    StableHlo.unary main_v39 main_v40 (broadcastInDim S680000x128 ![0, 1] bcast_S680000x1_S680000x128_0_1 : (⟨S680000x1, .f32⟩ : BufTy).Contents (Elt F) → (⟨S680000x128, .f32⟩ : BufTy).Contents (Elt F)),
    StableHlo.binary main_v38 main_v40 main_v41 (mulf : (⟨S680000x128, .f32⟩ : BufTy).Contents (Elt F) → (⟨S680000x128, .f32⟩ : BufTy).Contents (Elt F) → (⟨S680000x128, .f32⟩ : BufTy).Contents (Elt F)),
    StableHlo.nullary main_cst_9 (constant S_ .f32 0x00000000#32),
    StableHlo.unary main_cst_9 main_v42 (broadcastInDim S40000x128 ![] bcast_S_S40000x128 : (⟨S_, .f32⟩ : BufTy).Contents (Elt F) → (⟨S40000x128, .f32⟩ : BufTy).Contents (Elt F)),
    StableHlo.unary main_v6 main_v43 (broadcastInDim S680000x1 ![0] bcast_S680000_S680000x1_0 : (⟨S680000, .i32⟩ : BufTy).Contents (Elt F) → (⟨S680000x1, .i32⟩ : BufTy).Contents (Elt F)),
    StableHlo.ternary main_v42 main_v43 main_v41 main_v44 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S40000x128 ![0, 1] bcast_S1x128_S40000x128_0_1 : (⟨S1x128, .f32⟩ : BufTy).Contents (Elt F) → (⟨S40000x128, .f32⟩ : BufTy).Contents (Elt F)),
    StableHlo.binary main_v44 main_v46 main_v47 (addf : (⟨S40000x128, .f32⟩ : BufTy).Contents (Elt F) → (⟨S40000x128, .f32⟩ : BufTy).Contents (Elt F) → (⟨S40000x128, .f32⟩ : BufTy).Contents (Elt F)) ]

abbrev S4a : List (HloOp τ sig (Elt F)) :=
  [ StableHlo.TRef.nullary main_call1.cst (constant S_ .f32 0x00000000#32),
    StableHlo.TRef.unary main_call1.cst main_call1.v0 (broadcastInDim S40000x128 ![] bcast_S_S40000x128),
    StableHlo.TRef.binary (.of main_v47) main_call1.v0 main_call1.v1 maximumf ]

abbrev S4b : List (HloOp τ sig (Elt F)) :=
  [ StableHlo.nullary main_cst_10 (constant S_ .f32 0x00000000#32),
    StableHlo.binary main_v48 main_cst_10 main_v49 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_11 (constant S_ .f32 0x471C4000#32),
    StableHlo.unary main_cst_11 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)) ]

abbrev S5 : List (HloOp τ sig (Elt F)) :=
  [ StableHlo.nullary main_c_12 (constantI S_ 32 0#32),
    StableHlo.TRef.nullary main_call2.cst (constant S_ .f32 0x00000000#32),
    StableHlo.TRef.binary (.of main_v48) main_call2.cst main_call2.v0 (fun x v => Host.reduceAdd x v reducesTo_S40000x128_S128_d0 h_S_),
    StableHlo.TRef.unary main_call2.v0 main_call2.v1 (broadcastInDim S1x128 ![1] bcast_S128_S1x128_1),
    StableHlo.TRef.nullary main_call2.cst_0 (constant S_ .f32 0x471C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S40000x128 ![0, 1] bcast_S1x128_S40000x128_0_1),
    StableHlo.TRef.binary (.of main_v48) main_call2.v4 main_call2.v5 subf,
    StableHlo.TRef.binary main_call2.v5 main_call2.v5 main_call2.v6 mulf,
    StableHlo.TRef.unary (.of main_c_12) main_call2.v7 (sitofp .f32),
    StableHlo.TRef.nullary main_call2.cst_1 (constant S_ .f32 0x471C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S40000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

abbrev S6 : List (HloOp τ sig (Elt F)) :=
  [ StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S40000x128 ![0, 1] bcast_S1x128_S40000x128_0_1 : (⟨S1x128, .f32⟩ : BufTy).Contents (Elt F) → (⟨S40000x128, .f32⟩ : BufTy).Contents (Elt F)),
    StableHlo.binary main_v48 main_v54 main_v55 (subf : (⟨S40000x128, .f32⟩ : BufTy).Contents (Elt F) → (⟨S40000x128, .f32⟩ : BufTy).Contents (Elt F) → (⟨S40000x128, .f32⟩ : BufTy).Contents (Elt F)),
    StableHlo.nullary main_cst_13 (constant S_ .f32 0x3727C5AC#32),
    StableHlo.unary main_cst_13 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S40000x128 ![0, 1] bcast_S1x128_S40000x128_0_1 : (⟨S1x128, .f32⟩ : BufTy).Contents (Elt F) → (⟨S40000x128, .f32⟩ : BufTy).Contents (Elt F)),
    StableHlo.binary main_v55 main_v60 main_v61 (mulf : (⟨S40000x128, .f32⟩ : BufTy).Contents (Elt F) → (⟨S40000x128, .f32⟩ : BufTy).Contents (Elt F) → (⟨S40000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S40000x128 ![0, 1] bcast_S1x128_S40000x128_0_1 : (⟨S1x128, .f32⟩ : BufTy).Contents (Elt F) → (⟨S40000x128, .f32⟩ : BufTy).Contents (Elt F)),
    StableHlo.binary main_v61 main_v63 main_v64 (mulf : (⟨S40000x128, .f32⟩ : BufTy).Contents (Elt F) → (⟨S40000x128, .f32⟩ : BufTy).Contents (Elt F) → (⟨S40000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S40000x128 ![0, 1] bcast_S1x128_S40000x128_0_1 : (⟨S1x128, .f32⟩ : BufTy).Contents (Elt F) → (⟨S40000x128, .f32⟩ : BufTy).Contents (Elt F)),
    StableHlo.binary main_v64 main_v66 main_v67 (addf : (⟨S40000x128, .f32⟩ : BufTy).Contents (Elt F) → (⟨S40000x128, .f32⟩ : BufTy).Contents (Elt F) → (⟨S40000x128, .f32⟩ : BufTy).Contents (Elt F)) ]

/-- @main's operations in order, each called function's operations in line at its call over that call's buffers:
    the edge lists and the degree (twenty), the guarded inverse square root's three, the normalisation, the
    projection, the messages and their aggregation with the bias (thirty-nine), the rectifier's three, the column
    means (six), the variance's twenty-two (its guarded quotient's three last), and the normalisation with scale and
    offset (sixteen). -/
abbrev ops : List (HloOp τ sig (Elt F)) :=
  [ StableHlo.nullary main_v0 (iotaInDim S40000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S680000 0 [⟨S640000, a⟩, ⟨S40000, b⟩] concatenates_S640000_S40000_S680000_d0) : (⟨S640000, .i32⟩ : BufTy).Contents (Elt F) → (⟨S40000, .i32⟩ : BufTy).Contents (Elt F) → (⟨S680000, .i32⟩ : BufTy).Contents (Elt F)),
    StableHlo.nullary main_cst (constant S_ .f32 0x3F800000#32),
    StableHlo.unary main_cst main_v7 (broadcastInDim S680000 ![] bcast_S_S680000 : (⟨S_, .f32⟩ : BufTy).Contents (Elt F) → (⟨S680000, .f32⟩ : BufTy).Contents (Elt F)),
    StableHlo.nullary main_cst_0 (constant S_ .f32 0x00000000#32),
    StableHlo.unary main_cst_0 main_v8 (broadcastInDim S40000 ![] bcast_S_S40000 : (⟨S_, .f32⟩ : BufTy).Contents (Elt F) → (⟨S40000, .f32⟩ : BufTy).Contents (Elt F)),
    StableHlo.unary main_v6 main_v9 (broadcastInDim S680000x1 ![0] bcast_S680000_S680000x1_0 : (⟨S680000, .i32⟩ : BufTy).Contents (Elt F) → (⟨S680000x1, .i32⟩ : BufTy).Contents (Elt F)),
    StableHlo.ternary main_v8 main_v9 main_v7 main_v10 ((fun x i u => Host.scatterAdd scatter_S40000_S680000x1_S680000_n_0_0_1 x i u) : (⟨S40000, .f32⟩ : BufTy).Contents (Elt F) → (⟨S680000x1, .i32⟩ : BufTy).Contents (Elt F) → (⟨S680000, .f32⟩ : BufTy).Contents (Elt F) → (⟨S40000, .f32⟩ : BufTy).Contents (Elt F)),
    StableHlo.nullary main_cst_1 (constant S_ .f32 0x00000000#32),
    StableHlo.unary main_cst_1 main_v11 (broadcastInDim S40000 ![] bcast_S_S40000 : (⟨S_, .f32⟩ : BufTy).Contents (Elt F) → (⟨S40000, .f32⟩ : BufTy).Contents (Elt F)),
    StableHlo.binary main_v10 main_v11 main_v12 (cmpf .ogt : (⟨S40000, .f32⟩ : BufTy).Contents (Elt F) → (⟨S40000, .f32⟩ : BufTy).Contents (Elt F) → (⟨S40000, .i1⟩ : BufTy).Contents (Elt F)),
    StableHlo.nullary main_cst_2 (constant S_ .f32 0xBF000000#32),
    StableHlo.unary main_cst_2 main_v13 (broadcastInDim S40000 ![] bcast_S_S40000 : (⟨S_, .f32⟩ : BufTy).Contents (Elt F) → (⟨S40000, .f32⟩ : BufTy).Contents (Elt F)),
    StableHlo.binary main_v10 main_v13 main_v14 (Host.powf : (⟨S40000, .f32⟩ : BufTy).Contents (Elt F) → (⟨S40000, .f32⟩ : BufTy).Contents (Elt F) → (⟨S40000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S40000 ![] bcast_S_S40000),
    StableHlo.TRef.ternary (.of main_v12) (.of main_v14) main_call0.v1 main_call0.v2 select,
    StableHlo.nullary main_c (constantI S_ 32 0#32),
    StableHlo.unary main_c main_v16 (broadcastInDim S680000 ![] bcast_S_S680000 : (⟨S_, .i32⟩ : BufTy).Contents (Elt F) → (⟨S680000, .i32⟩ : BufTy).Contents (Elt F)),
    StableHlo.binary main_v3 main_v16 main_v17 (cmpi .slt : (⟨S680000, .i32⟩ : BufTy).Contents (Elt F) → (⟨S680000, .i32⟩ : BufTy).Contents (Elt F) → (⟨S680000, .i1⟩ : BufTy).Contents (Elt F)),
    StableHlo.nullary main_c_4 (constantI S_ 32 40000#32),
    StableHlo.unary main_c_4 main_v18 (broadcastInDim S680000 ![] bcast_S_S680000 : (⟨S_, .i32⟩ : BufTy).Contents (Elt F) → (⟨S680000, .i32⟩ : BufTy).Contents (Elt F)),
    StableHlo.binary main_v3 main_v18 main_v19 (addi : (⟨S680000, .i32⟩ : BufTy).Contents (Elt F) → (⟨S680000, .i32⟩ : BufTy).Contents (Elt F) → (⟨S680000, .i32⟩ : BufTy).Contents (Elt F)),
    StableHlo.ternary main_v17 main_v19 main_v3 main_v20 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v20 main_v21 (broadcastInDim S680000x1 ![0] bcast_S680000_S680000x1_0 : (⟨S680000, .i32⟩ : BufTy).Contents (Elt F) → (⟨S680000x1, .i32⟩ : BufTy).Contents (Elt F)),
    StableHlo.binary main_v15 main_v21 main_v22 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.nullary main_c_5 (constantI S_ 32 0#32),
    StableHlo.unary main_c_5 main_v23 (broadcastInDim S680000 ![] bcast_S_S680000 : (⟨S_, .i32⟩ : BufTy).Contents (Elt F) → (⟨S680000, .i32⟩ : BufTy).Contents (Elt F)),
    StableHlo.binary main_v6 main_v23 main_v24 (cmpi .slt : (⟨S680000, .i32⟩ : BufTy).Contents (Elt F) → (⟨S680000, .i32⟩ : BufTy).Contents (Elt F) → (⟨S680000, .i1⟩ : BufTy).Contents (Elt F)),
    StableHlo.nullary main_c_6 (constantI S_ 32 40000#32),
    StableHlo.unary main_c_6 main_v25 (broadcastInDim S680000 ![] bcast_S_S680000 : (⟨S_, .i32⟩ : BufTy).Contents (Elt F) → (⟨S680000, .i32⟩ : BufTy).Contents (Elt F)),
    StableHlo.binary main_v6 main_v25 main_v26 (addi : (⟨S680000, .i32⟩ : BufTy).Contents (Elt F) → (⟨S680000, .i32⟩ : BufTy).Contents (Elt F) → (⟨S680000, .i32⟩ : BufTy).Contents (Elt F)),
    StableHlo.ternary main_v24 main_v26 main_v6 main_v27 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v27 main_v28 (broadcastInDim S680000x1 ![0] bcast_S680000_S680000x1_0 : (⟨S680000, .i32⟩ : BufTy).Contents (Elt F) → (⟨S680000x1, .i32⟩ : BufTy).Contents (Elt F)),
    StableHlo.binary main_v15 main_v28 main_v29 ((fun x i => Host.gather gather_S40000_S680000x1_S680000_n_0_n_n_0_1_1 x i) : (⟨S40000, .f32⟩ : BufTy).Contents (Elt F) → (⟨S680000x1, .i32⟩ : BufTy).Contents (Elt F) → (⟨S680000, .f32⟩ : BufTy).Contents (Elt F)),
    StableHlo.binary main_v22 main_v29 main_v30 (mulf : (⟨S680000, .f32⟩ : BufTy).Contents (Elt F) → (⟨S680000, .f32⟩ : BufTy).Contents (Elt F) → (⟨S680000, .f32⟩ : BufTy).Contents (Elt F)),
    StableHlo.binary main_arg0 main_arg2 main_v31 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.nullary main_c_7 (constantI S_ 32 0#32),
    StableHlo.unary main_c_7 main_v32 (broadcastInDim S680000 ![] bcast_S_S680000 : (⟨S_, .i32⟩ : BufTy).Contents (Elt F) → (⟨S680000, .i32⟩ : BufTy).Contents (Elt F)),
    StableHlo.binary main_v3 main_v32 main_v33 (cmpi .slt : (⟨S680000, .i32⟩ : BufTy).Contents (Elt F) → (⟨S680000, .i32⟩ : BufTy).Contents (Elt F) → (⟨S680000, .i1⟩ : BufTy).Contents (Elt F)),
    StableHlo.nullary main_c_8 (constantI S_ 32 40000#32),
    StableHlo.unary main_c_8 main_v34 (broadcastInDim S680000 ![] bcast_S_S680000 : (⟨S_, .i32⟩ : BufTy).Contents (Elt F) → (⟨S680000, .i32⟩ : BufTy).Contents (Elt F)),
    StableHlo.binary main_v3 main_v34 main_v35 (addi : (⟨S680000, .i32⟩ : BufTy).Contents (Elt F) → (⟨S680000, .i32⟩ : BufTy).Contents (Elt F) → (⟨S680000, .i32⟩ : BufTy).Contents (Elt F)),
    StableHlo.ternary main_v33 main_v35 main_v3 main_v36 (select : (⟨S680000, .i1⟩ : BufTy).Contents (Elt F) → (⟨S680000, .i32⟩ : BufTy).Contents (Elt F) → (⟨S680000, .i32⟩ : BufTy).Contents (Elt F) → (⟨S680000, .i32⟩ : BufTy).Contents (Elt F)),
    StableHlo.unary main_v36 main_v37 (broadcastInDim S680000x1 ![0] bcast_S680000_S680000x1_0 : (⟨S680000, .i32⟩ : BufTy).Contents (Elt F) → (⟨S680000x1, .i32⟩ : BufTy).Contents (Elt F)),
    StableHlo.binary main_v31 main_v37 main_v38 ((fun x i => Host.gather gather_S40000x128_S680000x1_S680000x128_1_0_n_n_0_1_1128 x i) : (⟨S40000x128, .f32⟩ : BufTy).Contents (Elt F) → (⟨S680000x1, .i32⟩ : BufTy).Contents (Elt F) → (⟨S680000x128, .f32⟩ : BufTy).Contents (Elt F)),
    StableHlo.unary main_v30 main_v39 (broadcastInDim S680000x1 ![0] bcast_S680000_S680000x1_0 : (⟨S680000, .f32⟩ : BufTy).Contents (Elt F) → (⟨S680000x1, .f32⟩ : BufTy).Contents (Elt F)),
    StableHlo.unary main_v39 main_v40 (broadcastInDim S680000x128 ![0, 1] bcast_S680000x1_S680000x128_0_1 : (⟨S680000x1, .f32⟩ : BufTy).Contents (Elt F) → (⟨S680000x128, .f32⟩ : BufTy).Contents (Elt F)),
    StableHlo.binary main_v38 main_v40 main_v41 (mulf : (⟨S680000x128, .f32⟩ : BufTy).Contents (Elt F) → (⟨S680000x128, .f32⟩ : BufTy).Contents (Elt F) → (⟨S680000x128, .f32⟩ : BufTy).Contents (Elt F)),
    StableHlo.nullary main_cst_9 (constant S_ .f32 0x00000000#32),
    StableHlo.unary main_cst_9 main_v42 (broadcastInDim S40000x128 ![] bcast_S_S40000x128 : (⟨S_, .f32⟩ : BufTy).Contents (Elt F) → (⟨S40000x128, .f32⟩ : BufTy).Contents (Elt F)),
    StableHlo.unary main_v6 main_v43 (broadcastInDim S680000x1 ![0] bcast_S680000_S680000x1_0 : (⟨S680000, .i32⟩ : BufTy).Contents (Elt F) → (⟨S680000x1, .i32⟩ : BufTy).Contents (Elt F)),
    StableHlo.ternary main_v42 main_v43 main_v41 main_v44 ((fun x i u => Host.scatterAdd scatter_S40000x128_S680000x1_S680000x128_1_0_0_1 x i u) : (⟨S40000x128, .f32⟩ : BufTy).Contents (Elt F) → (⟨S680000x1, .i32⟩ : BufTy).Contents (Elt F) → (⟨S680000x128, .f32⟩ : BufTy).Contents (Elt F) → (⟨S40000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S40000x128 ![0, 1] bcast_S1x128_S40000x128_0_1 : (⟨S1x128, .f32⟩ : BufTy).Contents (Elt F) → (⟨S40000x128, .f32⟩ : BufTy).Contents (Elt F)),
    StableHlo.binary main_v44 main_v46 main_v47 (addf : (⟨S40000x128, .f32⟩ : BufTy).Contents (Elt F) → (⟨S40000x128, .f32⟩ : BufTy).Contents (Elt F) → (⟨S40000x128, .f32⟩ : BufTy).Contents (Elt F)),
    StableHlo.TRef.nullary main_call1.cst (constant S_ .f32 0x00000000#32),
    StableHlo.TRef.unary main_call1.cst main_call1.v0 (broadcastInDim S40000x128 ![] bcast_S_S40000x128),
    StableHlo.TRef.binary (.of main_v47) main_call1.v0 main_call1.v1 maximumf,
    StableHlo.nullary main_cst_10 (constant S_ .f32 0x00000000#32),
    StableHlo.binary main_v48 main_cst_10 main_v49 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_11 (constant S_ .f32 0x471C4000#32),
    StableHlo.unary main_cst_11 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (.of main_v48) main_call2.cst main_call2.v0 (fun x v => Host.reduceAdd x v reducesTo_S40000x128_S128_d0 h_S_),
    StableHlo.TRef.unary main_call2.v0 main_call2.v1 (broadcastInDim S1x128 ![1] bcast_S128_S1x128_1),
    StableHlo.TRef.nullary main_call2.cst_0 (constant S_ .f32 0x471C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S40000x128 ![0, 1] bcast_S1x128_S40000x128_0_1),
    StableHlo.TRef.binary (.of main_v48) main_call2.v4 main_call2.v5 subf,
    StableHlo.TRef.binary main_call2.v5 main_call2.v5 main_call2.v6 mulf,
    StableHlo.TRef.unary (.of main_c_12) main_call2.v7 (sitofp .f32),
    StableHlo.TRef.nullary main_call2.cst_1 (constant S_ .f32 0x471C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S40000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S40000x128 ![0, 1] bcast_S1x128_S40000x128_0_1 : (⟨S1x128, .f32⟩ : BufTy).Contents (Elt F) → (⟨S40000x128, .f32⟩ : BufTy).Contents (Elt F)),
    StableHlo.binary main_v48 main_v54 main_v55 (subf : (⟨S40000x128, .f32⟩ : BufTy).Contents (Elt F) → (⟨S40000x128, .f32⟩ : BufTy).Contents (Elt F) → (⟨S40000x128, .f32⟩ : BufTy).Contents (Elt F)),
    StableHlo.nullary main_cst_13 (constant S_ .f32 0x3727C5AC#32),
    StableHlo.unary main_cst_13 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S40000x128 ![0, 1] bcast_S1x128_S40000x128_0_1 : (⟨S1x128, .f32⟩ : BufTy).Contents (Elt F) → (⟨S40000x128, .f32⟩ : BufTy).Contents (Elt F)),
    StableHlo.binary main_v55 main_v60 main_v61 (mulf : (⟨S40000x128, .f32⟩ : BufTy).Contents (Elt F) → (⟨S40000x128, .f32⟩ : BufTy).Contents (Elt F) → (⟨S40000x128, .f32⟩ : BufTy).Contents (Elt F)),
    StableHlo.unary main_arg4 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S40000x128 ![0, 1] bcast_S1x128_S40000x128_0_1 : (⟨S1x128, .f32⟩ : BufTy).Contents (Elt F) → (⟨S40000x128, .f32⟩ : BufTy).Contents (Elt F)),
    StableHlo.binary main_v61 main_v63 main_v64 (mulf : (⟨S40000x128, .f32⟩ : BufTy).Contents (Elt F) → (⟨S40000x128, .f32⟩ : BufTy).Contents (Elt F) → (⟨S40000x128, .f32⟩ : BufTy).Contents (Elt F)),
    StableHlo.unary main_arg5 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S40000x128 ![0, 1] bcast_S1x128_S40000x128_0_1 : (⟨S1x128, .f32⟩ : BufTy).Contents (Elt F) → (⟨S40000x128, .f32⟩ : BufTy).Contents (Elt F)),
    StableHlo.binary main_v64 main_v66 main_v67 (addf : (⟨S40000x128, .f32⟩ : BufTy).Contents (Elt F) → (⟨S40000x128, .f32⟩ : BufTy).Contents (Elt F) → (⟨S40000x128, .f32⟩ : BufTy).Contents (Elt F)) ]

/-- The line is its eight stretches, one after the other. -/
theorem ops_split : (ops : List (HloOp τ sig (Elt F))) = S0 ++ S1 ++ S2 ++ S3 ++ S4a ++ S4b ++ S5 ++ S6 := rfl

set_option maxRecDepth 4096 in
set_option maxHeartbeats 4000000 in
/-- @main is that straight line: the called functions' definitions unfolded at their calls and the calls' records at
    their fields, both sides are one chain of steps once sequencing is reassociated. -/
theorem main_eq (c : Dev nD) : main (F := F) c = seq ops := by
  simp only [main, main_part0, main_part1, fn_where.body, fn_relu.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub .., nullary_bufs_sub .., unary_bufs_sub .., nullary_bufs_sub ..,
    unary_bufs_sub .., unary_bufs_sub .., ternary_bufs_sub .., nullary_bufs_sub .., unary_bufs_sub ..,
    binary_bufs_sub .., nullary_bufs_sub .., unary_bufs_sub .., binary_bufs_sub .., nullary_bufs_sub ..,
    unary_bufs_sub .., unary_bufs_sub .., ternary_bufs_sub .., nullary_bufs_sub .., unary_bufs_sub ..,
    binary_bufs_sub .., nullary_bufs_sub .., unary_bufs_sub .., binary_bufs_sub .., ternary_bufs_sub ..,
    unary_bufs_sub .., binary_bufs_sub .., nullary_bufs_sub .., unary_bufs_sub .., binary_bufs_sub ..,
    nullary_bufs_sub .., unary_bufs_sub .., binary_bufs_sub .., ternary_bufs_sub .., unary_bufs_sub ..,
    binary_bufs_sub .., binary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., unary_bufs_sub .., unary_bufs_sub .., binary_bufs_sub ..,
    nullary_bufs_sub .., unary_bufs_sub .., unary_bufs_sub .., ternary_bufs_sub .., unary_bufs_sub ..,
    unary_bufs_sub .., binary_bufs_sub .., nullary_bufs_sub .., unary_bufs_sub .., binary_bufs_sub ..,
    nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., unary_bufs_sub .., unary_bufs_sub .., binary_bufs_sub ..⟩

set_option maxRecDepth 4096 in
set_option maxHeartbeats 4000000 in
/-- From any memory with zero counters every weakly fair execution of @main terminates, each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-- The contents after two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (V : Valuation τ sig (Elt Ideal))

attribute [local irreducible] Host.scatterAdd Host.gather Host.powf Host.reduceAdd Host.rsqrt Host.divf concatenate

theorem s0_src : after (S0 (F := Ideal)) V (main_v3 : DevRef τ sig) = Cert.Chain.src recs (V (main_arg1 : DevRef τ sig)) := by
  after_results_simp
  rfl
theorem s0_dst : after (S0 (F := Ideal)) V (main_v6 : DevRef τ sig) = Cert.Chain.dst recs (V (main_arg1 : DevRef τ sig)) := by
  after_results_simp
  rfl
theorem s0_pos : after (S0 (F := Ideal)) V (main_v12 : DevRef τ sig)
    = cmpf .ogt (Cert.Chain.deg recs (V (main_arg1 : DevRef τ sig)))
        (broadcastInDim S40000 ![] bcast_S_S40000 (constant S_ .f32 0x00000000#32)) := by
  after_results_simp
  rfl
theorem s0_pow : after (S0 (F := Ideal)) V (main_v14 : DevRef τ sig)
    = Host.powf (Cert.Chain.deg recs (V (main_arg1 : DevRef τ sig)))
        (broadcastInDim S40000 ![] bcast_S_S40000 (constant S_ .f32 0xBF000000#32)) := by
  after_results_simp
  rfl
theorem s0_zero : after (S0 (F := Ideal)) V (main_cst_3 : DevRef τ sig) = (constant S_ .f32 0x00000000#32 : FVec Ideal S_ .f32) := by
  after_results_simp

theorem s1_dinv : after (S1 (F := Ideal)) V (main_v15 : DevRef τ sig)
    = select (V (main_v12 : DevRef τ sig)) (V (main_v14 : DevRef τ sig))
        (broadcastInDim S40000 ![] bcast_S_S40000 (id (V (main_cst_3 : DevRef τ sig)))) := by
  after_results_simp
  rfl

theorem s2_nrm : after (S2 (F := Ideal)) V (main_v30 : DevRef τ sig)
    = (mulf (Host.gather recs.gath1 (V (main_v15 : DevRef τ sig))
          (broadcastInDim S680000x1 ![0] bcast_S680000_S680000x1_0 (Cert.Chain.wrap recs (V (main_v3 : DevRef τ sig)))))
        (Host.gather recs.gath1 (V (main_v15 : DevRef τ sig))
          (broadcastInDim S680000x1 ![0] bcast_S680000_S680000x1_0 (Cert.Chain.wrap recs (V (main_v6 : DevRef τ sig)))))
        : FVec Ideal S680000 .f32) := by
  after_results_simp
  rfl

theorem s3_pre : after (S3 (F := Ideal)) V (main_v47 : DevRef τ sig)
    = (addf
        (Host.scatterAdd recs.scat2
          (broadcastInDim S40000x128 ![] bcast_S_S40000x128 (constant S_ .f32 0x00000000#32))
          (broadcastInDim S680000x1 ![0] bcast_S680000_S680000x1_0 (V (main_v6 : DevRef τ sig)))
          (mulf (Host.gather recs.gath2
              (Host.dotGeneral (φ₁ := .f32) (φ₂ := .f32) dot_S40000x128_S128x128_S40000x128_1_0_0_1_n_n none
                (V (main_arg0 : DevRef τ sig) : FVec Ideal S40000x128 .f32) (V (main_arg2 : DevRef τ sig) : FVec Ideal S128x128 .f32))
              (broadcastInDim S680000x1 ![0] bcast_S680000_S680000x1_0 (Cert.Chain.wrap recs (V (main_v3 : DevRef τ sig)))))
            (broadcastInDim S680000x128 ![0, 1] bcast_S680000x1_S680000x128_0_1
              (broadcastInDim S680000x1 ![0] bcast_S680000_S680000x1_0 (V (main_v30 : DevRef τ sig))))))
        (overRows (V (main_arg3 : DevRef τ sig)))
        : FVec Ideal S40000x128 .f32) := by
  after_results_simp
  rfl

theorem s4a_rect : after (S4a (F := Ideal)) V (main_v48 : DevRef τ sig)
    = (maximumf (V (main_v47 : DevRef τ sig))
        (broadcastInDim S40000x128 ![] bcast_S_S40000x128 (constant S_ .f32 0x00000000#32)) : FVec Ideal S40000x128 .f32) := by
  after_results_simp
  rfl

theorem s4b_mean : after (S4b (F := Ideal)) V (main_v51 : DevRef τ sig) = meanRow (V (main_v48 : DevRef τ sig)) := by
  after_results_simp
  rfl

theorem s5_var : after (S5 (F := Ideal)) V (main_v52 : DevRef τ sig) = varRow (V (main_v48 : DevRef τ sig)) := by
  after_results_simp
  rfl

theorem s6_out : after (S6 (F := Ideal)) V (main_v67 : DevRef τ sig)
    = (addf
        (mulf
          (mulf (subf (V (main_v48 : DevRef τ sig)) (overRows (V (main_v51 : DevRef τ sig))))
            (overRows (Host.rsqrt (addf (V (main_v52 : DevRef τ sig))
              (broadcastInDim S128 ![] bcast_S_S128 (constant S_ .f32 0x3727C5AC#32))))))
          (overRows (V (main_arg4 : DevRef τ sig))))
        (overRows (V (main_arg5 : DevRef τ sig))) : FVec Ideal S40000x128 .f32) := by
  after_results_simp

theorem k_S0_arg0 : after (S0 (F := Ideal)) V (main_arg0 : DevRef τ sig) = V (main_arg0 : DevRef τ sig) := by
  after_results_simp
theorem k_S0_arg1 : after (S0 (F := Ideal)) V (main_arg1 : DevRef τ sig) = V (main_arg1 : DevRef τ sig) := by
  after_results_simp
theorem k_S0_arg2 : after (S0 (F := Ideal)) V (main_arg2 : DevRef τ sig) = V (main_arg2 : DevRef τ sig) := by
  after_results_simp
theorem k_S0_arg3 : after (S0 (F := Ideal)) V (main_arg3 : DevRef τ sig) = V (main_arg3 : DevRef τ sig) := by
  after_results_simp
theorem k_S0_arg4 : after (S0 (F := Ideal)) V (main_arg4 : DevRef τ sig) = V (main_arg4 : DevRef τ sig) := by
  after_results_simp
theorem k_S0_arg5 : after (S0 (F := Ideal)) V (main_arg5 : DevRef τ sig) = V (main_arg5 : DevRef τ sig) := by
  after_results_simp
theorem k_S1_arg0 : after (S1 (F := Ideal)) V (main_arg0 : DevRef τ sig) = V (main_arg0 : DevRef τ sig) := by
  after_results_simp
theorem k_S1_arg1 : after (S1 (F := Ideal)) V (main_arg1 : DevRef τ sig) = V (main_arg1 : DevRef τ sig) := by
  after_results_simp
theorem k_S1_arg2 : after (S1 (F := Ideal)) V (main_arg2 : DevRef τ sig) = V (main_arg2 : DevRef τ sig) := by
  after_results_simp
theorem k_S1_arg3 : after (S1 (F := Ideal)) V (main_arg3 : DevRef τ sig) = V (main_arg3 : DevRef τ sig) := by
  after_results_simp
theorem k_S1_arg4 : after (S1 (F := Ideal)) V (main_arg4 : DevRef τ sig) = V (main_arg4 : DevRef τ sig) := by
  after_results_simp
theorem k_S1_arg5 : after (S1 (F := Ideal)) V (main_arg5 : DevRef τ sig) = V (main_arg5 : DevRef τ sig) := by
  after_results_simp
theorem k_S2_arg0 : after (S2 (F := Ideal)) V (main_arg0 : DevRef τ sig) = V (main_arg0 : DevRef τ sig) := by
  after_results_simp
theorem k_S2_arg1 : after (S2 (F := Ideal)) V (main_arg1 : DevRef τ sig) = V (main_arg1 : DevRef τ sig) := by
  after_results_simp
theorem k_S2_arg2 : after (S2 (F := Ideal)) V (main_arg2 : DevRef τ sig) = V (main_arg2 : DevRef τ sig) := by
  after_results_simp
theorem k_S2_arg3 : after (S2 (F := Ideal)) V (main_arg3 : DevRef τ sig) = V (main_arg3 : DevRef τ sig) := by
  after_results_simp
theorem k_S2_arg4 : after (S2 (F := Ideal)) V (main_arg4 : DevRef τ sig) = V (main_arg4 : DevRef τ sig) := by
  after_results_simp
theorem k_S2_arg5 : after (S2 (F := Ideal)) V (main_arg5 : DevRef τ sig) = V (main_arg5 : DevRef τ sig) := by
  after_results_simp
theorem k_S3_arg0 : after (S3 (F := Ideal)) V (main_arg0 : DevRef τ sig) = V (main_arg0 : DevRef τ sig) := by
  after_results_simp
theorem k_S3_arg1 : after (S3 (F := Ideal)) V (main_arg1 : DevRef τ sig) = V (main_arg1 : DevRef τ sig) := by
  after_results_simp
theorem k_S3_arg2 : after (S3 (F := Ideal)) V (main_arg2 : DevRef τ sig) = V (main_arg2 : DevRef τ sig) := by
  after_results_simp
theorem k_S3_arg3 : after (S3 (F := Ideal)) V (main_arg3 : DevRef τ sig) = V (main_arg3 : DevRef τ sig) := by
  after_results_simp
theorem k_S3_arg4 : after (S3 (F := Ideal)) V (main_arg4 : DevRef τ sig) = V (main_arg4 : DevRef τ sig) := by
  after_results_simp
theorem k_S3_arg5 : after (S3 (F := Ideal)) V (main_arg5 : DevRef τ sig) = V (main_arg5 : DevRef τ sig) := by
  after_results_simp
theorem k_S4a_arg0 : after (S4a (F := Ideal)) V (main_arg0 : DevRef τ sig) = V (main_arg0 : DevRef τ sig) := by
  after_results_simp
theorem k_S4a_arg1 : after (S4a (F := Ideal)) V (main_arg1 : DevRef τ sig) = V (main_arg1 : DevRef τ sig) := by
  after_results_simp
theorem k_S4a_arg2 : after (S4a (F := Ideal)) V (main_arg2 : DevRef τ sig) = V (main_arg2 : DevRef τ sig) := by
  after_results_simp
theorem k_S4a_arg3 : after (S4a (F := Ideal)) V (main_arg3 : DevRef τ sig) = V (main_arg3 : DevRef τ sig) := by
  after_results_simp
theorem k_S4a_arg4 : after (S4a (F := Ideal)) V (main_arg4 : DevRef τ sig) = V (main_arg4 : DevRef τ sig) := by
  after_results_simp
theorem k_S4a_arg5 : after (S4a (F := Ideal)) V (main_arg5 : DevRef τ sig) = V (main_arg5 : DevRef τ sig) := by
  after_results_simp
theorem k_S4b_arg0 : after (S4b (F := Ideal)) V (main_arg0 : DevRef τ sig) = V (main_arg0 : DevRef τ sig) := by
  after_results_simp
theorem k_S4b_arg1 : after (S4b (F := Ideal)) V (main_arg1 : DevRef τ sig) = V (main_arg1 : DevRef τ sig) := by
  after_results_simp
theorem k_S4b_arg2 : after (S4b (F := Ideal)) V (main_arg2 : DevRef τ sig) = V (main_arg2 : DevRef τ sig) := by
  after_results_simp
theorem k_S4b_arg3 : after (S4b (F := Ideal)) V (main_arg3 : DevRef τ sig) = V (main_arg3 : DevRef τ sig) := by
  after_results_simp
theorem k_S4b_arg4 : after (S4b (F := Ideal)) V (main_arg4 : DevRef τ sig) = V (main_arg4 : DevRef τ sig) := by
  after_results_simp
theorem k_S4b_arg5 : after (S4b (F := Ideal)) V (main_arg5 : DevRef τ sig) = V (main_arg5 : DevRef τ sig) := by
  after_results_simp
theorem k_S5_arg0 : after (S5 (F := Ideal)) V (main_arg0 : DevRef τ sig) = V (main_arg0 : DevRef τ sig) := by
  after_results_simp
theorem k_S5_arg1 : after (S5 (F := Ideal)) V (main_arg1 : DevRef τ sig) = V (main_arg1 : DevRef τ sig) := by
  after_results_simp
theorem k_S5_arg2 : after (S5 (F := Ideal)) V (main_arg2 : DevRef τ sig) = V (main_arg2 : DevRef τ sig) := by
  after_results_simp
theorem k_S5_arg3 : after (S5 (F := Ideal)) V (main_arg3 : DevRef τ sig) = V (main_arg3 : DevRef τ sig) := by
  after_results_simp
theorem k_S5_arg4 : after (S5 (F := Ideal)) V (main_arg4 : DevRef τ sig) = V (main_arg4 : DevRef τ sig) := by
  after_results_simp
theorem k_S5_arg5 : after (S5 (F := Ideal)) V (main_arg5 : DevRef τ sig) = V (main_arg5 : DevRef τ sig) := by
  after_results_simp
theorem k_S6_arg0 : after (S6 (F := Ideal)) V (main_arg0 : DevRef τ sig) = V (main_arg0 : DevRef τ sig) := by
  after_results_simp
theorem k_S6_arg1 : after (S6 (F := Ideal)) V (main_arg1 : DevRef τ sig) = V (main_arg1 : DevRef τ sig) := by
  after_results_simp
theorem k_S6_arg2 : after (S6 (F := Ideal)) V (main_arg2 : DevRef τ sig) = V (main_arg2 : DevRef τ sig) := by
  after_results_simp
theorem k_S6_arg3 : after (S6 (F := Ideal)) V (main_arg3 : DevRef τ sig) = V (main_arg3 : DevRef τ sig) := by
  after_results_simp
theorem k_S6_arg4 : after (S6 (F := Ideal)) V (main_arg4 : DevRef τ sig) = V (main_arg4 : DevRef τ sig) := by
  after_results_simp
theorem k_S6_arg5 : after (S6 (F := Ideal)) V (main_arg5 : DevRef τ sig) = V (main_arg5 : DevRef τ sig) := by
  after_results_simp
theorem k_S1_v3 : after (S1 (F := Ideal)) V (main_v3 : DevRef τ sig) = V (main_v3 : DevRef τ sig) := by
  after_results_simp
theorem k_S1_v6 : after (S1 (F := Ideal)) V (main_v6 : DevRef τ sig) = V (main_v6 : DevRef τ sig) := by
  after_results_simp
theorem k_S2_v3 : after (S2 (F := Ideal)) V (main_v3 : DevRef τ sig) = V (main_v3 : DevRef τ sig) := by
  after_results_simp
theorem k_S2_v6 : after (S2 (F := Ideal)) V (main_v6 : DevRef τ sig) = V (main_v6 : DevRef τ sig) := by
  after_results_simp
theorem k_S4b_v48 : after (S4b (F := Ideal)) V (main_v48 : DevRef τ sig) = V (main_v48 : DevRef τ sig) := by
  after_results_simp
theorem k_S5_v48 : after (S5 (F := Ideal)) V (main_v48 : DevRef τ sig) = V (main_v48 : DevRef τ sig) := by
  after_results_simp
theorem k_S5_v51 : after (S5 (F := Ideal)) V (main_v51 : DevRef τ sig) = V (main_v51 : DevRef τ sig) := by
  after_results_simp

/-! ## The stretches composed -/

abbrev U1 : Valuation τ sig (Elt Ideal) := after (S0 (F := Ideal)) V
abbrev U2 : Valuation τ sig (Elt Ideal) := after (S1 (F := Ideal)) (U1 V)
abbrev U3 : Valuation τ sig (Elt Ideal) := after (S2 (F := Ideal)) (U2 V)
abbrev U4 : Valuation τ sig (Elt Ideal) := after (S3 (F := Ideal)) (U3 V)
abbrev U5 : Valuation τ sig (Elt Ideal) := after (S4a (F := Ideal)) (U4 V)
abbrev U6 : Valuation τ sig (Elt Ideal) := after (S4b (F := Ideal)) (U5 V)
abbrev U7 : Valuation τ sig (Elt Ideal) := after (S5 (F := Ideal)) (U6 V)
abbrev U8 : Valuation τ sig (Elt Ideal) := after (S6 (F := Ideal)) (U7 V)

theorem U1_arg0 : U1 V (main_arg0 : DevRef τ sig) = V (main_arg0 : DevRef τ sig) := k_S0_arg0 V
theorem U2_arg0 : U2 V (main_arg0 : DevRef τ sig) = V (main_arg0 : DevRef τ sig) := (k_S1_arg0 (U1 V)).trans (U1_arg0 V)
theorem U3_arg0 : U3 V (main_arg0 : DevRef τ sig) = V (main_arg0 : DevRef τ sig) := (k_S2_arg0 (U2 V)).trans (U2_arg0 V)
theorem U4_arg0 : U4 V (main_arg0 : DevRef τ sig) = V (main_arg0 : DevRef τ sig) := (k_S3_arg0 (U3 V)).trans (U3_arg0 V)
theorem U5_arg0 : U5 V (main_arg0 : DevRef τ sig) = V (main_arg0 : DevRef τ sig) := (k_S4a_arg0 (U4 V)).trans (U4_arg0 V)
theorem U6_arg0 : U6 V (main_arg0 : DevRef τ sig) = V (main_arg0 : DevRef τ sig) := (k_S4b_arg0 (U5 V)).trans (U5_arg0 V)
theorem U7_arg0 : U7 V (main_arg0 : DevRef τ sig) = V (main_arg0 : DevRef τ sig) := (k_S5_arg0 (U6 V)).trans (U6_arg0 V)
theorem U8_arg0 : U8 V (main_arg0 : DevRef τ sig) = V (main_arg0 : DevRef τ sig) := (k_S6_arg0 (U7 V)).trans (U7_arg0 V)
theorem U1_arg1 : U1 V (main_arg1 : DevRef τ sig) = V (main_arg1 : DevRef τ sig) := k_S0_arg1 V
theorem U2_arg1 : U2 V (main_arg1 : DevRef τ sig) = V (main_arg1 : DevRef τ sig) := (k_S1_arg1 (U1 V)).trans (U1_arg1 V)
theorem U3_arg1 : U3 V (main_arg1 : DevRef τ sig) = V (main_arg1 : DevRef τ sig) := (k_S2_arg1 (U2 V)).trans (U2_arg1 V)
theorem U4_arg1 : U4 V (main_arg1 : DevRef τ sig) = V (main_arg1 : DevRef τ sig) := (k_S3_arg1 (U3 V)).trans (U3_arg1 V)
theorem U5_arg1 : U5 V (main_arg1 : DevRef τ sig) = V (main_arg1 : DevRef τ sig) := (k_S4a_arg1 (U4 V)).trans (U4_arg1 V)
theorem U6_arg1 : U6 V (main_arg1 : DevRef τ sig) = V (main_arg1 : DevRef τ sig) := (k_S4b_arg1 (U5 V)).trans (U5_arg1 V)
theorem U7_arg1 : U7 V (main_arg1 : DevRef τ sig) = V (main_arg1 : DevRef τ sig) := (k_S5_arg1 (U6 V)).trans (U6_arg1 V)
theorem U8_arg1 : U8 V (main_arg1 : DevRef τ sig) = V (main_arg1 : DevRef τ sig) := (k_S6_arg1 (U7 V)).trans (U7_arg1 V)
theorem U1_arg2 : U1 V (main_arg2 : DevRef τ sig) = V (main_arg2 : DevRef τ sig) := k_S0_arg2 V
theorem U2_arg2 : U2 V (main_arg2 : DevRef τ sig) = V (main_arg2 : DevRef τ sig) := (k_S1_arg2 (U1 V)).trans (U1_arg2 V)
theorem U3_arg2 : U3 V (main_arg2 : DevRef τ sig) = V (main_arg2 : DevRef τ sig) := (k_S2_arg2 (U2 V)).trans (U2_arg2 V)
theorem U4_arg2 : U4 V (main_arg2 : DevRef τ sig) = V (main_arg2 : DevRef τ sig) := (k_S3_arg2 (U3 V)).trans (U3_arg2 V)
theorem U5_arg2 : U5 V (main_arg2 : DevRef τ sig) = V (main_arg2 : DevRef τ sig) := (k_S4a_arg2 (U4 V)).trans (U4_arg2 V)
theorem U6_arg2 : U6 V (main_arg2 : DevRef τ sig) = V (main_arg2 : DevRef τ sig) := (k_S4b_arg2 (U5 V)).trans (U5_arg2 V)
theorem U7_arg2 : U7 V (main_arg2 : DevRef τ sig) = V (main_arg2 : DevRef τ sig) := (k_S5_arg2 (U6 V)).trans (U6_arg2 V)
theorem U8_arg2 : U8 V (main_arg2 : DevRef τ sig) = V (main_arg2 : DevRef τ sig) := (k_S6_arg2 (U7 V)).trans (U7_arg2 V)
theorem U1_arg3 : U1 V (main_arg3 : DevRef τ sig) = V (main_arg3 : DevRef τ sig) := k_S0_arg3 V
theorem U2_arg3 : U2 V (main_arg3 : DevRef τ sig) = V (main_arg3 : DevRef τ sig) := (k_S1_arg3 (U1 V)).trans (U1_arg3 V)
theorem U3_arg3 : U3 V (main_arg3 : DevRef τ sig) = V (main_arg3 : DevRef τ sig) := (k_S2_arg3 (U2 V)).trans (U2_arg3 V)
theorem U4_arg3 : U4 V (main_arg3 : DevRef τ sig) = V (main_arg3 : DevRef τ sig) := (k_S3_arg3 (U3 V)).trans (U3_arg3 V)
theorem U5_arg3 : U5 V (main_arg3 : DevRef τ sig) = V (main_arg3 : DevRef τ sig) := (k_S4a_arg3 (U4 V)).trans (U4_arg3 V)
theorem U6_arg3 : U6 V (main_arg3 : DevRef τ sig) = V (main_arg3 : DevRef τ sig) := (k_S4b_arg3 (U5 V)).trans (U5_arg3 V)
theorem U7_arg3 : U7 V (main_arg3 : DevRef τ sig) = V (main_arg3 : DevRef τ sig) := (k_S5_arg3 (U6 V)).trans (U6_arg3 V)
theorem U8_arg3 : U8 V (main_arg3 : DevRef τ sig) = V (main_arg3 : DevRef τ sig) := (k_S6_arg3 (U7 V)).trans (U7_arg3 V)
theorem U1_arg4 : U1 V (main_arg4 : DevRef τ sig) = V (main_arg4 : DevRef τ sig) := k_S0_arg4 V
theorem U2_arg4 : U2 V (main_arg4 : DevRef τ sig) = V (main_arg4 : DevRef τ sig) := (k_S1_arg4 (U1 V)).trans (U1_arg4 V)
theorem U3_arg4 : U3 V (main_arg4 : DevRef τ sig) = V (main_arg4 : DevRef τ sig) := (k_S2_arg4 (U2 V)).trans (U2_arg4 V)
theorem U4_arg4 : U4 V (main_arg4 : DevRef τ sig) = V (main_arg4 : DevRef τ sig) := (k_S3_arg4 (U3 V)).trans (U3_arg4 V)
theorem U5_arg4 : U5 V (main_arg4 : DevRef τ sig) = V (main_arg4 : DevRef τ sig) := (k_S4a_arg4 (U4 V)).trans (U4_arg4 V)
theorem U6_arg4 : U6 V (main_arg4 : DevRef τ sig) = V (main_arg4 : DevRef τ sig) := (k_S4b_arg4 (U5 V)).trans (U5_arg4 V)
theorem U7_arg4 : U7 V (main_arg4 : DevRef τ sig) = V (main_arg4 : DevRef τ sig) := (k_S5_arg4 (U6 V)).trans (U6_arg4 V)
theorem U8_arg4 : U8 V (main_arg4 : DevRef τ sig) = V (main_arg4 : DevRef τ sig) := (k_S6_arg4 (U7 V)).trans (U7_arg4 V)
theorem U1_arg5 : U1 V (main_arg5 : DevRef τ sig) = V (main_arg5 : DevRef τ sig) := k_S0_arg5 V
theorem U2_arg5 : U2 V (main_arg5 : DevRef τ sig) = V (main_arg5 : DevRef τ sig) := (k_S1_arg5 (U1 V)).trans (U1_arg5 V)
theorem U3_arg5 : U3 V (main_arg5 : DevRef τ sig) = V (main_arg5 : DevRef τ sig) := (k_S2_arg5 (U2 V)).trans (U2_arg5 V)
theorem U4_arg5 : U4 V (main_arg5 : DevRef τ sig) = V (main_arg5 : DevRef τ sig) := (k_S3_arg5 (U3 V)).trans (U3_arg5 V)
theorem U5_arg5 : U5 V (main_arg5 : DevRef τ sig) = V (main_arg5 : DevRef τ sig) := (k_S4a_arg5 (U4 V)).trans (U4_arg5 V)
theorem U6_arg5 : U6 V (main_arg5 : DevRef τ sig) = V (main_arg5 : DevRef τ sig) := (k_S4b_arg5 (U5 V)).trans (U5_arg5 V)
theorem U7_arg5 : U7 V (main_arg5 : DevRef τ sig) = V (main_arg5 : DevRef τ sig) := (k_S5_arg5 (U6 V)).trans (U6_arg5 V)
theorem U8_arg5 : U8 V (main_arg5 : DevRef τ sig) = V (main_arg5 : DevRef τ sig) := (k_S6_arg5 (U7 V)).trans (U7_arg5 V)

theorem U2_src : U2 V (main_v3 : DevRef τ sig) = Cert.Chain.src recs (V (main_arg1 : DevRef τ sig)) := (k_S1_v3 (U1 V)).trans (s0_src V)
theorem U2_dst : U2 V (main_v6 : DevRef τ sig) = Cert.Chain.dst recs (V (main_arg1 : DevRef τ sig)) := (k_S1_v6 (U1 V)).trans (s0_dst V)
theorem U2_dinv : U2 V (main_v15 : DevRef τ sig) = Cert.Chain.dinv recs (V (main_arg1 : DevRef τ sig)) := by
  refine (s1_dinv (U1 V)).trans ?_
  rw [show U1 V (main_v12 : DevRef τ sig) = _ from s0_pos V, show U1 V (main_v14 : DevRef τ sig) = _ from s0_pow V,
    show U1 V (main_cst_3 : DevRef τ sig) = _ from s0_zero V]
  rfl
theorem U3_src : U3 V (main_v3 : DevRef τ sig) = Cert.Chain.src recs (V (main_arg1 : DevRef τ sig)) := (k_S2_v3 (U2 V)).trans (U2_src V)
theorem U3_dst : U3 V (main_v6 : DevRef τ sig) = Cert.Chain.dst recs (V (main_arg1 : DevRef τ sig)) := (k_S2_v6 (U2 V)).trans (U2_dst V)
theorem U3_nrm : U3 V (main_v30 : DevRef τ sig) = Cert.Chain.nrm recs (V (main_arg1 : DevRef τ sig)) := by
  refine (s2_nrm (U2 V)).trans ?_
  rw [U2_dinv V, U2_src V, U2_dst V]
  rfl
theorem U4_pre : U4 V (main_v47 : DevRef τ sig)
    = addf (Cert.Chain.agg recs (Host.dotGeneral (φ₁ := .f32) (φ₂ := .f32) dot_S40000x128_S128x128_S40000x128_1_0_0_1_n_n none
          (V (main_arg0 : DevRef τ sig) : FVec Ideal S40000x128 .f32) (V (main_arg2 : DevRef τ sig) : FVec Ideal S128x128 .f32)) (V (main_arg1 : DevRef τ sig)))
        (overRows (V (main_arg3 : DevRef τ sig))) := by
  refine (s3_pre (U3 V)).trans ?_
  rw [U3_dst V, U3_src V, U3_nrm V, U3_arg0 V, U3_arg2 V, U3_arg3 V]
  rfl
theorem U5_rect : U5 V (main_v48 : DevRef τ sig) = rect (V (main_arg0 : DevRef τ sig)) (V (main_arg1 : DevRef τ sig)) (V (main_arg2 : DevRef τ sig)) (V (main_arg3 : DevRef τ sig)) := by
  refine (s4a_rect (U4 V)).trans ?_
  rw [U4_pre V]
  rfl
theorem U6_rect : U6 V (main_v48 : DevRef τ sig) = rect (V (main_arg0 : DevRef τ sig)) (V (main_arg1 : DevRef τ sig)) (V (main_arg2 : DevRef τ sig)) (V (main_arg3 : DevRef τ sig)) :=
  (k_S4b_v48 (U5 V)).trans (U5_rect V)
theorem U6_mean : U6 V (main_v51 : DevRef τ sig) = meanRow (rect (V (main_arg0 : DevRef τ sig)) (V (main_arg1 : DevRef τ sig)) (V (main_arg2 : DevRef τ sig)) (V (main_arg3 : DevRef τ sig))) := by
  refine (s4b_mean (U5 V)).trans ?_
  rw [U5_rect V]
theorem U7_rect : U7 V (main_v48 : DevRef τ sig) = rect (V (main_arg0 : DevRef τ sig)) (V (main_arg1 : DevRef τ sig)) (V (main_arg2 : DevRef τ sig)) (V (main_arg3 : DevRef τ sig)) :=
  (k_S5_v48 (U6 V)).trans (U6_rect V)
theorem U7_mean : U7 V (main_v51 : DevRef τ sig) = meanRow (rect (V (main_arg0 : DevRef τ sig)) (V (main_arg1 : DevRef τ sig)) (V (main_arg2 : DevRef τ sig)) (V (main_arg3 : DevRef τ sig))) :=
  (k_S5_v51 (U6 V)).trans (U6_mean V)
theorem U7_var : U7 V (main_v52 : DevRef τ sig) = varRow (rect (V (main_arg0 : DevRef τ sig)) (V (main_arg1 : DevRef τ sig)) (V (main_arg2 : DevRef τ sig)) (V (main_arg3 : DevRef τ sig))) := by
  refine (s5_var (U6 V)).trans ?_
  rw [U6_rect V]
theorem U8_out : U8 V (main_v67 : DevRef τ sig)
    = refRaw (V (main_arg0 : DevRef τ sig)) (V (main_arg1 : DevRef τ sig)) (V (main_arg2 : DevRef τ sig)) (V (main_arg3 : DevRef τ sig)) (V (main_arg4 : DevRef τ sig)) (V (main_arg5 : DevRef τ sig)) := by
  refine (s6_out (U7 V)).trans ?_
  rw [U7_rect V, U7_mean V, U7_var V, U7_arg4 V, U7_arg5 V]
  rfl

/-- The whole line's fold is the eight stretches' folds composed. -/
theorem after_ops : after (ops (F := Ideal)) V = U8 V := by
  rw [ops_split]
  simp only [after_append]

/-- The fold at the result buffer is the reference's term of the arguments' contents. -/
theorem out_raw : after (ops (F := Ideal)) V (main_v67 : DevRef τ sig)
    = refRaw (V (main_arg0 : DevRef τ sig)) (V (main_arg1 : DevRef τ sig)) (V (main_arg2 : DevRef τ sig))
        (V (main_arg3 : DevRef τ sig)) (V (main_arg4 : DevRef τ sig)) (V (main_arg5 : DevRef τ sig)) :=
  (congrFun (after_ops V) _).trans (U8_out V)

/-- No operation writes argument 0. -/
theorem arg0_eq : after (ops (F := Ideal)) V (main_arg0 : DevRef τ sig) = V (main_arg0 : DevRef τ sig) :=
  (congrFun (after_ops V) _).trans (U8_arg0 V)
/-- No operation writes argument 1. -/
theorem arg1_eq : after (ops (F := Ideal)) V (main_arg1 : DevRef τ sig) = V (main_arg1 : DevRef τ sig) :=
  (congrFun (after_ops V) _).trans (U8_arg1 V)
/-- No operation writes argument 2. -/
theorem arg2_eq : after (ops (F := Ideal)) V (main_arg2 : DevRef τ sig) = V (main_arg2 : DevRef τ sig) :=
  (congrFun (after_ops V) _).trans (U8_arg2 V)
/-- No operation writes argument 3. -/
theorem arg3_eq : after (ops (F := Ideal)) V (main_arg3 : DevRef τ sig) = V (main_arg3 : DevRef τ sig) :=
  (congrFun (after_ops V) _).trans (U8_arg3 V)
/-- No operation writes argument 4. -/
theorem arg4_eq : after (ops (F := Ideal)) V (main_arg4 : DevRef τ sig) = V (main_arg4 : DevRef τ sig) :=
  (congrFun (after_ops V) _).trans (U8_arg4 V)
/-- No operation writes argument 5. -/
theorem arg5_eq : after (ops (F := Ideal)) V (main_arg5 : DevRef τ sig) = V (main_arg5 : DevRef τ sig) :=
  (congrFun (after_ops V) _).trans (U8_arg5 V)

end Run

/-- Every weakly fair execution of the reference terminates, its result at `refRaw` of the arguments' launch contents,
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67)
        = refRaw (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run (defs (F := Ideal)) _ _).mono
    (fun _ h c => ⟨(h c main_v67).trans (Run.out_raw _), (h c main_arg0).trans (Run.arg0_eq _),
      (h c main_arg1).trans (Run.arg1_eq _), (h c main_arg2).trans (Run.arg2_eq _), (h c main_arg3).trans (Run.arg3_eq _),
      (h c main_arg4).trans (Run.arg4_eq _), (h c main_arg5).trans (Run.arg5_eq _)⟩)
    (Run.run_main (F := Ideal) m ρ)

end Cert.ReferenceIdeal.RV

end
-- ==== Proof.Consts.lean ====
/-
  The float literals both programs spell, as the extended reals their bit patterns denote:
  zero, the node count 40000, the unit edge weight 1 and the exponent -1/2.
-/
import Idealize.ShloMosaic.PureOps.Ideal

noncomputable section

namespace Cert.Consts

open Idealize.ShloMosaic

/-- `+0.0` denotes 0. -/
theorem ofBits_zero : Ideal.ofBits .f32 0x00000000#32 = 0 := by
  simp [Ideal.ofBits, Ideal.ieee]

/-- `40000.0`, the number of nodes both programs divide the column sums by, denotes the real 40000. -/
theorem ofBits_40000 : Ideal.ofBits .f32 0x471C4000#32 = ((40000 : ℝ) : EReal) := by
  simp [Ideal.ofBits, Ideal.ieee, -EReal.coe_mul]; norm_num

/-- `1.0`, the weight every edge adds to its target's degree, denotes 1. -/
theorem ofBits_one : Ideal.ofBits .f32 0x3F800000#32 = ((1 : ℝ) : EReal) := by
  simp [Ideal.ofBits, Ideal.ieee, -EReal.coe_mul]; norm_num

/-- `-0.5`, the exponent of the degree normalisation, denotes the real -1/2. -/
theorem ofBits_neg_half : Ideal.ofBits .f32 0xBF000000#32 = ((-(1 / 2) : ℝ) : EReal) := by
  simp [Ideal.ofBits, Ideal.ieee, -EReal.coe_mul]; norm_num

end Cert.Consts

end
-- ==== Proof.RefValue.lean ====
/-
  The reference's result, read index by index: the host's product is the matrix product, its sums over the node axis
  are the column sums, the divisor `40000 − 0` is positive so the guarded variance is the mean of the squared
  deviations, and the row broadcasts read a [128] vector at the column.
-/
import proofs.«117184_j5583457485036_1_alg».proof.Proof.RefRaw
import proofs.«117184_j5583457485036_1_alg».proof.Proof.Spec
import proofs.«117184_j5583457485036_1_alg».proof.Proof.Consts
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RV

open Idealize.ShloMosaic Idealize.ShloMosaic.ValueIdx Cert.ReferenceIdeal Cert.ReferenceIdeal.Facts₀

namespace Val

/-! ## Broadcasts read at an index -/

/-- A [128] vector laid over the rows reads, at row `n` and column `j`, the vector's entry `j`. -/
theorem overRows_apply (v : FVec Ideal S128 .f32) (n : Fin 40000) (j : Fin 128) :
    overRows v (ix2 n j) = v (ix1 j) := by
  show broadcastInDim S40000x128 ![0, 1] bcast_S1x128_S40000x128_0_1
      (broadcastInDim S1x128 ![1] bcast_S128_S1x128_1 v) (ix2 n j) = _
  rw [broadcastInDim_apply ![0, 1] bcast_S1x128_S40000x128_0_1 _ (ix2 n j) (ix2 (0 : Fin 1) j) (fun a => by
        match a with
        | ⟨0, _⟩ => rfl
        | ⟨1, _⟩ => rfl),
    broadcastInDim_apply ![1] bcast_S128_S1x128_1 v (ix2 (0 : Fin 1) j) (ix1 j) (fun a => by
        match a with
        | ⟨0, _⟩ => rfl)]

/-- A [1, 128] row laid over the rows reads, at row `n` and column `j`, the row's entry `(0, j)`. -/
theorem rowOver_apply (v : FVec Ideal S1x128 .f32) (n : Fin 40000) (j : Fin 128) :
    broadcastInDim S40000x128 ![0, 1] bcast_S1x128_S40000x128_0_1 v (ix2 n j) = v (ix2 (0 : Fin 1) j) :=
  broadcastInDim_apply ![0, 1] bcast_S1x128_S40000x128_0_1 v (ix2 n j) (ix2 (0 : Fin 1) j) (fun a => by
    match a with
    | ⟨0, _⟩ => rfl
    | ⟨1, _⟩ => rfl)

/-- A [128] vector as a [1, 128] row reads, at `(0, j)`, the vector's entry `j`. -/
theorem asRow_apply (v : FVec Ideal S128 .f32) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j) (fun a => by
    match a with
    | ⟨0, _⟩ => rfl)

/-! ## The product -/

/-- The host's product at `(n, j)` is `∑ₖ x n k · w k j`. -/
theorem dot_apply (x : FVec Ideal S40000x128 .f32) (w : FVec Ideal S128x128 .f32) (n : Fin 40000) (j : Fin 128) :
    Host.dotGeneral dot_S40000x128_S128x128_S40000x128_1_0_0_1_n_n none x w (ix2 n j)
      = ∑ k : Fin 128, x (ix2 n k) * w (ix2 k j) := by
  show FloatOps.dotGeneral _ none _ x w (ix2 n j) = _
  rw [Ideal.dotGeneral_apply,
    ← Equiv.sum_comp (contrEquiv1 dot_S40000x128_S128x128_S40000x128_1_0_0_1_n_n 128 rfl rfl).symm]
  refine Finset.sum_congr rfl fun c _ => ?_
  have c2 := contrEquiv1_symm_val dot_S40000x128_S128x128_S40000x128_1_0_0_1_n_n 128 rfl rfl c
  have l2 : dot_S40000x128_S128x128_S40000x128_1_0_0_1_n_n.lhsIdx (ix2 n j)
      ((contrEquiv1 _ 128 rfl rfl).symm c) = ix2 n c := by
    funext ax; apply Fin.ext
    match ax with
    | ⟨0, _⟩ => simp [DotDims.lhsIdx, dot_S40000x128_S128x128_S40000x128_1_0_0_1_n_n]; rfl
    | ⟨1, _⟩ => simp [DotDims.lhsIdx, dot_S40000x128_S128x128_S40000x128_1_0_0_1_n_n]; exact c2
  have r2 : dot_S40000x128_S128x128_S40000x128_1_0_0_1_n_n.rhsIdx (ix2 n j)
      ((contrEquiv1 _ 128 rfl rfl).symm c) = ix2 c j := by
    funext ax; apply Fin.ext
    match ax with
    | ⟨0, _⟩ => simp [DotDims.rhsIdx, dot_S40000x128_S128x128_S40000x128_1_0_0_1_n_n]; exact c2
    | ⟨1, _⟩ => simp [DotDims.rhsIdx, dot_S40000x128_S128x128_S40000x128_1_0_0_1_n_n]; rfl
  rw [l2, r2]

/-- The host's product is the dense projection. -/
theorem dot_eq (x : FVec Ideal S40000x128 .f32) (w : FVec Ideal S128x128 .f32) :
    Host.dotGeneral dot_S40000x128_S128x128_S40000x128_1_0_0_1_n_n none x w = Cert.Spec.mm x w := by
  funext i
  obtain ⟨n, j, rfl⟩ : ∃ (n : Fin 40000) (j : Fin 128), i = ix2 n j := ⟨i 0, i 1, eq_ix2 i⟩
  rw [dot_apply]
  rfl

/-! ## Bias and rectifier -/

/-- The array after the bias and the rectifier is the specification's, of the aggregated projection. -/
theorem rect_eq (x : FVec Ideal S40000x128 .f32) (ei : IVec S2x640000 32) (w : FVec Ideal S128x128 .f32)
    (b : FVec Ideal S128 .f32) :
    rect x ei w b = Cert.Spec.relu1 (Cert.Chain.agg recs (Cert.Spec.mm x w) ei) b := by
  unfold rect
  rw [dot_eq]
  funext i
  obtain ⟨n, j, rfl⟩ : ∃ (n : Fin 40000) (j : Fin 128), i = ix2 n j := ⟨i 0, i 1, eq_ix2 i⟩
  rw [maximumf_apply, addf_apply, overRows_apply, broadcastInDim_scalar_apply, constant_apply]
  rfl

/-! ## Column sums and means -/

/-- The host's sum over the node axis, from the zero constant, at column `j` is `∑ₙ r n j`. -/
theorem colSum_apply (r : FVec Ideal S40000x128 .f32) (j : Fin 128) :
    Host.reduceAdd (F := Ideal) r (constant (F := Ideal) S_ .f32 0x00000000#32) reducesTo_S40000x128_S128_d0 h_S_ (ix1 j)
      = ∑ n : Fin 40000, r (ix2 n j) := by
  have h : S40000x128.Reduces [0] S128 :=
    ⟨reducesTo_S40000x128_S128_d0.1, Nat.one_pos, reducesTo_S40000x128_S128_d0.2⟩
  rw [hostReduceAdd_apply, Ideal.hostReduceAdd_single reducesTo_S40000x128_S128_d0 h, constant_apply,
    Cert.Consts.ofBits_zero, zero_add]
  refine Finset.sum_congr rfl fun k _ => congrArg r (funext fun a => Fin.ext ?_)
  match a with
  | ⟨0, _⟩ => rfl
  | ⟨1, _⟩ => rfl

/-- The column mean at `j` is the specification's. -/
theorem meanRow_apply (r : FVec Ideal S40000x128 .f32) (j : Fin 128) :
    meanRow r (ix1 j) = Cert.Spec.meanOf r j := by
  unfold meanRow
  rw [hostDivf_apply, colSum_apply, broadcastInDim_scalar_apply, constant_apply]
  rfl

/-! ## The variance's divisor and its guard -/

/-- The divisor `40000 − 0` is the node count. -/
theorem dof_apply : dof ix0 = Cert.Spec.cN := by
  show Cert.Spec.cN - (((0#32 : BitVec 32).toInt : ℝ) : EReal) = Cert.Spec.cN
  rw [show ((0#32 : BitVec 32).toInt : ℝ) = 0 by simp, EReal.coe_zero, sub_zero]

/-- The divisor is positive, so the guard holds. -/
theorem guard_apply : cmpf .ogt dof (constant (F := Ideal) S_ .f32 0x00000000#32) ix0 = 1#1 := by
  show Ideal.cmp .ogt (dof ix0) (Ideal.ofBits .f32 0x00000000#32) = 1#1
  rw [dof_apply, Cert.Consts.ofBits_zero]
  have hpos : (0 : EReal) < Cert.Spec.cN := by
    show (0 : EReal) < Ideal.ofBits .f32 0x471C4000#32
    rw [Cert.Consts.ofBits_40000]
    exact_mod_cast (by norm_num : (0 : ℝ) < 40000)
  simp [Ideal.cmp, hpos]

/-- The mean, as a [1, 128] row divided by the node count and laid over the rows, reads the column's mean. -/
theorem meanOver_apply (r : FVec Ideal S40000x128 .f32) (n : Fin 40000) (j : Fin 128) :
    broadcastInDim S40000x128 ![0, 1] bcast_S1x128_S40000x128_0_1
      (Host.divf (F := Ideal) (broadcastInDim S1x128 ![1] bcast_S128_S1x128_1
          (Host.reduceAdd (F := Ideal) r (constant (F := Ideal) S_ .f32 0x00000000#32) reducesTo_S40000x128_S128_d0 h_S_))
        (broadcastInDim S1x128 ![] bcast_S_S1x128 (constant (F := Ideal) S_ .f32 0x471C4000#32))) (ix2 n j)
      = Cert.Spec.meanOf r j := by
  rw [rowOver_apply, hostDivf_apply, asRow_apply, colSum_apply, broadcastInDim_scalar_apply, constant_apply]
  rfl

/-- The guarded column variance at `j` is the mean of the squared deviations from the column's mean. -/
theorem varRow_apply (r : FVec Ideal S40000x128 .f32) (j : Fin 128) :
    varRow r (ix1 j) = Cert.Spec.varR r j := by
  unfold varRow
  rw [select_apply, broadcastInDim_scalar_apply, guard_apply, select_one, hostDivf_apply, colSum_apply,
    broadcastInDim_scalar_apply, dof_apply]
  unfold Cert.Spec.varR
  refine congrArg (fun s => Ideal.div s Cert.Spec.cN) (Finset.sum_congr rfl fun n _ => ?_)
  rw [mulf_apply, subf_apply, meanOver_apply]

/-! ## The normalisation -/

/-- The host's reciprocal square root at an index. -/
theorem hostRsqrt_apply {s : Shape} {φ : FTy} (a : FVec Ideal s φ) (i : s.Idx) :
    Host.rsqrt a i = Ideal.rsqrt (a i) := rfl

/-- The normalisation of an array by its own column statistics, at `(n, j)`. -/
theorem norm_apply (R : FVec Ideal S40000x128 .f32) (g be : FVec Ideal S128 .f32) (n : Fin 40000) (j : Fin 128) :
    addf (mulf (mulf (subf R (overRows (meanRow R)))
        (overRows (Host.rsqrt (F := Ideal) (addf (varRow R)
          (broadcastInDim S128 ![] bcast_S_S128 (constant (F := Ideal) S_ .f32 0x3727C5AC#32))))))
        (overRows g)) (overRows be) (ix2 n j)
      = Cert.Spec.outOf (Cert.Spec.varR R) R g be (ix2 n j) := by
  rw [addf_apply, mulf_apply, mulf_apply, subf_apply, overRows_apply, overRows_apply, overRows_apply,
    overRows_apply, meanRow_apply, hostRsqrt_apply, addf_apply, varRow_apply, broadcastInDim_scalar_apply,
    constant_apply]
  rfl

end Val

/-- The reference's result is the normalisation, with the variance taken as the mean of the squared deviations, of
    the rectified aggregation of the projection. -/
theorem refRaw_eq (x : FVec Ideal S40000x128 .f32) (ei : IVec S2x640000 32) (w : FVec Ideal S128x128 .f32)
    (b g be : FVec Ideal S128 .f32) :
    refRaw x ei w b g be
      = Cert.Spec.outOf (Cert.Spec.varR (Cert.Spec.relu1 (Cert.Chain.agg recs (Cert.Spec.mm x w) ei) b))
          (Cert.Spec.relu1 (Cert.Chain.agg recs (Cert.Spec.mm x w) ei) b) g be := by
  unfold refRaw
  rw [Val.rect_eq]
  funext i
  obtain ⟨n, j, rfl⟩ : ∃ (n : Fin 40000) (j : Fin 128), i = ix2 n j := ⟨i 0, i 1, eq_ix2 i⟩
  exact Val.norm_apply _ g be n j

end Cert.ReferenceIdeal.RV

end
-- ==== Proof.Algebra.lean ====
/-
  The one law that joins the two programs: for a real array the mean of the squares minus the square of the mean is
  the mean of the squared deviations from the mean, column by column, the divisor being the number of rows.
-/
import proofs.«117184_j5583457485036_1_alg».proof.Proof.Spec
import proofs.«117184_j5583457485036_1_alg».proof.Proof.Consts
import Idealize.ShloMosaic.Lib.ValueIdx
import Mathlib.Data.EReal.Basic
import Mathlib.Data.EReal.Operations
import Mathlib.Algebra.BigOperators.Group.Finset.Basic
import Mathlib.Algebra.BigOperators.Ring.Finset
import Mathlib.Tactic.Ring
import Mathlib.Tactic.NormNum.Basic

noncomputable section

namespace Cert.Spec

open Idealize.ShloMosaic Idealize.ShloMosaic.ValueIdx

/-- The embedding of the reals in the extended reals commutes with finite sums. -/
private theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the squared deviations from any centre μ: ∑ (aᵣ − μ)² = ∑ aᵣ² − 2 μ ∑ aᵣ + N μ², with N = 40000 terms. -/
private theorem sum_sq_dev (f : Fin 40000 → ℝ) (μ : ℝ) :
    ∑ r, (f r - μ) * (f r - μ) = (∑ r, f r * f r) - 2 * μ * (∑ r, f r) + 40000 * (μ * μ) := by
  have h1 : ∀ r, (f r - μ) * (f r - μ) = f r * f r - 2 * μ * f r + μ * μ := fun r => by ring
  simp only [h1]
  rw [Finset.sum_add_distrib, Finset.sum_sub_distrib, ← Finset.mul_sum, Finset.sum_const, Finset.card_univ,
    Fintype.card_fin, nsmul_eq_mul]
  push_cast
  ring

/-- Over the reals, with μ = (∑ aᵣ)/N and N = 40000 the number of terms: (∑ aᵣ²)/N − μ² = (∑ (aᵣ − μ)²)/N. -/
private theorem real_var (f : Fin 40000 → ℝ) :
    (∑ r, f r * f r) * (1 / 40000) - ((∑ r, f r) * (1 / 40000)) * ((∑ r, f r) * (1 / 40000))
      = (∑ r, (f r - (∑ r, f r) * (1 / 40000)) * (f r - (∑ r, f r) * (1 / 40000))) * (1 / 40000) := by
  rw [sum_sq_dev]
  ring

/-- For a real array the two variances agree in every column. -/
theorem varK_eq_varR (R : SNC.Idx → EReal) (hR : IsReal R) (j : Fin 128) : varK R j = varR R j := by
  choose f hf using fun r : Fin 40000 => hR (ix2 r j)
  have hN : (40000 : ℝ) ≠ 0 := by norm_num
  simp only [varK, varR, meanOf, cN, Cert.Consts.ofBits_40000, hf, Ideal.div_coe hN]
  simp only [← EReal.coe_mul, ← coe_sum_real, ← EReal.coe_sub]
  rw [EReal.coe_eq_coe_iff]
  exact real_var f

/-- So the two normalised outputs agree. -/
theorem outOf_varK_eq (R : SNC.Idx → EReal) (hR : IsReal R) (g b : SC.Idx → EReal) :
    outOf (varK R) R g b = outOf (varR R) R g b := by
  have h : varK R = varR R := funext (varK_eq_varR R hR)
  rw [h]

end Cert.Spec

end
-- ==== Proof.ChainReal.lean ====
/-
  Finite inputs stay finite through the layer's first half: a finite sum of products of reals is real, a gather reads
  an entry of its operand, an accumulating scatter adds finitely many updates to an entry, a positive degree to the
  power -1/2 is real, and a maximum of two reals is real.
-/
import proofs.«117184_j5583457485036_1_alg».proof.Proof.Chain
import proofs.«117184_j5583457485036_1_alg».proof.Proof.Spec
import proofs.«117184_j5583457485036_1_alg».proof.Proof.Consts
import Idealize.ShloMosaic.Lib.ValueIdx
import Mathlib.Data.EReal.Basic
import Mathlib.Data.EReal.Operations
import Mathlib.Algebra.BigOperators.Group.Finset.Basic

noncomputable section

namespace Cert.Chain

open Idealize.ShloMosaic Idealize.ShloMosaic.ValueIdx Cert.Spec

namespace Real

/-! ### Real numbers among the extended reals are closed under sum, product, maximum and finite sums -/

/-- A sum of two reals is real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A product of two reals is real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The larger of two reals is one of them. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is real. -/
theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (hf a (Finset.mem_insert_self a s)) (ih fun i hi => hf i (Finset.mem_insert_of_mem hi))

/-- The float zero is the real zero. -/
theorem real_zero : ∃ r : ℝ, Ideal.ofBits .f32 0x00000000#32 = (r : EReal) :=
  ⟨0, by rw [Cert.Consts.ofBits_zero, EReal.coe_zero]⟩

/-! ### Each operation of the chain keeps an array real -/

/-- A broadcast reads entries of its operand. -/
theorem isReal_broadcastInDim {s t : Shape} (dims : Fin s.rank → Fin t.rank) (h : s.BroadcastsInDim t dims)
    (x : s.Idx → EReal) (hx : IsReal x) : IsReal (broadcastInDim t dims h x) :=
  fun _ => hx _

/-- A gather reads entries of its operand. -/
theorem isReal_gather {s si t : Shape} {w : Nat} (d : GatherDims s si t) (x : s.Idx → EReal) (idx : IVec si w)
    (hx : IsReal x) : IsReal (Host.gather d x idx) :=
  fun _ => hx _

/-- A splat of a real constant is real. -/
theorem isReal_const {s : Shape} (b : BitVec (FTy.f32).bits) (hb : ∃ r : ℝ, Ideal.ofBits .f32 b = (r : EReal)) :
    IsReal (constant (F := Ideal) s .f32 b) :=
  fun _ => hb

/-- An accumulating scatter adds finitely many updates to an entry of its operand. -/
theorem isReal_scatterAdd {s si u : Shape} {w : Nat} (d : ScatterDims s si u) (x : FVec Ideal s .f32) (idx : IVec si w)
    (upd : FVec Ideal u .f32) (hx : IsReal x) (hu : IsReal upd) : IsReal (Host.scatterAdd d x idx upd) := by
  intro i
  show ∃ r : ℝ, Ideal.hostScatterAdd d x idx upd i = (r : EReal)
  unfold Ideal.hostScatterAdd
  exact real_add (hx i) (real_sum _ _ fun j _ => hu j)

/-- An elementwise product of real arrays is real. -/
theorem isReal_mulf {s : Shape} (a b : FVec Ideal s .f32) (ha : IsReal a) (hb : IsReal b) : IsReal (mulf a b) :=
  fun i => real_mul (ha i) (hb i)

/-- A select picks, entry by entry, one of two real entries. -/
theorem isReal_select {s : Shape} (c : IVec s 1) (a b : s.Idx → EReal) (ha : IsReal a) (hb : IsReal b) :
    IsReal (select c a b) := by
  intro i
  show ∃ r : ℝ, Scalar.select (c i) (a i) (b i) = (r : EReal)
  unfold Scalar.select
  split
  · exact ha i
  · exact hb i

/-- A real to a real power is the real power function's value. -/
theorem isReal_powf {s : Shape} (x y : FVec Ideal s .f32) (hx : IsReal x) (hy : IsReal y) : IsReal (Host.powf x y) := by
  intro i
  obtain ⟨a, ha⟩ := hx i
  obtain ⟨b, hb⟩ := hy i
  refine ⟨_root_.Real.rpow a b, ?_⟩
  show Ideal.pow (x i) (y i) = _
  rw [ha, hb]
  rfl

/-! ### Along the chain -/

/-- Every degree is real: zero plus finitely many ones. -/
theorem deg_isReal (ρ : Recs) (ei : IVec S2xE 32) : IsReal (deg ρ ei) := by
  unfold deg
  exact isReal_scatterAdd _ _ _ _
    (isReal_broadcastInDim _ _ _ (isReal_const _ real_zero))
    (isReal_broadcastInDim _ _ _ (isReal_const _ ⟨1, Cert.Consts.ofBits_one⟩))

/-- Every inverse square root of a degree is real. -/
theorem dinv_isReal (ρ : Recs) (ei : IVec S2xE 32) : IsReal (dinv ρ ei) := by
  unfold dinv
  exact isReal_select _ _ _
    (isReal_powf _ _ (deg_isReal ρ ei)
      (isReal_broadcastInDim _ _ _ (isReal_const _ ⟨-(1 / 2), Cert.Consts.ofBits_neg_half⟩)))
    (isReal_broadcastInDim _ _ _ (isReal_const _ real_zero))

/-- Every entry's normalisation is real. -/
theorem nrm_isReal (ρ : Recs) (ei : IVec S2xE 32) : IsReal (nrm ρ ei) := by
  unfold nrm
  exact isReal_mulf _ _ (isReal_gather _ _ _ (dinv_isReal ρ ei)) (isReal_gather _ _ _ (dinv_isReal ρ ei))

/-- Every message of a real array is real. -/
theorem msgs_isReal (ρ : Recs) (h : FVec Ideal Chain.SNC .f32) (hh : IsReal h) (ei : IVec S2xE 32) :
    IsReal (msgs ρ h ei) := by
  unfold msgs
  exact isReal_mulf _ _ (isReal_gather _ _ _ hh)
    (isReal_broadcastInDim _ _ _ (isReal_broadcastInDim _ _ _ (nrm_isReal ρ ei)))

end Real

/-- The product of two real matrices is real. -/
theorem mm_isReal (x : SNC.Idx → EReal) (w : SCC.Idx → EReal) (hx : IsReal x) (hw : IsReal w) : IsReal (mm x w) := by
  intro i
  show ∃ r : ℝ, (∑ k : Fin 128, x (ix2 (i 0 : Fin 40000) k) * w (ix2 k (i 1 : Fin 128))) = (r : EReal)
  exact Real.real_sum _ _ fun k _ => Real.real_mul (hx _) (hw _)

/-- The aggregation of a real array is real, whatever the edge list. -/
theorem agg_isReal (ρ : Recs) (h : FVec Ideal Chain.SNC .f32) (hh : IsReal h) (ei : IVec S2xE 32) :
    IsReal (agg ρ h ei) := by
  unfold agg
  exact Real.isReal_scatterAdd _ _ _ _ (Real.isReal_broadcastInDim _ _ _ (Real.isReal_const _ Real.real_zero))
    (Real.msgs_isReal ρ h hh ei)

/-- Bias and rectifier keep an array real. -/
theorem relu1_isReal (a : Spec.SNC.Idx → EReal) (b : SC.Idx → EReal) (ha : IsReal a) (hb : IsReal b) :
    IsReal (relu1 a b) := by
  intro i
  show ∃ r : ℝ, max (a i + b (ix1 (i 1 : Fin 128))) z = (r : EReal)
  exact Real.real_max (Real.real_add (ha i) (hb _)) Real.real_zero

end Cert.Chain

end
-- ==== Proof.Finite.lean ====
/-
  The precondition read: each float argument passes `|v| < +∞` at every entry, so every entry is a real number.
-/
import proofs.«117184_j5583457485036_1_alg».proof.Defs
import proofs.«117184_j5583457485036_1_alg».proof.Proof.Gen.Pre_finite_inputs
import proofs.«117184_j5583457485036_1_alg».proof.Proof.Gen.KernelIdeal
import proofs.«117184_j5583457485036_1_alg».proof.Proof.Spec
import Idealize.ShloMosaic.Lib.ReduceAll
import Idealize.ShloMosaic.Lib.ValueIdx

noncomputable section

namespace Cert.Finite

open Idealize.ShloMosaic Idealize.SL.Sem Cert.Spec

/-- The bit pattern with all exponent bits set, sign and fraction clear, denotes `+∞`. -/
theorem inf_eq : Ideal.ofBits .f32 0x7F800000#32 = (⊤ : EReal) := by
  simp [Ideal.ofBits, Ideal.ieee]

/-- An extended real whose absolute value `max x (-x)` compares below `+∞` is neither infinity: it is a real number. -/
theorem real_of_cmp (x : EReal)
    (h : Ideal.cmp .olt (max x (-x)) (Ideal.ofBits .f32 0x7F800000#32) = 1#1) : ∃ r : ℝ, x = (r : EReal) := by
  rw [inf_eq] at h
  have h' : max x (-x) < ⊤ := by
    by_contra hn
    simp [Ideal.cmp, hn] at h
  induction x using EReal.rec with
  | bot => simp at h'
  | coe r => exact ⟨r, rfl⟩
  | top => simp at h'

/-- The rank-0 shape has one index. -/
instance : Subsingleton Cert.Pre_finite_inputs.S_.Idx := ⟨fun a b => funext fun d => d.elim0⟩

/-- Under the precondition the feature matrix, the weight matrix and the bias are real-valued. -/
theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (s := Cert.Spec.SNC) (m ((c.tc : Thread Cert.KernelIdeal.nD Cert.KernelIdeal.τ).loc Cert.KernelIdeal.main_arg0))
    ∧ IsReal (s := Cert.Spec.SCC) (m ((c.tc : Thread Cert.KernelIdeal.nD Cert.KernelIdeal.τ).loc Cert.KernelIdeal.main_arg2))
    ∧ IsReal (s := Cert.Spec.SC) (m ((c.tc : Thread Cert.KernelIdeal.nD Cert.KernelIdeal.τ).loc Cert.KernelIdeal.main_arg3)) := by
  -- the precondition at this device, read at the one index of its rank-0 result
  have h0 := congrFun (h c) ValueIdx.ix0
  dsimp only [Cert.Pre_finite_inputs.fn, Cert.Pre_finite_inputs.fn_part1, Idealize.ShloMosaic.andi] at h0
  -- a conjunction of five tests, each an `and` over all entries of `|v| < +∞`
  simp only [IntOp.andi_eq_one] at h0
  obtain ⟨⟨⟨⟨e0, e2⟩, e3⟩, _⟩, _⟩ := h0
  refine ⟨fun i => ?_, fun i => ?_, fun i => ?_⟩
  · exact real_of_cmp _ (Host.reduce_andi_all _ _ _ _ _ e0 i)
  · exact real_of_cmp _ (Host.reduce_andi_all _ _ _ _ _ e2 i)
  · exact real_of_cmp _ (Host.reduce_andi_all _ _ _ _ _ e3 i)

end Cert.Finite

end
-- ==== Proof.lean ====
/-
  A graph-convolution layer with batch normalisation, as a Pallas program of three pallas_calls (the projection
  `x · W`; bias, rectifier and the running column sums and sums of squares; the normalisation) among host operations
  (degrees, symmetric normalisation, gather and scatter-add over the edges), against its jnp reference.

  Over the extended reals both programs compute, from the same aggregation `A` of the same projection, the rectified
  array `R = max (A + b, 0)` and then `((R − μ) · rsqrt (var + ε)) · γ + β` column by column with `μ` the column mean.
  They differ in the variance only: the kernel program takes `(∑ R²)/N − μ²`, the reference `(∑ (R − μ)²)/N`, with
  `N = 40000` the number of rows.  Under the precondition the features, the weights and the bias are real; the
  projection, the degree normalisation (a positive degree to the power −1/2, or 0), the gathers and the accumulating
  scatters keep everything real; and for a real array the two variances are one number (Proof/Algebra.lean).  The
  narrowing of the projection's operands to bf16 is the identity over the extended reals, a kernel's matrix product
  and the host's are the same contraction, and a sum's order and tiling do not matter.

  The three frames: the two kernel programs' are the generated ones; the reference's is its run (Proof/RefRun.lean)
  with the result dropped.  The idealisation rewrote nothing.  The value claim: the kernel program's run with its
  result array named (Proof/KRun.lean), that array read back through the three pallas_calls and the host operations
  between them (Proof/Reg0Value.lean, Reg1Value.lean, Reg2Value.lean, KHost.lean, KValue.lean, KRows.lean), the
  reference's result read index by index (Proof/RefValue.lean), finiteness (Proof/Finite.lean, ChainReal.lean) and
  the law above.
-/
import proofs.«117184_j5583457485036_1_alg».proof.Defs
import proofs.«117184_j5583457485036_1_alg».proof.Proof.Gen.Kernel
import proofs.«117184_j5583457485036_1_alg».proof.Proof.Gen.Kernel.Frame
import proofs.«117184_j5583457485036_1_alg».proof.Proof.Gen.KernelIdeal
import proofs.«117184_j5583457485036_1_alg».proof.Proof.Gen.KernelIdeal.Frame
import proofs.«117184_j5583457485036_1_alg».proof.Proof.Gen.ReferenceIdeal
import proofs.«117184_j5583457485036_1_alg».proof.Proof.Gen.Pre_finite_inputs
import proofs.«117184_j5583457485036_1_alg».proof.Proof.KRun
import proofs.«117184_j5583457485036_1_alg».proof.Proof.KValue
import proofs.«117184_j5583457485036_1_alg».proof.Proof.Reg0Value
import proofs.«117184_j5583457485036_1_alg».proof.Proof.Reg1Value
import proofs.«117184_j5583457485036_1_alg».proof.Proof.Reg2Value
import proofs.«117184_j5583457485036_1_alg».proof.Proof.RefRun
import proofs.«117184_j5583457485036_1_alg».proof.Proof.RefValue
import proofs.«117184_j5583457485036_1_alg».proof.Proof.Algebra
import proofs.«117184_j5583457485036_1_alg».proof.Proof.ChainReal
import proofs.«117184_j5583457485036_1_alg».proof.Proof.Finite
import Idealize.ShloMosaic.Adequacy
import Idealize.ShloMosaic.Init

set_option maxRecDepth 16384

noncomputable section

namespace Cert.Proof

open Idealize.ShloMosaic Idealize.SL.Sem

/-- Both programs cite the same shape facts and dimension records for the graph part. -/
theorem recs_eq : Cert.KernelIdeal.KV.recs = Cert.ReferenceIdeal.RV.recs := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RV.run m ρ)

/-- Both programs end at the layer's output of arguments that agree: the kernel program's with the variance as the
    mean of the squares minus the square of the mean, the reference's with the mean of the squared deviations, one
    number on a real array. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v59),
    Cert.KernelIdeal.KV.run_named (F := Ideal) m ρ, ?_⟩
  refine (θ_run Cert.ReferenceIdeal.defs _ _).mono (fun _ h c => ⟨(h c).1.trans ?_, (h c).2⟩)
    (Cert.ReferenceIdeal.RV.run m' ρ')
  obtain ⟨hx, hw, hb⟩ := Cert.Finite.real_of_pre m hpre c
  rw [(hagree c).1, (hagree c).2.1, (hagree c).2.2.1, (hagree c).2.2.2.1, (hagree c).2.2.2.2.1, (hagree c).2.2.2.2.2]
  rw [Cert.ReferenceIdeal.RV.refRaw_eq]
  refine Eq.trans ?_ (Cert.KernelIdeal.KV.W8_out m ρ c Cert.KernelIdeal.KV.final0 Cert.KernelIdeal.KV.final1_2
    Cert.KernelIdeal.KV.final1_3 Cert.KernelIdeal.KV.final1_4 Cert.KernelIdeal.KV.final2).symm
  rw [← recs_eq]
  exact (Cert.Spec.outOf_varK_eq _
    (Cert.Chain.relu1_isReal _ _ (Cert.Chain.agg_isReal _ _ (Cert.Chain.mm_isReal _ _ hx hw) _) hb) _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
